-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S131x128 : Shape := ⟨2, ![131, 128]⟩
abbrev S128 : Shape := ⟨1, ![128]⟩
abbrev S128x128 : Shape := ⟨2, ![128, 128]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16384x64 : S_.BroadcastsInDim S4x16384x64 (![] : Fin 0 → Fin S4x16384x64.rank)
  reducesTo_S4x16384x64_S_d0_1_2 : S4x16384x64.ReducesTo [0, 1, 2] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S4x16384x3 .f32) (main_arg1 : FVec F S4x16384x64 .f32) (main_arg2 : IVec S4x16384x16 32) (main_arg3 : FVec F S131x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16384x64 .f32 := Host.absf main_arg1
  let main_cst_0 : FVec F S_ .f32 := constant S_ .f32 0x7F800000#32
  let main_v5 : FVec F S4x16384x64 .f32 := broadcastInDim S4x16384x64 ![] bcast_S_S4x16384x64 main_cst_0
  let main_v6 : IVec S4x16384x64 1 := cmpf .olt main_v4 main_v5
  let main_c_1 : IVec S_ 1 := constantI S_ 1 1#1
  let main_v7 : IVec S_ 1 := (fun x v => Host.reduce IntOp.andi x v reducesTo_S4x16384x64_S_d0_1_2 h_S_) main_v6 main_c_1
  let main_v8 : IVec S_ 1 := andi main_v3 main_v7
  let main_v9 : FVec F S131x128 .f32 := Host.absf main_arg3
  let main_cst_2 : FVec F S_ .f32 := constant S_ .f32 0x7F800000#32
  let main_v10 : FVec F S131x128 .f32 := broadcastInDim S131x128 ![] bcast_S_S131x128 main_cst_2
  let main_v11 : IVec S131x128 1 := cmpf .olt main_v9 main_v10
  let main_c_3 : IVec S_ 1 := constantI S_ 1 1#1
  let main_v12 : IVec S_ 1 := (fun x v => Host.reduce IntOp.andi x v reducesTo_S131x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S131x128 : Shape := ⟨2, ![131, 128]⟩
abbrev S128 : Shape := ⟨1, ![128]⟩
abbrev S128x128 : Shape := ⟨2, ![128, 128]⟩
abbrev S_ : Shape := ⟨0, ![]⟩
abbrev S4x16384x16x1 : Shape := ⟨4, ![4, 16384, 16, 1]⟩
abbrev S4x16384x16x64 : Shape := ⟨4, ![4, 16384, 16, 64]⟩
abbrev S4x16384x16x3 : Shape := ⟨4, ![4, 16384, 16, 3]⟩
abbrev S3x128 : Shape := ⟨2, ![3, 128]⟩
abbrev S64x128 : Shape := ⟨2, ![64, 128]⟩
abbrev S1x128 : Shape := ⟨2, ![1, 128]⟩
abbrev S1x512x16x64 : Shape := ⟨4, ![1, 512, 16, 64]⟩
abbrev S1x512x16x3 : Shape := ⟨4, ![1, 512, 16, 3]⟩
abbrev S1x512x64 : Shape := ⟨3, ![1, 512, 64]⟩
abbrev S1x512x3 : Shape := ⟨3, ![1, 512, 3]⟩
abbrev S512x3 : Shape := ⟨2, ![512, 3]⟩
abbrev S512x64 : Shape := ⟨2, ![512, 64]⟩
abbrev S512x16x3 : Shape := ⟨3, ![512, 16, 3]⟩
abbrev S512x16x64 : Shape := ⟨3, ![512, 16, 64]⟩
abbrev S512x1x3 : Shape := ⟨3, ![512, 1, 3]⟩
abbrev S512x1x64 : Shape := ⟨3, ![512, 1, 64]⟩
abbrev S8192x3 : Shape := ⟨2, ![8192, 3]⟩
abbrev S8192x128 : Shape := ⟨2, ![8192, 128]⟩
abbrev S512x16x128 : Shape := ⟨3, ![512, 16, 128]⟩
abbrev S8192x64 : Shape := ⟨2, ![8192, 64]⟩
abbrev S1x1x128 : Shape := ⟨3, ![1, 1, 128]⟩
abbrev S4x16384x128 : Shape := ⟨3, ![4, 16384, 128]⟩
abbrev S1x512x128 : Shape := ⟨3, ![1, 512, 128]⟩
abbrev S512x128 : Shape := ⟨2, ![512, 128]⟩

abbrev nBuf : Space → Nat
  | .hbm => 56
  | .vmem => 32
  | .smem => 0
  | _ => 0

abbrev bufTy : (tb : Table) → Fin (tcTables nBuf tb) → BufTy
  | .hbm, ⟨0, _⟩ => ⟨S4x16384x3, .f32⟩
  | .hbm, ⟨1, _⟩ => ⟨S4x16384x64, .f32⟩
  | .hbm, ⟨2, _⟩ => ⟨S4x16384x16, .i32⟩
  | .hbm, ⟨3, _⟩ => ⟨S131x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S4x16384x16, .i32⟩
  | .hbm, ⟨11, _⟩ => ⟨S4x16384x16, .i1⟩
  | .hbm, ⟨12, _⟩ => ⟨S_, .i32⟩
  | .hbm, ⟨13, _⟩ => ⟨S4x16384x16, .i32⟩
  | .hbm, ⟨14, _⟩ => ⟨S4x16384x16, .i32⟩
  | .hbm, ⟨15, _⟩ => ⟨S4x16384x16, .i32⟩
  | .hbm, ⟨16, _⟩ => ⟨S4x16384x16x1, .i32⟩
  | .hbm, ⟨17, _⟩ => ⟨S4x16384x16x64, .f32⟩
  | .hbm, ⟨18, _⟩ => ⟨S_, .i32⟩
  | .hbm, ⟨19, _⟩ => ⟨S4x16384x16, .i32⟩
  | .hbm, ⟨20, _⟩ => ⟨S4x16384x16, .i1⟩
  | .hbm, ⟨21, _⟩ => ⟨S_, .i32⟩
  | .hbm, ⟨22, _⟩ => ⟨S4x16384x16, .i32⟩
  | .hbm, ⟨23, _⟩ => ⟨S4x16384x16, .i32⟩
  | .hbm, ⟨24, _⟩ => ⟨S4x16384x16, .i32⟩
  | .hbm, ⟨25, _⟩ => ⟨S4x16384x16x1, .i32⟩
  | .hbm, ⟨26, _⟩ => ⟨S4x16384x16x3, .f32⟩
  | .hbm, ⟨27, _⟩ => ⟨S3x128, .f32⟩
  | .hbm, ⟨28, _⟩ => ⟨S3x128, .bf16⟩
  | .hbm, ⟨29, _⟩ => ⟨S64x128, .f32⟩
  | .hbm, ⟨30, _⟩ => ⟨S64x128, .bf16⟩
  | .hbm, ⟨31, _⟩ => ⟨S64x128, .f32⟩
  | .hbm, ⟨32, _⟩ => ⟨S64x128, .bf16⟩
  | .hbm, ⟨33, _⟩ => ⟨S128x128, .bf16⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S4x16384x128, .f32⟩
  | .local _ .vmem, ⟨0, _⟩ => ⟨S1x512x16x64, .f32⟩
  | .local _ .vmem, ⟨1, _⟩ => ⟨S1x512x16x64, .f32⟩
  | .local _ .vmem, ⟨2, _⟩ => ⟨S1x512x16x3, .f32⟩
  | .local _ .vmem, ⟨3, _⟩ => ⟨S1x512x16x3, .f32⟩
  | .local _ .vmem, ⟨4, _⟩ => ⟨S1x512x64, .f32⟩
  | .local _ .vmem, ⟨5, _⟩ => ⟨S1x512x64, .f32⟩
  | .local _ .vmem, ⟨6, _⟩ => ⟨S1x512x3, .f32⟩
  | .local _ .vmem, ⟨7, _⟩ => ⟨S1x512x3, .f32⟩
  | .local _ .vmem, ⟨8, _⟩ => ⟨S3x128, .bf16⟩
  | .local _ .vmem, ⟨9, _⟩ => ⟨S64x128, .bf16⟩
  | .local _ .vmem, ⟨10, _⟩ => ⟨S64x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x512x16x64, .f32⟩
  | .local _ .vmem, ⟨15, _⟩ => ⟨S1x512x16x64, .f32⟩
  | .local _ .vmem, ⟨16, _⟩ => ⟨S1x512x16x3, .f32⟩
  | .local _ .vmem, ⟨17, _⟩ => ⟨S1x512x16x3, .f32⟩
  | .local _ .vmem, ⟨18, _⟩ => ⟨S1x512x64, .f32⟩
  | .local _ .vmem, ⟨19, _⟩ => ⟨S1x512x64, .f32⟩
  | .local _ .vmem, ⟨20, _⟩ => ⟨S1x512x3, .f32⟩
  | .local _ .vmem, ⟨21, _⟩ => ⟨S1x512x3, .f32⟩
  | .local _ .vmem, ⟨22, _⟩ => ⟨S3x128, .bf16⟩
  | .local _ .vmem, ⟨23, _⟩ => ⟨S64x128, .bf16⟩
  | .local _ .vmem, ⟨24, _⟩ => ⟨S64x128, .bf16⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S1x512x128, .f32⟩
  | .local _ .vmem, ⟨31, _⟩ => ⟨S1x512x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg12_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem12_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![4, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x16x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S3x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  slices_S131x128_S3x128_0_0 : S131x128.Slices ![0, 0] S3x128
  bitsLt_bf16_f32 : FTy.bits .bf16 < FTy.bits .f32
  slices_S131x128_S64x128_3_0 : S131x128.Slices ![3, 0] S64x128
  slices_S131x128_S64x128_67_0 : S131x128.Slices ![67, 0] S64x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x16x3_S1x512x16x3_0_0_0_0 : ∀ a, (![0, 0, 0, 0] : Fin 4 → Nat) a + S1x512x16x3.size a ≤ S1x512x16x3.size a
  h_S1x512x16x3 : 0 < S1x512x16x3.numel
  shapeCasts_S1x512x16x3_S512x16x3 : S1x512x16x3.ShapeCasts S512x16x3
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  shapeCasts_S512x3_S512x1x3 : S512x3.ShapeCasts S512x1x3
  broadcasts_S512x1x3_S512x16x3 : S512x1x3.Broadcasts S512x16x3
  shapeCasts_S512x64_S512x1x64 : S512x64.ShapeCasts S512x1x64
  shapeCasts_S512x1x64_S512x1x64 : S512x1x64.ShapeCasts S512x1x64
  broadcasts_S512x1x64_S512x16x64 : S512x1x64.Broadcasts S512x16x64
  inb_S3x128_S3x128_0_0 : ∀ a, (![0, 0] : Fin 2 → Nat) a + S3x128.size a ≤ S3x128.size a
  h_S3x128 : 0 < S3x128.numel
  shapeCasts_S3x128_S3x128 : S3x128.ShapeCasts S3x128
  shapeCasts_S512x16x3_S8192x3 : S512x16x3.ShapeCasts S8192x3
  shapeCasts_S8192x128_S512x16x128 : S8192x128.ShapeCasts S512x16x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S512x16x64_S8192x64 : S512x16x64.ShapeCasts S8192x64
  shapeCasts_S1x128_S1x128 : S1x128.ShapeCasts S1x128
  shapeCasts_S1x128_S1x1x128 : S1x128.ShapeCasts S1x1x128
  broadcasts_S1x1x128_S512x16x128 : S1x1x128.Broadcasts S512x16x128
  shapeCasts_S512x16x128_S8192x128 : S512x16x128.ShapeCasts S8192x128
  reduces_S8192x128_S128 : S8192x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S8192x128 : S1x128.Broadcasts S8192x128
  reduces_S512x16x128_S512x128 : S512x16x128.Reduces [1] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  gather_S4x16384x64_S4x16384x16x1_S4x16384x16x64_3_1_0_0_1_3_1164_wf : GatherDims.WF S4x16384x64 S4x16384x16x1 S4x16384x16x64 [3] [1] [0] [1] [0] 3 ![1, 1, 64]
  gather_S4x16384x3_S4x16384x16x1_S4x16384x16x3_3_1_0_0_1_3_113_wf : GatherDims.WF S4x16384x3 S4x16384x16x1 S4x16384x16x3 [3] [1] [0] [1] [0] 3 ![1, 1, 3]
  dot_S8192x3_S3x128_S8192x128_1_0_0_1_n_n_wf : DotDims.WF S8192x3 S3x128 S8192x128 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x64.size a ≤ S4x16384x16x64.size a
  hwx0_0 : ∀ i : grid0.Coords, EltTy.bits .f32 = 32 ∨ (Rect.block (s := S4x16384x16x64) S1x512x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16x3.size a ≤ S4x16384x16x3.size a
  hwx0_1 : ∀ i : grid0.Coords, EltTy.bits .f32 = 32 ∨ (Rect.block (s := S4x16384x16x3) S1x512x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x16384x64.size a
  hwx0_2 : ∀ i : grid0.Coords, EltTy.bits .f32 = 32 ∨ (Rect.block (s := S4x16384x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3.size a ≤ S4x16384x3.size a
  hwx0_3 : ∀ i : grid0.Coords, EltTy.bits .f32 = 32 ∨ (Rect.block (s := S4x16384x3) S1x512x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .bf16 = 32 ∨ (Rect.block (s := S3x128) S3x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16x64.size a ≤ S4x16384x16x64.size a
  hwx1_0 : ∀ i : grid1.Coords, EltTy.bits .f32 = 32 ∨ (Rect.block (s := S4x16384x16x64) S1x512x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x16x3.size a ≤ S4x16384x16x3.size a
  hwx1_1 : ∀ i : grid1.Coords, EltTy.bits .f32 = 32 ∨ (Rect.block (s := S4x16384x16x3) S1x512x16x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S4x16384x64.size a
  hwx1_2 : ∀ i : grid1.Coords, EltTy.bits .f32 = 32 ∨ (Rect.block (s := S4x16384x64) S1x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x3.size a ≤ S4x16384x3.size a
  hwx1_3 : ∀ i : grid1.Coords, EltTy.bits .f32 = 32 ∨ (Rect.block (s := S4x16384x3) S1x512x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128.size a ≤ S3x128.size a
  hwx1_4 : ∀ i : grid1.Coords, EltTy.bits .bf16 = 32 ∨ (Rect.block (s := S3x128) S3x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .bf16 = 32 ∨ (Rect.block (s := S64x128) S64x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .bf16 = 32 ∨ (Rect.block (s := S64x128) S64x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .bf16 = 32 ∨ (Rect.block (s := S128x128) S128x128.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x512x128.size a ≤ S4x16384x128.size a
  hwx1_12 : ∀ i : grid1.Coords, EltTy.bits .f32 = 32 ∨ (Rect.block (s := S4x16384x128) S1x512x128.size (cc1_transform_12 i) (hinb1_12 i)).WholeWords (EltTy.packing .f32)

variable [Facts₀]

def gather_S4x16384x64_S4x16384x16x1_S4x16384x16x64_3_1_0_0_1_3_1164 : GatherDims S4x16384x64 S4x16384x16x1 S4x16384x16x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x16x1_S4x16384x16x64_3_1_0_0_1_3_1164_wf
def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v6) S1x512x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23_0) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_1) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S1x512x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512x16x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S3x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v22) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S1x512x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S131x128 : Shape := ⟨2, ![131, 128]⟩
abbrev S128 : Shape := ⟨1, ![128]⟩
abbrev S128x128 : Shape := ⟨2, ![128, 128]⟩
abbrev S_ : Shape := ⟨0, ![]⟩
abbrev S4x16384x16x1 : Shape := ⟨4, ![4, 16384, 16, 1]⟩
abbrev S4x16384x16x64 : Shape := ⟨4, ![4, 16384, 16, 64]⟩
abbrev S4x16384x16x3 : Shape := ⟨4, ![4, 16384, 16, 3]⟩
abbrev S4x16384x1x3 : Shape := ⟨4, ![4, 16384, 1, 3]⟩
abbrev S4x16384x1x64 : Shape := ⟨4, ![4, 16384, 1, 64]⟩
abbrev S4x16384x16x131 : Shape := ⟨4, ![4, 16384, 16, 131]⟩
abbrev S4x16384x16x128 : Shape := ⟨4, ![4, 16384, 16, 128]⟩
abbrev S1x1x1x128 : Shape := ⟨4, ![1, 1, 1, 128]⟩
abbrev S4x16384x128 : Shape := ⟨3, ![4, 16384, 128]⟩

abbrev nBuf : Space → Nat
  | .hbm => 90
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16384x64, .f32⟩
  | .hbm, ⟨2, _⟩ => ⟨S4x16384x16, .i32⟩
  | .hbm, ⟨3, _⟩ => ⟨S131x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S4x16384x16, .i32⟩
  | .hbm, ⟨11, _⟩ => ⟨S4x16384x16, .i1⟩
  | .hbm, ⟨12, _⟩ => ⟨S_, .i32⟩
  | .hbm, ⟨13, _⟩ => ⟨S4x16384x16, .i32⟩
  | .hbm, ⟨14, _⟩ => ⟨S4x16384x16, .i32⟩
  | .hbm, ⟨15, _⟩ => ⟨S4x16384x16, .i32⟩
  | .hbm, ⟨16, _⟩ => ⟨S4x16384x16x1, .i32⟩
  | .hbm, ⟨17, _⟩ => ⟨S4x16384x16x64, .f32⟩
  | .hbm, ⟨18, _⟩ => ⟨S_, .i32⟩
  | .hbm, ⟨19, _⟩ => ⟨S4x16384x16, .i32⟩
  | .hbm, ⟨20, _⟩ => ⟨S4x16384x16, .i1⟩
  | .hbm, ⟨21, _⟩ => ⟨S_, .i32⟩
  | .hbm, ⟨22, _⟩ => ⟨S4x16384x16, .i32⟩
  | .hbm, ⟨23, _⟩ => ⟨S4x16384x16, .i32⟩
  | .hbm, ⟨24, _⟩ => ⟨S4x16384x16, .i32⟩
  | .hbm, ⟨25, _⟩ => ⟨S4x16384x16x1, .i32⟩
  | .hbm, ⟨26, _⟩ => ⟨S4x16384x16x3, .f32⟩
  | .hbm, ⟨27, _⟩ => ⟨S4x16384x1x3, .f32⟩
  | .hbm, ⟨28, _⟩ => ⟨S4x16384x16x3, .f32⟩
  | .hbm, ⟨29, _⟩ => ⟨S4x16384x16x3, .f32⟩
  | .hbm, ⟨30, _⟩ => ⟨S4x16384x1x64, .f32⟩
  | .hbm, ⟨31, _⟩ => ⟨S4x16384x16x64, .f32⟩
  | .hbm, ⟨32, _⟩ => ⟨S4x16384x16x131, .f32⟩
  | .hbm, ⟨33, _⟩ => ⟨S4x16384x16x128, .f32⟩
  | .hbm, ⟨34, _⟩ => ⟨S1x1x1x128, .f32⟩
  | .hbm, ⟨35, _⟩ => ⟨S4x16384x16x128, .f32⟩
  | .hbm, ⟨36, _⟩ => ⟨S4x16384x16x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x1x1x128, .f32⟩
  | .hbm, ⟨46, _⟩ => ⟨S_, .f32⟩
  | .hbm, ⟨47, _⟩ => ⟨S1x1x1x128, .f32⟩
  | .hbm, ⟨48, _⟩ => ⟨S1x1x1x128, .f32⟩
  | .hbm, ⟨49, _⟩ => ⟨S4x16384x16x128, .f32⟩
  | .hbm, ⟨50, _⟩ => ⟨S4x16384x16x128, .f32⟩
  | .hbm, ⟨51, _⟩ => ⟨S4x16384x16x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x1x1x128, .f32⟩
  | .hbm, ⟨66, _⟩ => ⟨S4x16384x16x128, .f32⟩
  | .hbm, ⟨67, _⟩ => ⟨S4x16384x16x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x1x1x128, .f32⟩
  | .hbm, ⟨73, _⟩ => ⟨S4x16384x16x128, .f32⟩
  | .hbm, ⟨74, _⟩ => ⟨S4x16384x16x128, .f32⟩
  | .hbm, ⟨75, _⟩ => ⟨S1x1x1x128, .f32⟩
  | .hbm, ⟨76, _⟩ => ⟨S4x16384x16x128, .f32⟩
  | .hbm, ⟨77, _⟩ => ⟨S4x16384x16x128, .f32⟩
  | .hbm, ⟨78, _⟩ => ⟨S1x1x1x128, .f32⟩
  | .hbm, ⟨79, _⟩ => ⟨S4x16384x16x128, .f32⟩
  | .hbm, ⟨80, _⟩ => ⟨S4x16384x16x128, .f32⟩
  | .hbm, ⟨81, _⟩ => ⟨S_, .f32⟩
  | .hbm, ⟨82, _⟩ => ⟨S4x16384x16x128, .f32⟩
  | .hbm, ⟨83, _⟩ => ⟨S4x16384x16x128, .f32⟩
  | .hbm, ⟨84, _⟩ => ⟨S4x16384x16x128, .f32⟩
  | .hbm, ⟨85, _⟩ => ⟨S1x1x1x128, .f32⟩
  | .hbm, ⟨86, _⟩ => ⟨S4x16384x16x128, .f32⟩
  | .hbm, ⟨87, _⟩ => ⟨S4x16384x16x128, .f32⟩
  | .hbm, ⟨88, _⟩ => ⟨S_, .f32⟩
  | .hbm, ⟨89, _⟩ => ⟨S4x16384x128, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_6 : Ref sig .tc := ⟨.hbm, 88, rfl⟩
abbrev main_v48 : Ref sig .tc := ⟨.hbm, 89, rfl⟩

abbrev nD : Nat := 1
abbrev τ : Topo := Topo.v7x

variable {F : FTy → Type} [FloatOps F]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  bcast_S4x16384x64_S4x16384x1x64_0_1_3 : S4x16384x64.BroadcastsInDim S4x16384x1x64 (![0, 1, 3] : Fin 3 → Fin S4x16384x1x64.rank)
  bcast_S4x16384x1x64_S4x16384x16x64_0_1_2_3 : S4x16384x1x64.BroadcastsInDim S4x16384x16x64 (![0, 1, 2, 3] : Fin 4 → Fin S4x16384x16x64.rank)
  concatenates_S4x16384x16x3_S4x16384x16x64_S4x16384x16x64_S4x16384x16x131_d3 : Shape.Concatenates [S4x16384x16x3, S4x16384x16x64, S4x16384x16x64] S4x16384x16x131 3
  bcast_S128_S1x1x1x128_3 : S128.BroadcastsInDim S1x1x1x128 (![3] : Fin 1 → Fin S1x1x1x128.rank)
  bcast_S1x1x1x128_S4x16384x16x128_0_1_2_3 : S1x1x1x128.BroadcastsInDim S4x16384x16x128 (![0, 1, 2, 3] : Fin 4 → Fin S4x16384x16x128.rank)
  reducesTo_S4x16384x16x128_S128_d0_1_2 : S4x16384x16x128.ReducesTo [0, 1, 2] S128
  h_S_ : 0 < S_.numel
  bcast_S_S128 : S_.BroadcastsInDim S128 (![] : Fin 0 → Fin S128.rank)
  bcast_S_S1x1x1x128 : S_.BroadcastsInDim S1x1x1x128 (![] : Fin 0 → Fin S1x1x1x128.rank)
  bcast_S_S4x16384x16x128 : S_.BroadcastsInDim S4x16384x16x128 (![] : Fin 0 → Fin S4x16384x16x128.rank)
  reducesTo_S4x16384x16x128_S4x16384x128_d2 : S4x16384x16x128.ReducesTo [2] S4x16384x128
  gather_S4x16384x64_S4x16384x16x1_S4x16384x16x64_3_1_0_0_1_3_1164_wf : GatherDims.WF S4x16384x64 S4x16384x16x1 S4x16384x16x64 [3] [1] [0] [1] [0] 3 ![1, 1, 64]
  gather_S4x16384x3_S4x16384x16x1_S4x16384x16x3_3_1_0_0_1_3_113_wf : GatherDims.WF S4x16384x3 S4x16384x16x1 S4x16384x16x3 [3] [1] [0] [1] [0] 3 ![1, 1, 3]
  dot_S4x16384x16x131_S131x128_S4x16384x16x128_3_0_012_1_n_n_wf : DotDims.WF S4x16384x16x131 S131x128 S4x16384x16x128 [3] [0] [0, 1, 2] [1] [] []
  dot_S4x16384x16x128_S128x128_S4x16384x16x128_3_0_012_1_n_n_wf : DotDims.WF S4x16384x16x128 S128x128 S4x16384x16x128 [3] [0] [0, 1, 2] [1] [] []

variable [Facts₀]

def gather_S4x16384x64_S4x16384x16x1_S4x16384x16x64_3_1_0_0_1_3_1164 : GatherDims S4x16384x64 S4x16384x16x1 S4x16384x16x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x16x1_S4x16384x16x64_3_1_0_0_1_3_1164_wf
def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S4x16384x16x131_S131x128_S4x16384x16x128_3_0_012_1_n_n : DotDims S4x16384x16x131 S131x128 S4x16384x16x128 where
  lhsContracting := [3]
  rhsContracting := [0]
  lhsNonContracting := [0, 1, 2]
  rhsNonContracting := [1]
  lhsBatch := []
  rhsBatch := []
  wf := dot_S4x16384x16x131_S131x128_S4x16384x16x128_3_0_012_1_n_n_wf
def dot_S4x16384x16x128_S128x128_S4x16384x16x128_3_0_012_1_n_n : DotDims S4x16384x16x128 S128x128 S4x16384x16x128 where
  lhsContracting := [3]
  rhsContracting := [0]
  lhsNonContracting := [0, 1, 2]
  rhsNonContracting := [1]
  lhsBatch := []
  rhsBatch := []
  wf := dot_S4x16384x16x128_S128x128_S4x16384x16x128_3_0_012_1_n_n_wf

class Facts : Prop extends Facts₀ where

variable [Facts]
-- ==== Proof.Spec.lean ====
/-
  The mathematics of the two programs, stated once over plain coordinate functions on the extended reals.

  A point cloud layer: for batch b, point n and neighbour k the feature row is the concatenation of the neighbour's
  relative position (3 numbers), the point's own features (64) and the neighbour's features (64); a linear map to 128
  channels gives the pre-activation H; H is normalized per channel by its mean and variance over all (b, n, k), scaled
  and shifted, clipped at zero, mapped linearly again, and maximized over the 16 neighbours.

  One side sums the three parts of the row separately, takes the variance as E[H^2] - E[H]^2 and folds the
  normalization into one affine map H * scale + shift; the other takes one sum over the 131 entries, the variance as
  E[(H - E[H])^2] and normalizes as ((H - mean) * r) * gamma + beta. Over the reals these agree; the laws used
  (distributing a product over a difference, expanding a square) need every H to be a real number.
-/
import Idealize.ShloMosaic.PureOps.Ideal
import Idealize.ShloMosaic.Lib.ValueIdx

noncomputable section

open scoped BigOperators

namespace Cert.PN

open Idealize.ShloMosaic Idealize.ShloMosaic.ValueIdx

/-- The number of (b, n, k) triples, 4 * 16384 * 16 = 2^20, as the f32 pattern both programs divide by. -/
abbrev Nlit : EReal := Ideal.ofBits .f32 0x49800000#32
/-- The variance offset (f32 nearest 1e-5). -/
abbrev epsLit : EReal := Ideal.ofBits .f32 0x3727C5AC#32
/-- The f32 pattern of +0.0. -/
abbrev zeroLit : EReal := Ideal.ofBits .f32 0x00000000#32
/-- The f32 pattern of -infinity, where both maxima over the neighbours start. -/
abbrev ninfLit : EReal := Ideal.ofBits .f32 0xFF800000#32

/-- Coordinates instead of an index, rank 1 to 4. -/
abbrev cur1 {α : Type} {n0 : Nat} (x : (⟨1, ![n0]⟩ : Shape).Idx → α) : Fin n0 → α := fun a => x (ix1 a)
abbrev cur2 {α : Type} {n0 n1 : Nat} (x : (⟨2, ![n0, n1]⟩ : Shape).Idx → α) : Fin n0 → Fin n1 → α := fun a b => x (ix2 a b)
abbrev cur3 {α : Type} {n0 n1 n2 : Nat} (x : (⟨3, ![n0, n1, n2]⟩ : Shape).Idx → α) : Fin n0 → Fin n1 → Fin n2 → α :=
  fun a b c => x (ix3 a b c)
abbrev cur4 {α : Type} {n0 n1 n2 n3 : Nat} (x : (⟨4, ![n0, n1, n2, n3]⟩ : Shape).Idx → α) :
    Fin n0 → Fin n1 → Fin n2 → Fin n3 → α := fun a b c d => x (ix4 a b c d)

/-- A function of (b, n, k, channel). -/
abbrev Act := Fin 4 → Fin 16384 → Fin 16 → Fin 128 → EReal

section Pre
variable (xyz : Fin 4 → Fin 16384 → Fin 3 → EReal) (feat : Fin 4 → Fin 16384 → Fin 64 → EReal)
  (XN : Fin 4 → Fin 16384 → Fin 16 → Fin 3 → EReal) (FN : Fin 4 → Fin 16384 → Fin 16 → Fin 64 → EReal)

/-- The pre-activation as three partial products added in order, then the bias. -/
def preK (wx : Fin 3 → Fin 128 → EReal) (wc wn : Fin 64 → Fin 128 → EReal) (b1 : Fin 128 → EReal) : Act :=
  fun b n k j => ((∑ i : Fin 3, (XN b n k i - xyz b n i) * wx i j + ∑ i : Fin 64, feat b n i * wc i j)
    + ∑ i : Fin 64, FN b n k i * wn i j) + b1 j

/-- The concatenated row: entries 0..2 the relative position, 3..66 the point's features, 67..130 the neighbour's. -/
def catRow (b : Fin 4) (n : Fin 16384) (k : Fin 16) (i : Fin 131) : EReal :=
  if h : i.val < 3 then XN b n k ⟨i.val, h⟩ - xyz b n ⟨i.val, h⟩
  else if h2 : i.val < 67 then feat b n ⟨i.val - 3, by omega⟩
  else FN b n k ⟨i.val - 67, by have := i.isLt; omega⟩

/-- The pre-activation as one product with the whole weight matrix, then the bias. -/
def preR (W1 : Fin 131 → Fin 128 → EReal) (b1 : Fin 128 → EReal) : Act :=
  fun b n k j => (∑ i : Fin 131, catRow xyz feat XN FN b n k i * W1 i j) + b1 j

/-- The three row blocks of the weight matrix. -/
abbrev rowsX (W1 : Fin 131 → Fin 128 → EReal) : Fin 3 → Fin 128 → EReal := fun i j => W1 ⟨i.val, by omega⟩ j
abbrev rowsC (W1 : Fin 131 → Fin 128 → EReal) : Fin 64 → Fin 128 → EReal := fun i j => W1 ⟨3 + i.val, by omega⟩ j
abbrev rowsN (W1 : Fin 131 → Fin 128 → EReal) : Fin 64 → Fin 128 → EReal := fun i j => W1 ⟨67 + i.val, by omega⟩ j

end Pre

/-- The sum over all (b, n, k), per channel. -/
def sum3 (H : Act) (j : Fin 128) : EReal := ∑ b : Fin 4, ∑ n : Fin 16384, ∑ k : Fin 16, H b n k j

/-- The squares. -/
def sq (H : Act) : Act := fun b n k j => H b n k j * H b n k j

/-! ### One side: E[H^2] - E[H]^2, folded into an affine map -/

def meanK (H : Act) (j : Fin 128) : EReal := Ideal.div (sum3 H j) Nlit
def varK (H : Act) (j : Fin 128) : EReal := Ideal.div (sum3 (sq H) j) Nlit - meanK H j * meanK H j
def scaleK (H : Act) (γ : Fin 128 → EReal) (j : Fin 128) : EReal := γ j * Ideal.rsqrt (varK H j + epsLit)
def shiftK (H : Act) (γ β : Fin 128 → EReal) (j : Fin 128) : EReal := β j - meanK H j * scaleK H γ j
/-- H * scale + shift, for any scale and shift vectors. -/
def affine (H : Act) (sc sh : Fin 128 → EReal) : Act := fun b n k j => H b n k j * sc j + sh j
def yK (H : Act) (γ β : Fin 128 → EReal) : Act := affine H (scaleK H γ) (shiftK H γ β)

/-! ### The other side: E[(H - E[H])^2], normalized in steps -/

def meanR (H : Act) (j : Fin 128) : EReal := Ideal.div (zeroLit + sum3 H j) Nlit
def centred (H : Act) : Act := fun b n k j => H b n k j - meanR H j
def varR (H : Act) (j : Fin 128) : EReal := Ideal.div (zeroLit + sum3 (sq (centred H)) j) Nlit
def yR (H : Act) (γ β : Fin 128 → EReal) : Act :=
  fun b n k j => ((H b n k j - meanR H j) * Ideal.rsqrt (varR H j + epsLit)) * γ j + β j

/-! ### The common tail: clip at zero, second linear map, maximum over the neighbours -/

def tail (Y : Act) (W2 : Fin 128 → Fin 128 → EReal) (b2 : Fin 128 → EReal)
    (b : Fin 4) (n : Fin 16384) (c : Fin 128) : EReal :=
  (Finset.univ : Finset (Fin 16)).fold max ninfLit
    (fun k => (∑ j : Fin 128, max (Y b n k j) zeroLit * W2 j c) + b2 c)

end Cert.PN

end
-- ==== Proof.KTerm.lean ====
/-
  The host-side values the idealized program hands its two regions, as functions of the argument arrays: the gathered
  neighbour rows, the three row blocks of the first weight matrix and the second matrix in the narrower format, the
  two biases as rows; and, between the regions, the mean, the variance, and the scale and shift the second region
  applies, as functions of the two sums the first region leaves.
-/
import proofs.«157681_j22162031247559_1_alg».proof.Proof.Gen.KernelIdeal.Launch
import proofs.«157681_j22162031247559_1_alg».proof.Proof.Spec

noncomputable section

namespace Cert.KernelIdeal.KV

open Cert.KernelIdeal Cert.KernelIdeal.Gen Idealize.ShloMosaic Idealize.ShloMosaic.ValueIdx

variable {F : FTy → Type} [FloatOps F]

/-- A neighbour index below zero is taken from the end: 16384 is added once. -/
def normIdx (a2 : (⟨S4x16384x16, .i32⟩ : BufTy).Contents (Elt F)) : (⟨S4x16384x16x1, .i32⟩ : BufTy).Contents (Elt F) :=
  broadcastInDim S4x16384x16x1 ![0, 1, 2] bcast_S4x16384x16_S4x16384x16x1_0_1_2
    (select (cmpi .slt a2 (broadcastInDim S4x16384x16 ![] bcast_S_S4x16384x16 (constantI S_ 32 0#32)))
      (addi a2 (broadcastInDim S4x16384x16 ![] bcast_S_S4x16384x16 (constantI S_ 32 16384#32))) a2)

/-- The neighbours' feature rows. -/
def gatherF (a1 : (⟨S4x16384x64, .f32⟩ : BufTy).Contents (Elt F)) (a2 : (⟨S4x16384x16, .i32⟩ : BufTy).Contents (Elt F)) :
    (⟨S4x16384x16x64, .f32⟩ : BufTy).Contents (Elt F) :=
  Host.gather gather_S4x16384x64_S4x16384x16x1_S4x16384x16x64_3_1_0_0_1_3_1164 a1 (normIdx a2)

/-- The neighbours' positions. -/
def gatherX (a0 : (⟨S4x16384x3, .f32⟩ : BufTy).Contents (Elt F)) (a2 : (⟨S4x16384x16, .i32⟩ : BufTy).Contents (Elt F)) :
    (⟨S4x16384x16x3, .f32⟩ : BufTy).Contents (Elt F) :=
  Host.gather gather_S4x16384x3_S4x16384x16x1_S4x16384x16x3_3_1_0_0_1_3_113 a0 (normIdx a2)

/-- Rows 0..2, 3..66 and 67..130 of the first weight matrix, and the second matrix, in the narrower format. -/
def wxT (a3 : (⟨S131x128, .f32⟩ : BufTy).Contents (Elt F)) : (⟨S3x128, .bf16⟩ : BufTy).Contents (Elt F) :=
  truncf .bf16 (extractStridedSlice S3x128 ![0, 0] a3 slices_S131x128_S3x128_0_0) bitsLt_bf16_f32
def wcT (a3 : (⟨S131x128, .f32⟩ : BufTy).Contents (Elt F)) : (⟨S64x128, .bf16⟩ : BufTy).Contents (Elt F) :=
  truncf .bf16 (extractStridedSlice S64x128 ![3, 0] a3 slices_S131x128_S64x128_3_0) bitsLt_bf16_f32
def wnT (a3 : (⟨S131x128, .f32⟩ : BufTy).Contents (Elt F)) : (⟨S64x128, .bf16⟩ : BufTy).Contents (Elt F) :=
  truncf .bf16 (extractStridedSlice S64x128 ![67, 0] a3 slices_S131x128_S64x128_67_0) bitsLt_bf16_f32
def w2T (a7 : (⟨S128x128, .f32⟩ : BufTy).Contents (Elt F)) : (⟨S128x128, .bf16⟩ : BufTy).Contents (Elt F) :=
  truncf .bf16 a7 bitsLt_bf16_f32

/-- A vector of 128 as one row. -/
def rowT (a : (⟨S128, .f32⟩ : BufTy).Contents (Elt F)) : (⟨S1x128, .f32⟩ : BufTy).Contents (Elt F) :=
  shapeCast S1x128 a shapeCasts_S128_S1x128

/-- The count 2^20 and the offset, as rows. -/
abbrev countRow : (⟨S1x128, .f32⟩ : BufTy).Contents (Elt F) :=
  broadcastInDim S1x128 ![] bcast_S_S1x128 (constant S_ .f32 0x49800000#32)
abbrev epsRow : (⟨S1x128, .f32⟩ : BufTy).Contents (Elt F) :=
  broadcastInDim S1x128 ![] bcast_S_S1x128 (constant S_ .f32 0x3727C5AC#32)

/-- Mean, variance, scale and shift from the two sums. -/
def meanT (s1 : (⟨S1x128, .f32⟩ : BufTy).Contents (Elt F)) : (⟨S1x128, .f32⟩ : BufTy).Contents (Elt F) :=
  Host.divf s1 countRow
def varT (s1 s2 : (⟨S1x128, .f32⟩ : BufTy).Contents (Elt F)) : (⟨S1x128, .f32⟩ : BufTy).Contents (Elt F) :=
  subf (Host.divf s2 countRow) (mulf (meanT s1) (meanT s1))
def scaleT (s1 s2 : (⟨S1x128, .f32⟩ : BufTy).Contents (Elt F)) (a5 : (⟨S128, .f32⟩ : BufTy).Contents (Elt F)) :
    (⟨S1x128, .f32⟩ : BufTy).Contents (Elt F) :=
  mulf (rowT a5) (Host.rsqrt (addf (varT s1 s2) epsRow))
def shiftT (s1 s2 : (⟨S1x128, .f32⟩ : BufTy).Contents (Elt F)) (a5 a6 : (⟨S128, .f32⟩ : BufTy).Contents (Elt F)) :
    (⟨S1x128, .f32⟩ : BufTy).Contents (Elt F) :=
  subf (rowT a6) (mulf (meanT s1) (scaleT s1 s2 a5))

/-! ### The same, at the extended reals, by coordinates -/

/-- The pre-activation over the arrays a region finds: windows 3, 2, 1, 0 (positions, features, gathered positions,
    gathered features) and 4 to 7 (the three weight blocks, the bias row). -/
def preOf (xyz : Vec Ideal S4x16384x3 .f32) (feat : Vec Ideal S4x16384x64 .f32) (xn : Vec Ideal S4x16384x16x3 .f32)
    (fn : Vec Ideal S4x16384x16x64 .f32) (wx : Vec Ideal S3x128 .bf16) (wc wn : Vec Ideal S64x128 .bf16)
    (b1 : Vec Ideal S1x128 .f32) : Cert.PN.Act :=
  Cert.PN.preK (Cert.PN.cur3 xyz) (Cert.PN.cur3 feat) (Cert.PN.cur4 xn) (Cert.PN.cur4 fn) (Cert.PN.cur2 wx)
    (Cert.PN.cur2 wc) (Cert.PN.cur2 wn) (fun j => b1 (ix2 0 j))

end Cert.KernelIdeal.KV

end
-- ==== Proof.KHost.lean ====
/-
  The contents the two regions are entered from, array by array, as the host operations' terms of the argument
  arrays; and that what the first region and the operations between the regions do not write is still there.
-/
import proofs.«157681_j22162031247559_1_alg».proof.Proof.Gen.KernelIdeal.Frame
import proofs.«157681_j22162031247559_1_alg».proof.Proof.KTerm
import Idealize.ShloMosaic.Lib.StableHlo.Run

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ### The first region's entry -/
theorem V1_v6 (c : Dev nD) : V1 m ρ c main_v6 = gatherF (m ((c.tc : Thread nD τ).loc main_arg1)) (m ((c.tc : Thread nD τ).loc main_arg2)) := by
  show StableHlo.after hostOps0 (W0 m ρ c) (Proc.devRef .tc main_v6) = _
  after_results
  rfl
theorem V1_v13 (c : Dev nD) : V1 m ρ c main_v13 = gatherX (m ((c.tc : Thread nD τ).loc main_arg0)) (m ((c.tc : Thread nD τ).loc main_arg2)) := by
  show StableHlo.after hostOps0 (W0 m ρ c) (Proc.devRef .tc main_v13) = _
  after_results
  rfl
theorem V1_arg0 (c : Dev nD) : V1 m ρ c main_arg0 = m ((c.tc : Thread nD τ).loc main_arg0) := by
  show StableHlo.after hostOps0 (W0 m ρ c) (Proc.devRef .tc main_arg0) = _
  after_results
theorem V1_arg1 (c : Dev nD) : V1 m ρ c main_arg1 = m ((c.tc : Thread nD τ).loc main_arg1) := by
  show StableHlo.after hostOps0 (W0 m ρ c) (Proc.devRef .tc main_arg1) = _
  after_results
theorem V1_v15 (c : Dev nD) : V1 m ρ c main_v15 = wxT (m ((c.tc : Thread nD τ).loc main_arg3)) := by
  show StableHlo.after hostOps0 (W0 m ρ c) (Proc.devRef .tc main_v15) = _
  after_results
  rfl
theorem V1_v17 (c : Dev nD) : V1 m ρ c main_v17 = wcT (m ((c.tc : Thread nD τ).loc main_arg3)) := by
  show StableHlo.after hostOps0 (W0 m ρ c) (Proc.devRef .tc main_v17) = _
  after_results
  rfl
theorem V1_v19 (c : Dev nD) : V1 m ρ c main_v19 = wnT (m ((c.tc : Thread nD τ).loc main_arg3)) := by
  show StableHlo.after hostOps0 (W0 m ρ c) (Proc.devRef .tc main_v19) = _
  after_results
  rfl
theorem V1_v21 (c : Dev nD) : V1 m ρ c main_v21 = rowT (m ((c.tc : Thread nD τ).loc main_arg4)) := by
  show StableHlo.after hostOps0 (W0 m ρ c) (Proc.devRef .tc main_v21) = _
  after_results
  rfl

/-! ### Walking back through the fold

The first region leaves each of its input arrays as entered, and the operations between the regions write
none of the arrays named here; so the contents at the second region's entry are those at the first's. -/

/-- An input array of the first region (windows 0 to 7) holds at the region's exit what it held at its entry. -/
private theorem W2_in0 (c : Dev nD) : W2 m ρ c (Proc.devRef .tc main_v6) = W1 m ρ c (Proc.devRef .tc main_v6) :=
  (W2_arr m ρ c 0).trans (((dat0 (V1 m ρ) c).arrAt_in 0 rfl _).trans (A_eq0 (V1 m ρ) c 0))
private theorem W2_in1 (c : Dev nD) : W2 m ρ c (Proc.devRef .tc main_v13) = W1 m ρ c (Proc.devRef .tc main_v13) :=
  (W2_arr m ρ c 1).trans (((dat0 (V1 m ρ) c).arrAt_in 1 rfl _).trans (A_eq0 (V1 m ρ) c 1))
private theorem W2_in2 (c : Dev nD) : W2 m ρ c (Proc.devRef .tc main_arg1) = W1 m ρ c (Proc.devRef .tc main_arg1) :=
  (W2_arr m ρ c 2).trans (((dat0 (V1 m ρ) c).arrAt_in 2 rfl _).trans (A_eq0 (V1 m ρ) c 2))
private theorem W2_in3 (c : Dev nD) : W2 m ρ c (Proc.devRef .tc main_arg0) = W1 m ρ c (Proc.devRef .tc main_arg0) :=
  (W2_arr m ρ c 3).trans (((dat0 (V1 m ρ) c).arrAt_in 3 rfl _).trans (A_eq0 (V1 m ρ) c 3))
private theorem W2_in4 (c : Dev nD) : W2 m ρ c (Proc.devRef .tc main_v15) = W1 m ρ c (Proc.devRef .tc main_v15) :=
  (W2_arr m ρ c 4).trans (((dat0 (V1 m ρ) c).arrAt_in 4 rfl _).trans (A_eq0 (V1 m ρ) c 4))
private theorem W2_in5 (c : Dev nD) : W2 m ρ c (Proc.devRef .tc main_v17) = W1 m ρ c (Proc.devRef .tc main_v17) :=
  (W2_arr m ρ c 5).trans (((dat0 (V1 m ρ) c).arrAt_in 5 rfl _).trans (A_eq0 (V1 m ρ) c 5))
private theorem W2_in6 (c : Dev nD) : W2 m ρ c (Proc.devRef .tc main_v19) = W1 m ρ c (Proc.devRef .tc main_v19) :=
  (W2_arr m ρ c 6).trans (((dat0 (V1 m ρ) c).arrAt_in 6 rfl _).trans (A_eq0 (V1 m ρ) c 6))
private theorem W2_in7 (c : Dev nD) : W2 m ρ c (Proc.devRef .tc main_v21) = W1 m ρ c (Proc.devRef .tc main_v21) :=
  (W2_arr m ρ c 7).trans (((dat0 (V1 m ρ) c).arrAt_in 7 rfl _).trans (A_eq0 (V1 m ρ) c 7))

/-- The two output arrays of the first region hold what its write-backs leave. -/
private theorem W2_sum (c : Dev nD) :
    W2 m ρ c (Proc.devRef .tc main_v23_0) = (dat0 (V1 m ρ) c).arrAt 8 cfg0.N := W2_arr m ρ c 8
private theorem W2_sumsq (c : Dev nD) :
    W2 m ρ c (Proc.devRef .tc main_v23_1) = (dat0 (V1 m ρ) c).arrAt 9 cfg0.N := W2_arr m ρ c 9

/-- The scale and offset vectors are arguments: nothing before the second region writes them. -/
private theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results
private theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results

/-! ### The second region's entry -/
theorem V3_v6 (c : Dev nD) : V3 m ρ c main_v6 = gatherF (m ((c.tc : Thread nD τ).loc main_arg1)) (m ((c.tc : Thread nD τ).loc main_arg2)) := by
  show StableHlo.after hostOps1 (W2 m ρ c) (Proc.devRef .tc main_v6) = _
  after_results
  exact (W2_in0 m ρ c).trans (V1_v6 m ρ c)
theorem V3_v13 (c : Dev nD) : V3 m ρ c main_v13 = gatherX (m ((c.tc : Thread nD τ).loc main_arg0)) (m ((c.tc : Thread nD τ).loc main_arg2)) := by
  show StableHlo.after hostOps1 (W2 m ρ c) (Proc.devRef .tc main_v13) = _
  after_results
  exact (W2_in1 m ρ c).trans (V1_v13 m ρ c)
theorem V3_arg0 (c : Dev nD) : V3 m ρ c main_arg0 = m ((c.tc : Thread nD τ).loc main_arg0) := by
  show StableHlo.after hostOps1 (W2 m ρ c) (Proc.devRef .tc main_arg0) = _
  after_results
  exact (W2_in3 m ρ c).trans (V1_arg0 m ρ c)
theorem V3_arg1 (c : Dev nD) : V3 m ρ c main_arg1 = m ((c.tc : Thread nD τ).loc main_arg1) := by
  show StableHlo.after hostOps1 (W2 m ρ c) (Proc.devRef .tc main_arg1) = _
  after_results
  exact (W2_in2 m ρ c).trans (V1_arg1 m ρ c)
theorem V3_v15 (c : Dev nD) : V3 m ρ c main_v15 = wxT (m ((c.tc : Thread nD τ).loc main_arg3)) := by
  show StableHlo.after hostOps1 (W2 m ρ c) (Proc.devRef .tc main_v15) = _
  after_results
  exact (W2_in4 m ρ c).trans (V1_v15 m ρ c)
theorem V3_v17 (c : Dev nD) : V3 m ρ c main_v17 = wcT (m ((c.tc : Thread nD τ).loc main_arg3)) := by
  show StableHlo.after hostOps1 (W2 m ρ c) (Proc.devRef .tc main_v17) = _
  after_results
  exact (W2_in5 m ρ c).trans (V1_v17 m ρ c)
theorem V3_v19 (c : Dev nD) : V3 m ρ c main_v19 = wnT (m ((c.tc : Thread nD τ).loc main_arg3)) := by
  show StableHlo.after hostOps1 (W2 m ρ c) (Proc.devRef .tc main_v19) = _
  after_results
  exact (W2_in6 m ρ c).trans (V1_v19 m ρ c)
theorem V3_v21 (c : Dev nD) : V3 m ρ c main_v21 = rowT (m ((c.tc : Thread nD τ).loc main_arg4)) := by
  show StableHlo.after hostOps1 (W2 m ρ c) (Proc.devRef .tc main_v21) = _
  after_results
  exact (W2_in7 m ρ c).trans (V1_v21 m ρ c)
theorem V3_v20 (c : Dev nD) : V3 m ρ c main_v20 = w2T (m ((c.tc : Thread nD τ).loc main_arg7)) := by
  show StableHlo.after hostOps1 (W2 m ρ c) (Proc.devRef .tc main_v20) = _
  after_results
  refine (W2_of_ne m ρ c main_v20 (by decide)).trans ?_
  show StableHlo.after hostOps0 (W0 m ρ c) (Proc.devRef .tc main_v20) = _
  after_results
  rfl
theorem V3_v22 (c : Dev nD) : V3 m ρ c main_v22 = rowT (m ((c.tc : Thread nD τ).loc main_arg8)) := by
  show StableHlo.after hostOps1 (W2 m ρ c) (Proc.devRef .tc main_v22) = _
  after_results
  refine (W2_of_ne m ρ c main_v22 (by decide)).trans ?_
  show StableHlo.after hostOps0 (W0 m ρ c) (Proc.devRef .tc main_v22) = _
  after_results
  rfl
/-- The scale row: from the two sums the first region leaves in its output arrays. -/
theorem V3_v34 (c : Dev nD) : V3 m ρ c main_v34
    = scaleT ((dat0 (V1 m ρ) c).arrAt 8 cfg0.N) ((dat0 (V1 m ρ) c).arrAt 9 cfg0.N) (m ((c.tc : Thread nD τ).loc main_arg5)) := by
  show StableHlo.after hostOps1 (W2 m ρ c) (Proc.devRef .tc main_v34) = _
  have h1 := W2_sum m ρ c
  have h2 := W2_sumsq m ρ c
  have h5 := W2_arg5 m ρ c
  generalize (dat0 (V1 m ρ) c).arrAt 8 cfg0.N = s1 at h1 ⊢
  generalize (dat0 (V1 m ρ) c).arrAt 9 cfg0.N = s2 at h2 ⊢
  generalize W2 m ρ c = Y at h1 h2 h5 ⊢
  after_results_simp
  rw [h1, h2, h5]
  rfl
/-- The shift row. -/
theorem V3_v37 (c : Dev nD) : V3 m ρ c main_v37
    = shiftT ((dat0 (V1 m ρ) c).arrAt 8 cfg0.N) ((dat0 (V1 m ρ) c).arrAt 9 cfg0.N) (m ((c.tc : Thread nD τ).loc main_arg5))
        (m ((c.tc : Thread nD τ).loc main_arg6)) := by
  show StableHlo.after hostOps1 (W2 m ρ c) (Proc.devRef .tc main_v37) = _
  have h1 := W2_sum m ρ c
  have h2 := W2_sumsq m ρ c
  have h5 := W2_arg5 m ρ c
  have h6 := W2_arg6 m ρ c
  generalize (dat0 (V1 m ρ) c).arrAt 8 cfg0.N = s1 at h1 ⊢
  generalize (dat0 (V1 m ρ) c).arrAt 9 cfg0.N = s2 at h2 ⊢
  generalize W2 m ρ c = Y at h1 h2 h5 h6 ⊢
  after_results_simp
  rw [h1, h2, h5, h6]
  rfl

end Cert.KernelIdeal.KV

end
-- ==== Proof.KPayload.lean ====
/-
  The arithmetic of one grid point of each region, read at an index of the extended reals: the pre-activation of a
  block of 512 points (three partial products and the bias), and the second region's result row.
-/
import proofs.«157681_j22162031247559_1_alg».proof.Proof.Gen.KernelIdeal.Skeleton
import proofs.«157681_j22162031247559_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

/-! ## Layout operations read at coordinates -/

section Layout
variable {α : Type}

/-- An `[a, c]` array cast to `[a, 1, c]` reads, at `(i, u, j)`, the operand at `(i, j)`. -/
private theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array flattened to `[n, c]` reads, at row `q = b i + k`, the operand at `(i, k, ·)`. -/
private theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (q : Fin n)
    (hq : q.val = b * i.val + k.val) :
    shapeCast ⟨2, ![n, c]⟩ x h (ix2 q j) = x (ix3 i k j) :=
  shapeCast_apply x h _ _ (by
    rw [Shape.rowMajor_val_three, Shape.rowMajor_val_two]
    show (i.val * b + k.val) * c + j.val = q.val * c + j.val
    rw [hq, Nat.mul_comm b i.val])

/-- An `[n, c]` array cast to `[a, b, c]` reads, at `(i, k, j)`, the operand at row `q = b i + k`. -/
private theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (q : Fin n)
    (hq : q.val = b * i.val + k.val) :
    shapeCast ⟨3, ![a, b, c]⟩ x h (ix3 i k j) = x (ix2 q j) :=
  shapeCast_apply x h _ _ (by
    rw [Shape.rowMajor_val_three, Shape.rowMajor_val_two]
    show q.val * c + j.val = (i.val * b + k.val) * c + j.val
    rw [hq, Nat.mul_comm b i.val])

/-- An `[a, 1, c]` array broadcast to `[a, b, c]` reads, at `(i, k, j)`, the operand at `(i, 0, j)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, 1, c]` array broadcast to `[a, b, c]` reads, at `(i, k, j)`, the operand at `(0, 0, j)`. -/
private theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Layout

/-! ## A plain matrix product read at coordinates -/

section Matmul
variable {M K N : ℕ} (d : DotDims ⟨2, ![M, K]⟩ ⟨2, ![K, N]⟩ ⟨2, ![M, N]⟩)

/-- Two reads of one index at equal positions agree. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
private theorem plain_lhs_0 (hlb : d.lhsBatch = []) (hln : d.lhsNonContracting = [0])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_congr j _ _ _ _ (by simp [hlb, hln])

/-- The right operand's column is the result's column. -/
private theorem plain_rhs_1 (hlb : d.lhsBatch = []) (hrb : d.rhsBatch = []) (hln : d.lhsNonContracting = [0])
    (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- A product of an `[M, K]` by a `[K, N]` matrix into the zero accumulator, read at `(p, q)`: the sum over the
    contracted coordinate of the row's entries times the column's. -/
private theorem matmul_plain_apply {φ₁ φ₂ : FTy} (hlb : d.lhsBatch = []) (hrb : d.rhsBatch = [])
    (hln : d.lhsNonContracting = [0]) (hrn : d.rhsNonContracting = [1])
    (hlc : d.lhsContracting = [1]) (hrc : d.rhsContracting = [0]) (prec : Option ContractPrecision)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ c : Fin K, lhs (ix2 p c) * rhs (ix2 c q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun c _ => ?_
  have e1 : d.lhsIdx (ix2 p q) ((contrEquiv1 d K hr hs).symm c) = ix2 p c :=
    Shape.idx_ext₂ (plain_lhs_0 d hlb hln _ _)
      ((d.lhsIdx_val_of_single hlc _ _).trans (contrEquiv1_symm_val d K hr hs c))
  have e2 : d.rhsIdx (ix2 p q) ((contrEquiv1 d K hr hs).symm c) = ix2 c q :=
    Shape.idx_ext₂ ((d.rhsIdx_val_of_single hrc _ _).trans (contrEquiv1_symm_val d K hr hs c))
      (plain_rhs_1 d hlb hrb hln hrn _ _)
  rw [e1, e2]

end Matmul

/-! ## A maximum over the middle axis read at coordinates -/

/-- The maximum over axis 1 of an `[a, b, c]` array from the accumulator's value, read at `(i, j)`: the fold of `max`
    over the middle coordinate. -/
private theorem maxReduce_axis1_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (i : Fin a) (j : Fin c) :
    multiReduction (F := Ideal) .maximumf [1] ⟨2, ![a, c]⟩ src acc h hφ hacc (ix2 i j)
      = (Finset.univ : Finset (Fin b)).fold max (Ideal.ofBits φ acc) (fun k => src (ix3 i k j)) := by
  refine (Ideal.multiReduction_maximumf_single src acc h hφ hacc (ix2 i j)).trans ?_
  have hf : (src ∘ h.lift (ix2 i j)) = fun k : Fin b => src (ix3 i k j) :=
    funext fun k => congrArg src (funext fun ax => Fin.ext (match ax with
      | ⟨0, _⟩ => rfl
      | ⟨1, _⟩ => rfl
      | ⟨2, _⟩ => rfl))
  rw [hf]
  rfl

/-! ## The pieces of a block's arithmetic, each read at coordinates -/

/-- Row `16 r + k` of the flattened block. -/
private abbrev rowOf (r : Fin 512) (k : Fin 16) : Fin 8192 :=
  ⟨16 * r.val + k.val, by have := r.isLt; have := k.isLt; omega⟩

/-- The relative positions times the first three rows of the weights. -/
private def posTerm (x1 : Vec Ideal S1x512x16x3 .f32) (x3 : Vec Ideal S1x512x3 .f32) (x4 : Vec Ideal S3x128 .bf16) :
    FVec Ideal S512x16x128 .f32 :=
  shapeCast S512x16x128 (matmul dot_S8192x3_S3x128_S8192x128_1_0_0_1_n_n none
    (shapeCast S8192x3 (truncf .bf16 (subf (shapeCast S512x16x3 x1 shapeCasts_S1x512x16x3_S512x16x3)
      (broadcastTo S512x16x3 (shapeCast S512x1x3 (shapeCast S512x3 x3 shapeCasts_S1x512x3_S512x3)
        shapeCasts_S512x3_S512x1x3) broadcasts_S512x1x3_S512x16x3)) bitsLt_bf16_f32) shapeCasts_S512x16x3_S8192x3)
    (shapeCast S3x128 x4 shapeCasts_S3x128_S3x128 : FVec Ideal S3x128 .bf16) (constant (F := Ideal) S8192x128 .f32 0x00000000#32))
    shapeCasts_S8192x128_S512x16x128

/-- The point's own features times the middle rows of the weights. -/
private def ownTerm (x2 : Vec Ideal S1x512x64 .f32) (x5 : Vec Ideal S64x128 .bf16) : FVec Ideal S512x16x128 .f32 :=
  shapeCast S512x16x128 (matmul dot_S8192x64_S64x128_S8192x128_1_0_0_1_n_n none
    (shapeCast S8192x64 (truncf .bf16 (broadcastTo S512x16x64 (shapeCast S512x1x64 (shapeCast S512x1x64
      (shapeCast S512x64 x2 shapeCasts_S1x512x64_S512x64) shapeCasts_S512x64_S512x1x64)
        shapeCasts_S512x1x64_S512x1x64) broadcasts_S512x1x64_S512x16x64) bitsLt_bf16_f32)
      shapeCasts_S512x16x64_S8192x64)
    (shapeCast S64x128 x5 shapeCasts_S64x128_S64x128 : FVec Ideal S64x128 .bf16) (constant (F := Ideal) S8192x128 .f32 0x00000000#32))
    shapeCasts_S8192x128_S512x16x128

/-- The neighbours' features times the last rows of the weights. -/
private def nbrTerm (x0 : Vec Ideal S1x512x16x64 .f32) (x6 : Vec Ideal S64x128 .bf16) : FVec Ideal S512x16x128 .f32 :=
  shapeCast S512x16x128 (matmul dot_S8192x64_S64x128_S8192x128_1_0_0_1_n_n none
    (shapeCast S8192x64 (truncf .bf16 (shapeCast S512x16x64 x0 shapeCasts_S1x512x16x64_S512x16x64) bitsLt_bf16_f32)
      shapeCasts_S512x16x64_S8192x64)
    (shapeCast S64x128 x6 shapeCasts_S64x128_S64x128 : FVec Ideal S64x128 .bf16) (constant (F := Ideal) S8192x128 .f32 0x00000000#32))
    shapeCasts_S8192x128_S512x16x128

/-- A row of 128 channels spread over every point and neighbour. -/
private def rowAll (x : Vec Ideal S1x128 .f32) : FVec Ideal S512x16x128 .f32 :=
  broadcastTo S512x16x128 (shapeCast S1x1x128 (shapeCast S1x128 x shapeCasts_S1x128_S1x128) shapeCasts_S1x128_S1x1x128)
    broadcasts_S1x1x128_S512x16x128

private theorem posTerm_apply (x1 : Vec Ideal S1x512x16x3 .f32) (x3 : Vec Ideal S1x512x3 .f32)
    (x4 : Vec Ideal S3x128 .bf16) (r : Fin 512) (k : Fin 16) (j : Fin 128) :
    posTerm x1 x3 x4 (ix3 r k j) = ∑ i : Fin 3, (x1 (ix4 0 r k i) - x3 (ix3 0 r i)) * x4 (ix2 i j) := by
  unfold posTerm
  simp only [shapeCast_self]
  rw [shapeCast_nc_abc_apply _ _ r k j (rowOf r k) rfl]
  refine (matmul_plain_apply (φ₁ := .bf16) (φ₂ := .bf16) dot_S8192x3_S3x128_S8192x128_1_0_0_1_n_n rfl rfl rfl rfl rfl rfl none _ _ (rowOf r k) j).trans ?_
  refine Finset.sum_congr rfl fun i _ => ?_
  rw [shapeCast_abc_nc_apply _ _ r k i (rowOf r k) rfl, truncf_apply, subf_apply, shapeCast_1abc_abc_apply,
    broadcastTo_a1c_abc_apply, shapeCast_ac_a1c_apply, shapeCast_1ab_ab_apply]

private theorem ownTerm_apply (x2 : Vec Ideal S1x512x64 .f32) (x5 : Vec Ideal S64x128 .bf16)
    (r : Fin 512) (k : Fin 16) (j : Fin 128) :
    ownTerm x2 x5 (ix3 r k j) = ∑ i : Fin 64, x2 (ix3 0 r i) * x5 (ix2 i j) := by
  unfold ownTerm
  simp only [shapeCast_self]
  rw [shapeCast_nc_abc_apply _ _ r k j (rowOf r k) rfl]
  refine (matmul_plain_apply (φ₁ := .bf16) (φ₂ := .bf16) dot_S8192x64_S64x128_S8192x128_1_0_0_1_n_n rfl rfl rfl rfl rfl rfl none _ _ (rowOf r k) j).trans ?_
  refine Finset.sum_congr rfl fun i _ => ?_
  rw [shapeCast_abc_nc_apply _ _ r k i (rowOf r k) rfl, truncf_apply, broadcastTo_a1c_abc_apply,
    shapeCast_ac_a1c_apply, shapeCast_1ab_ab_apply]

private theorem nbrTerm_apply (x0 : Vec Ideal S1x512x16x64 .f32) (x6 : Vec Ideal S64x128 .bf16)
    (r : Fin 512) (k : Fin 16) (j : Fin 128) :
    nbrTerm x0 x6 (ix3 r k j) = ∑ i : Fin 64, x0 (ix4 0 r k i) * x6 (ix2 i j) := by
  unfold nbrTerm
  simp only [shapeCast_self]
  rw [shapeCast_nc_abc_apply _ _ r k j (rowOf r k) rfl]
  refine (matmul_plain_apply (φ₁ := .bf16) (φ₂ := .bf16) dot_S8192x64_S64x128_S8192x128_1_0_0_1_n_n rfl rfl rfl rfl rfl rfl none _ _ (rowOf r k) j).trans ?_
  refine Finset.sum_congr rfl fun i _ => ?_
  rw [shapeCast_abc_nc_apply _ _ r k i (rowOf r k) rfl, truncf_apply, shapeCast_1abc_abc_apply]

private theorem rowAll_apply (x : Vec Ideal S1x128 .f32) (r : Fin 512) (k : Fin 16) (j : Fin 128) :
    rowAll x (ix3 r k j) = x (ix2 0 j) := by
  unfold rowAll
  rw [broadcastTo_11c_abc_apply, shapeCast_ab_1ab_apply, shapeCast_self]

/-- The pre-activation of one block: point r of the block, neighbour k, channel j. The operands are the blocks of the
    gathered features, gathered positions, features and positions, the three weight blocks and the bias row. -/
def preBlk (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 : Vec Ideal S1x128 .f32) (r : Fin 512) (k : Fin 16) (j : Fin 128) : EReal :=
  ((∑ i : Fin 3, (x1 (ix4 0 r k i) - x3 (ix3 0 r i)) * x4 (ix2 i j) + ∑ i : Fin 64, x2 (ix3 0 r i) * x5 (ix2 i j))
    + ∑ i : Fin 64, x0 (ix4 0 r k i) * x6 (ix2 i j)) + x7 (ix2 0 j)

/-- The three partial products added in order, then the bias row: the pre-activation of the block. -/
private def preAll (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 : Vec Ideal S1x128 .f32) : FVec Ideal S512x16x128 .f32 :=
  addf (addf (addf (posTerm x1 x3 x4) (ownTerm x2 x5)) (nbrTerm x0 x6)) (rowAll x7)

private theorem preAll_apply (x0 : Vec Ideal S1x512x16x64 .f32) (x1 : Vec Ideal S1x512x16x3 .f32)
    (x2 : Vec Ideal S1x512x64 .f32) (x3 : Vec Ideal S1x512x3 .f32) (x4 : Vec Ideal S3x128 .bf16)
    (x5 x6 : Vec Ideal S64x128 .bf16) (x7 : Vec Ideal S1x128 .f32) (r : Fin 512) (k : Fin 16) (j : Fin 128) :
    preAll x0 x1 x2 x3 x4 x5 x6 x7 (ix3 r k j) = preBlk x0 x1 x2 x3 x4 x5 x6 x7 r k j := by
  show ((posTerm x1 x3 x4 (ix3 r k j) + ownTerm x2 x5 (ix3 r k j)) + nbrTerm x0 x6 (ix3 r k j)) + rowAll x7 (ix3 r k j) = _
  rw [posTerm_apply, ownTerm_apply, nbrTerm_apply, rowAll_apply]
  rfl

/-- The first region's payload is the flattened pre-activation. -/
private theorem pay0_eq (x0 : Vec Ideal S1x512x16x64 .f32) (x1 : Vec Ideal S1x512x16x3 .f32)
    (x2 : Vec Ideal S1x512x64 .f32) (x3 : Vec Ideal S1x512x3 .f32) (x4 : Vec Ideal S3x128 .bf16)
    (x5 x6 : Vec Ideal S64x128 .bf16) (x7 : Vec Ideal S1x128 .f32) :
    k0_pay1 (F := Ideal) (k0_pay6 x0) (k0_pay7 x3 x2 x1 x4 x5) x6 x7
      = shapeCast S8192x128 (preAll x0 x1 x2 x3 x4 x5 x6 x7) shapeCasts_S512x16x128_S8192x128 := rfl

/-- First region: the flattened pre-activation at row q = 16 r + k. -/
theorem pay0_apply (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 : Vec Ideal S1x128 .f32) (r : Fin 512) (k : Fin 16) (j : Fin 128) :
    k0_pay1 (F := Ideal) (k0_pay6 x0) (k0_pay7 x3 x2 x1 x4 x5) x6 x7
        (ix2 (⟨16 * r.val + k.val, by have := r.isLt; have := k.isLt; omega⟩ : Fin 8192) j)
      = preBlk x0 x1 x2 x3 x4 x5 x6 x7 r k j := by
  rw [pay0_eq, shapeCast_abc_nc_apply _ _ r k j _ rfl, preAll_apply]

/-- The block after the affine map and the clip at zero. -/
private def actAll (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 x8 x9 : Vec Ideal S1x128 .f32) : FVec Ideal S512x16x128 .f32 :=
  maximumf (addf (mulf (preAll x0 x1 x2 x3 x4 x5 x6 x7) (rowAll x8)) (rowAll x9))
    (broadcast S512x16x128 (Scalar.ofBits (F := Ideal) .f32 0x00000000#32))

private theorem actAll_apply (x0 : Vec Ideal S1x512x16x64 .f32) (x1 : Vec Ideal S1x512x16x3 .f32)
    (x2 : Vec Ideal S1x512x64 .f32) (x3 : Vec Ideal S1x512x3 .f32) (x4 : Vec Ideal S3x128 .bf16)
    (x5 x6 : Vec Ideal S64x128 .bf16) (x7 x8 x9 : Vec Ideal S1x128 .f32) (r : Fin 512) (k : Fin 16) (j : Fin 128) :
    actAll x0 x1 x2 x3 x4 x5 x6 x7 x8 x9 (ix3 r k j)
      = max (preBlk x0 x1 x2 x3 x4 x5 x6 x7 r k j * x8 (ix2 0 j) + x9 (ix2 0 j)) Cert.PN.zeroLit := by
  show max (preAll x0 x1 x2 x3 x4 x5 x6 x7 (ix3 r k j) * rowAll x8 (ix3 r k j) + rowAll x9 (ix3 r k j))
    (Ideal.ofBits .f32 0x00000000#32) = _
  rw [preAll_apply, rowAll_apply, rowAll_apply]

/-- The block after the second matrix and its bias, before the maximum over the neighbours. -/
private def outAll (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 x8 x9 : Vec Ideal S1x128 .f32) (x10 : Vec Ideal S128x128 .bf16) (x11 : Vec Ideal S1x128 .f32) :
    FVec Ideal S512x16x128 .f32 :=
  shapeCast S512x16x128 (addf (matmul dot_S8192x128_S128x128_S8192x128_1_0_0_1_n_n none
      (shapeCast S8192x128 (truncf .bf16 (actAll x0 x1 x2 x3 x4 x5 x6 x7 x8 x9) bitsLt_bf16_f32)
        shapeCasts_S512x16x128_S8192x128)
      (shapeCast S128x128 x10 shapeCasts_S128x128_S128x128 : FVec Ideal S128x128 .bf16) (constant (F := Ideal) S8192x128 .f32 0x00000000#32))
    (broadcastTo S8192x128 (shapeCast S1x128 x11 shapeCasts_S1x128_S1x128) broadcasts_S1x128_S8192x128))
    shapeCasts_S8192x128_S512x16x128

private theorem outAll_apply (x0 : Vec Ideal S1x512x16x64 .f32) (x1 : Vec Ideal S1x512x16x3 .f32)
    (x2 : Vec Ideal S1x512x64 .f32) (x3 : Vec Ideal S1x512x3 .f32) (x4 : Vec Ideal S3x128 .bf16)
    (x5 x6 : Vec Ideal S64x128 .bf16) (x7 x8 x9 : Vec Ideal S1x128 .f32) (x10 : Vec Ideal S128x128 .bf16)
    (x11 : Vec Ideal S1x128 .f32) (r : Fin 512) (k : Fin 16) (ch : Fin 128) :
    outAll x0 x1 x2 x3 x4 x5 x6 x7 x8 x9 x10 x11 (ix3 r k ch)
      = (∑ j : Fin 128, max (preBlk x0 x1 x2 x3 x4 x5 x6 x7 r k j * x8 (ix2 0 j) + x9 (ix2 0 j)) Cert.PN.zeroLit
          * x10 (ix2 j ch)) + x11 (ix2 0 ch) := by
  unfold outAll
  simp only [shapeCast_self]
  rw [shapeCast_nc_abc_apply _ _ r k ch (rowOf r k) rfl]
  rw [addf_apply, broadcastTo_1b_ab_apply]
  refine congrArg (· + x11 (ix2 0 ch)) ?_
  refine (matmul_plain_apply (φ₁ := .bf16) (φ₂ := .bf16) dot_S8192x128_S128x128_S8192x128_1_0_0_1_n_n rfl rfl rfl rfl rfl rfl none _ _ (rowOf r k) ch).trans ?_
  refine Finset.sum_congr rfl fun j _ => ?_
  rw [shapeCast_abc_nc_apply _ _ r k j (rowOf r k) rfl, truncf_apply, actAll_apply]

/-- The second region's payload is the maximum over the neighbours of that block, as a block of one cloud. -/
private theorem pay1_eq (x0 : Vec Ideal S1x512x16x64 .f32) (x1 : Vec Ideal S1x512x16x3 .f32)
    (x2 : Vec Ideal S1x512x64 .f32) (x3 : Vec Ideal S1x512x3 .f32) (x4 : Vec Ideal S3x128 .bf16)
    (x5 x6 : Vec Ideal S64x128 .bf16) (x7 x8 x9 : Vec Ideal S1x128 .f32) (x10 : Vec Ideal S128x128 .bf16)
    (x11 : Vec Ideal S1x128 .f32) :
    k1_pay1 (F := Ideal) (k1_pay2 x3 x2 x1 x0 x4 x5 x6) x7 x8 x9 x10 x11
      = shapeCast S1x512x128 (multiReduction (F := Ideal) .maximumf [1] S512x128
          (outAll x0 x1 x2 x3 x4 x5 x6 x7 x8 x9 x10 x11) 0xFF800000#32 reduces_S512x16x128_S512x128 (.inl rfl) rfl)
          shapeCasts_S512x128_S1x512x128 := rfl

/-- Second region: the stored row at point r, channel ch: the pre-activation scaled, shifted, clipped at zero, mapped
    by the second matrix, biased, and maximized over the neighbours from minus infinity. -/
theorem pay1_apply (x0 : Vec Ideal S1x512x16x64 .f32) (x1 : Vec Ideal S1x512x16x3 .f32) (x2 : Vec Ideal S1x512x64 .f32)
    (x3 : Vec Ideal S1x512x3 .f32) (x4 : Vec Ideal S3x128 .bf16) (x5 x6 : Vec Ideal S64x128 .bf16)
    (x7 x8 x9 : Vec Ideal S1x128 .f32) (x10 : Vec Ideal S128x128 .bf16) (x11 : Vec Ideal S1x128 .f32)
    (r : Fin 512) (ch : Fin 128) :
    k1_pay1 (F := Ideal) (k1_pay2 x3 x2 x1 x0 x4 x5 x6) x7 x8 x9 x10 x11 (ix3 0 r ch)
      = (Finset.univ : Finset (Fin 16)).fold max Cert.PN.ninfLit (fun k =>
          (∑ j : Fin 128, max (preBlk x0 x1 x2 x3 x4 x5 x6 x7 r k j * x8 (ix2 0 j) + x9 (ix2 0 j)) Cert.PN.zeroLit
            * x10 (ix2 j ch)) + x11 (ix2 0 ch)) := by
  rw [pay1_eq, shapeCast_ab_1ab_apply]
  refine (maxReduce_axis1_apply _ _ _ _ _ r ch).trans ?_
  refine congrArg ((Finset.univ : Finset (Fin 16)).fold max Cert.PN.ninfLit) (funext fun k => ?_)
  exact outAll_apply x0 x1 x2 x3 x4 x5 x6 x7 x8 x9 x10 x11 r k ch

end Cert.KernelIdeal.KV

end
-- ==== Proof.KReg0.lean ====
/-
  The first region: what its two output arrays hold after the last grid point, the sum of the pre-activation and of
  its square over every batch, point and neighbour, per channel.
-/
import proofs.«157681_j22162031247559_1_alg».proof.Proof.Gen.KernelIdeal.Frame
import proofs.«157681_j22162031247559_1_alg».proof.Proof.KTerm
import proofs.«157681_j22162031247559_1_alg».proof.Proof.KPayload
import Idealize.ShloMosaic.Lib.Pipeline.Value
import Idealize.ShloMosaic.Lib.Tactic
import Mathlib.Algebra.BigOperators.Fin
import Mathlib.Data.Fintype.BigOperators
import Mathlib.Logic.Equiv.Fin.Basic

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

section Pieces
variable {F : FTy → Type} [FloatOps F]

private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- A later grid point leaves in the first output the carried row plus this block's column sums. -/
private theorem out_B_8 (c : Dev nD) (i : grid0.Coords) (a2 : Memref sig .tc .vmem S1x512x16x64 .f32) (h2 : a2.IsWhole) (a3 : Memref sig .tc .vmem S1x512x16x3 .f32) (h3 : a3.IsWhole) (a4 : Memref sig .tc .vmem S1x512x64 .f32) (h4 : a4.IsWhole) (a5 : Memref sig .tc .vmem S1x512x3 .f32) (h5 : a5.IsWhole) (a6 : Memref sig .tc .vmem S3x128 .bf16) (h6 : a6.IsWhole) (a7 : Memref sig .tc .vmem S64x128 .bf16) (h7 : a7.IsWhole) (a8 : Memref sig .tc .vmem S64x128 .bf16) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S1x512x16x64 .f32) (x1 : Vec F S1x512x16x3 .f32) (x2 : Vec F S1x512x64 .f32) (x3 : Vec F S1x512x3 .f32) (x4 : Vec F S3x128 .bf16) (x5 : Vec F S64x128 .bf16) (x6 : Vec F S64x128 .bf16) (x7 : Vec F S1x128 .f32) (xo8 xo9 : Vec F S1x128 .f32) :
    out0_B_8 c i a2 h2 a3 h3 a4 h4 a5 h5 a6 h6 a7 h7 a8 h8 a9 h9 a10 h10 a11 h11 hc x0 x1 x2 x3 x4 x5 x6 x7 xo8 xo9 = k0_pay2 (k0_pay6 x0) (k0_pay7 x3 x2 x1 x4 x5) x6 x7 xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xo8 xo9)]
  unfold kernelRun0_B
  dsimp only
  sl_unfold_words
  rw [View.canon_unit_zero (S := S1x128) hz2]
  simp only [View.readAt_eq_ld, h2.read_unread, h3.read_unread, h4.read_unread, h5.read_unread, h6.read_unread, h7.read_unread, h8.read_unread, h9.read_unread, h10.read_unread, h11.read_unread,
    View.ld_unit_zero (S := S1x128) hz2, View.ld_unit_zero (S := S64x128) hz2, View.ld_unit_zero (S := S3x128) hz2,
    View.ld_unit_zero (S := S1x512x3) hz3, View.ld_unit_zero (S := S1x512x64) hz3, View.ld_unit_zero (S := S1x512x16x3) hz4, View.ld_unit_zero (S := S1x512x16x64) hz4]

/-- A later grid point leaves in the second output the carried row plus this block's column sums of squares. -/
private theorem out_B_9 (c : Dev nD) (i : grid0.Coords) (a2 : Memref sig .tc .vmem S1x512x16x64 .f32) (h2 : a2.IsWhole) (a3 : Memref sig .tc .vmem S1x512x16x3 .f32) (h3 : a3.IsWhole) (a4 : Memref sig .tc .vmem S1x512x64 .f32) (h4 : a4.IsWhole) (a5 : Memref sig .tc .vmem S1x512x3 .f32) (h5 : a5.IsWhole) (a6 : Memref sig .tc .vmem S3x128 .bf16) (h6 : a6.IsWhole) (a7 : Memref sig .tc .vmem S64x128 .bf16) (h7 : a7.IsWhole) (a8 : Memref sig .tc .vmem S64x128 .bf16) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S1x512x16x64 .f32) (x1 : Vec F S1x512x16x3 .f32) (x2 : Vec F S1x512x64 .f32) (x3 : Vec F S1x512x3 .f32) (x4 : Vec F S3x128 .bf16) (x5 : Vec F S64x128 .bf16) (x6 : Vec F S64x128 .bf16) (x7 : Vec F S1x128 .f32) (xo8 xo9 : Vec F S1x128 .f32) :
    out0_B_9 c i a2 h2 a3 h3 a4 h4 a5 h5 a6 h6 a7 h7 a8 h8 a9 h9 a10 h10 a11 h11 hc x0 x1 x2 x3 x4 x5 x6 x7 xo8 xo9 = k0_pay3 (k0_pay6 x0) (k0_pay7 x3 x2 x1 x4 x5) x6 x7 xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 x6 x7 xo8 xo9)]
  unfold kernelRun0_B
  dsimp only
  sl_unfold_words
  rw [View.canon_unit_zero (S := S1x128) hz2]
  simp only [View.readAt_eq_ld, h2.read_unread, h3.read_unread, h4.read_unread, h5.read_unread, h6.read_unread, h7.read_unread, h8.read_unread, h9.read_unread, h10.read_unread, h11.read_unread,
    View.ld_unit_zero (S := S1x128) hz2, View.ld_unit_zero (S := S64x128) hz2, View.ld_unit_zero (S := S3x128) hz2,
    View.ld_unit_zero (S := S1x512x3) hz3, View.ld_unit_zero (S := S1x512x64) hz3, View.ld_unit_zero (S := S1x512x16x3) hz4, View.ld_unit_zero (S := S1x512x16x64) hz4]

/-- The first grid point stores the zero row, reads it back and adds this block's column sums. -/
private theorem out_A_8 (c : Dev nD) (i : grid0.Coords) (a2 : Memref sig .tc .vmem S1x512x16x64 .f32) (h2 : a2.IsWhole) (a3 : Memref sig .tc .vmem S1x512x16x3 .f32) (h3 : a3.IsWhole) (a4 : Memref sig .tc .vmem S1x512x64 .f32) (h4 : a4.IsWhole) (a5 : Memref sig .tc .vmem S1x512x3 .f32) (h5 : a5.IsWhole) (a6 : Memref sig .tc .vmem S3x128 .bf16) (h6 : a6.IsWhole) (a7 : Memref sig .tc .vmem S64x128 .bf16) (h7 : a7.IsWhole) (a8 : Memref sig .tc .vmem S64x128 .bf16) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (hc : cond0_0 i) (x0 : Vec F S1x512x16x64 .f32) (x1 : Vec F S1x512x16x3 .f32) (x2 : Vec F S1x512x64 .f32) (x3 : Vec F S1x512x3 .f32) (x4 : Vec F S3x128 .bf16) (x5 : Vec F S64x128 .bf16) (x6 : Vec F S64x128 .bf16) (x7 : Vec F S1x128 .f32) :
    out0_A_8 c i a2 h2 a3 h3 a4 h4 a5 h5 a6 h6 a7 h7 a8 h8 a9 h9 a10 h10 a11 h11 hc x0 x1 x2 x3 x4 x5 x6 x7 = k0_pay2 (k0_pay6 x0) (k0_pay7 x3 x2 x1 x4 x5) x6 x7 (k0_pay4 (F := F)) := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread, h8.read_unread, h9.read_unread, h10.read_unread, h11.read_unread,
    View.ld_unit_zero (S := S1x128) hz2, View.ld_unit_zero (S := S64x128) hz2, View.ld_unit_zero (S := S3x128) hz2,
    View.ld_unit_zero (S := S1x512x3) hz3, View.ld_unit_zero (S := S1x512x64) hz3, View.ld_unit_zero (S := S1x512x16x3) hz4, View.ld_unit_zero (S := S1x512x16x64) hz4]

/-- The same for the sums of squares. -/
private theorem out_A_9 (c : Dev nD) (i : grid0.Coords) (a2 : Memref sig .tc .vmem S1x512x16x64 .f32) (h2 : a2.IsWhole) (a3 : Memref sig .tc .vmem S1x512x16x3 .f32) (h3 : a3.IsWhole) (a4 : Memref sig .tc .vmem S1x512x64 .f32) (h4 : a4.IsWhole) (a5 : Memref sig .tc .vmem S1x512x3 .f32) (h5 : a5.IsWhole) (a6 : Memref sig .tc .vmem S3x128 .bf16) (h6 : a6.IsWhole) (a7 : Memref sig .tc .vmem S64x128 .bf16) (h7 : a7.IsWhole) (a8 : Memref sig .tc .vmem S64x128 .bf16) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (hc : cond0_0 i) (x0 : Vec F S1x512x16x64 .f32) (x1 : Vec F S1x512x16x3 .f32) (x2 : Vec F S1x512x64 .f32) (x3 : Vec F S1x512x3 .f32) (x4 : Vec F S3x128 .bf16) (x5 : Vec F S64x128 .bf16) (x6 : Vec F S64x128 .bf16) (x7 : Vec F S1x128 .f32) :
    out0_A_9 c i a2 h2 a3 h3 a4 h4 a5 h5 a6 h6 a7 h7 a8 h8 a9 h9 a10 h10 a11 h11 hc x0 x1 x2 x3 x4 x5 x6 x7 = k0_pay3 (k0_pay6 x0) (k0_pay7 x3 x2 x1 x4 x5) x6 x7 (k0_pay5 (F := F)) := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread, h8.read_unread, h9.read_unread, h10.read_unread, h11.read_unread,
    View.ld_unit_zero (S := S1x128) hz2, View.ld_unit_zero (S := S64x128) hz2, View.ld_unit_zero (S := S3x128) hz2,
    View.ld_unit_zero (S := S1x512x3) hz3, View.ld_unit_zero (S := S1x512x64) hz3, View.ld_unit_zero (S := S1x512x16x3) hz4, View.ld_unit_zero (S := S1x512x16x64) hz4]
end Pieces

section Payload

/-- Reducing the row axis of an [8192, 128] array: the inserted index is (row, column). -/
private theorem lift_rows (j : Fin 128) (q : Fin 8192) :
    reduces_S8192x128_S128.lift (ix1 j) q = ix2 q j := by
  funext a
  match a with
  | ⟨0, _⟩ => rfl
  | ⟨1, _⟩ => rfl

/-- The first output's stored row at column j: the carried entry plus the column's sum over the 8192 rows. -/
private theorem pay2_apply (v12 : FVec Ideal S512x16x64 .f32) (v31 : FVec Ideal S512x16x128 .f32) (v32 : Vec Ideal S64x128 .bf16)
    (v39 v50 : Vec Ideal S1x128 .f32) (j : Fin 128) :
    k0_pay2 (F := Ideal) v12 v31 v32 v39 v50 (ix2 (0 : Fin 1) j)
      = v50 (ix2 (0 : Fin 1) j) + ∑ q : Fin 8192, k0_pay1 (F := Ideal) v12 v31 v32 v39 (ix2 q j) := by
  unfold k0_pay2
  refine (addf_apply _ _ _).trans ?_
  refine congrArg₂ (· + ·) (congrFun (shapeCast_self v50 _) _) ?_
  refine (shapeCast_a_1a_apply _ _ (0 : Fin 1) j).trans ?_
  refine (Ideal.multiReduction_add_single _ _ reduces_S8192x128_S128 (.inl rfl) rfl (ix1 j)).trans ?_
  exact Finset.sum_congr rfl fun q _ => congrArg _ (lift_rows j q)

/-- The second output's stored row at column j: the carried entry plus the column's sum of squares. -/
private theorem pay3_apply (v12 : FVec Ideal S512x16x64 .f32) (v31 : FVec Ideal S512x16x128 .f32) (v32 : Vec Ideal S64x128 .bf16)
    (v39 v54 : Vec Ideal S1x128 .f32) (j : Fin 128) :
    k0_pay3 (F := Ideal) v12 v31 v32 v39 v54 (ix2 (0 : Fin 1) j)
      = v54 (ix2 (0 : Fin 1) j) + ∑ q : Fin 8192, k0_pay1 (F := Ideal) v12 v31 v32 v39 (ix2 q j) * k0_pay1 (F := Ideal) v12 v31 v32 v39 (ix2 q j) := by
  unfold k0_pay3
  refine (addf_apply _ _ _).trans ?_
  refine congrArg₂ (· + ·) (congrFun (shapeCast_self v54 _) _) ?_
  refine (shapeCast_a_1a_apply _ _ (0 : Fin 1) j).trans ?_
  refine (Ideal.multiReduction_add_single _ _ reduces_S8192x128_S128 (.inl rfl) rfl (ix1 j)).trans ?_
  exact Finset.sum_congr rfl fun q _ => by rw [lift_rows j q]; rfl

/-- The zero rows the reset stores. -/
private theorem pay4_apply (j : Fin 128) : k0_pay4 (F := Ideal) (ix2 (0 : Fin 1) j) = 0 := Ideal.ofBits_zero_f32
private theorem pay5_apply (j : Fin 128) : k0_pay5 (F := Ideal) (ix2 (0 : Fin 1) j) = 0 := Ideal.ofBits_zero_f32

end Payload

section Sums
open scoped BigOperators

/-- A sum over m·n indices as a double sum, through any re-indexing that agrees at x = n·a + b. -/
private theorem sum_fin_mul {M : Type} [AddCommMonoid M] (m n : ℕ) (g : Fin (m * n) → M) (g' : Fin m → Fin n → M)
    (h : ∀ (x : Fin (m * n)) (a : Fin m) (b : Fin n), x.val = n * a.val + b.val → g x = g' a b) :
    ∑ x : Fin (m * n), g x = ∑ a : Fin m, ∑ b : Fin n, g' a b := by
  rw [← Equiv.sum_comp finProdFinEquiv, Fintype.sum_prod_type]
  exact Finset.sum_congr rfl fun a _ => Finset.sum_congr rfl fun b _ =>
    h _ a b (by rw [finProdFinEquiv_apply_val, Nat.add_comm])

end Sums

section Idx

/-- Where each window's block sits at grid point t = 32 b + nt: batch b and the nt-th run of 512 points for the four
    point-indexed arrays; the weight blocks and the bias row are whole at every point. Decided once over the grid. -/
private theorem idx0 : ∀ t : Fin cfg0.N, win0_0.index t (0 : Fin 4) = t.val / 32 ∧ win0_0.index t (1 : Fin 4) = t.val % 32 ∧ win0_0.index t (2 : Fin 4) = 0 ∧ win0_0.index t (3 : Fin 4) = 0 :=
  (by decide +kernel : ∀ t : Fin grid0.N, _)
private theorem idx1 : ∀ t : Fin cfg0.N, win0_1.index t (0 : Fin 4) = t.val / 32 ∧ win0_1.index t (1 : Fin 4) = t.val % 32 ∧ win0_1.index t (2 : Fin 4) = 0 ∧ win0_1.index t (3 : Fin 4) = 0 :=
  (by decide +kernel : ∀ t : Fin grid0.N, _)
private theorem idx2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, _)
private theorem idx3 : ∀ t : Fin cfg0.N, win0_3.index t (0 : Fin 3) = t.val / 32 ∧ win0_3.index t (1 : Fin 3) = t.val % 32 ∧ win0_3.index t (2 : Fin 3) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)

end Idx

variable (V : (c : Dev nD) → (b : Ref sig .tc) → Buf (Elt Ideal) ((c : Thread nD τ).loc b))

section Run

/-- The eight input blocks at a grid point, each an array of its block's shape. -/
private abbrev blk0 (c : Dev nD) (t : Fin cfg0.N) : Vec Ideal S1x512x16x64 .f32 := iblk0 V c 0 t
private abbrev blk1 (c : Dev nD) (t : Fin cfg0.N) : Vec Ideal S1x512x16x3 .f32 := iblk0 V c 1 t
private abbrev blk2 (c : Dev nD) (t : Fin cfg0.N) : Vec Ideal S1x512x64 .f32 := iblk0 V c 2 t
private abbrev blk3 (c : Dev nD) (t : Fin cfg0.N) : Vec Ideal S1x512x3 .f32 := iblk0 V c 3 t
private abbrev blk4 (c : Dev nD) (t : Fin cfg0.N) : Vec Ideal S3x128 .bf16 := iblk0 V c 4 t
private abbrev blk5 (c : Dev nD) (t : Fin cfg0.N) : Vec Ideal S64x128 .bf16 := iblk0 V c 5 t
private abbrev blk6 (c : Dev nD) (t : Fin cfg0.N) : Vec Ideal S64x128 .bf16 := iblk0 V c 6 t
private abbrev blk7 (c : Dev nD) (t : Fin cfg0.N) : Vec Ideal S1x128 .f32 := iblk0 V c 7 t

/-- The flattened pre-activation of the block at a grid point: row q = 16 r + k, channel j. -/
private def hBlk (c : Dev nD) (t : Fin cfg0.N) (q : Fin 8192) (j : Fin 128) : EReal :=
  k0_pay1 (F := Ideal) (k0_pay6 (blk0 V c t)) (k0_pay7 (blk3 V c t) (blk2 V c t) (blk1 V c t) (blk4 V c t) (blk5 V c t))
    (blk6 V c t) (blk7 V c t) (ix2 q j)

/-- What one grid point adds to each output at channel j. -/
private def rowSum (c : Dev nD) (j : Fin 128) (t : Fin cfg0.N) : EReal := ∑ q : Fin 8192, hBlk V c t q j
private def sqSum (c : Dev nD) (j : Fin 128) (t : Fin cfg0.N) : EReal := ∑ q : Fin 8192, hBlk V c t q j * hBlk V c t q j

/-- At the first grid point the outputs hold that point's sums (zero was stored first). -/
private theorem outs_first (c : Dev nD) (j : Fin 128) (t : Fin cfg0.N) (h0 : t.val % 128 = 0) :
    (outsAt0 V c t.val t.isLt).1 (ix2 (0 : Fin 1) j) = rowSum V c j t
      ∧ (outsAt0 V c t.val t.isLt).2 (ix2 (0 : Fin 1) j) = sqSum V c j t := by
  rw [outsAt0_A V c t h0]
  dsimp only
  constructor
  · refine (congrFun (out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 V c t) (blk1 V c t) (blk2 V c t) (blk3 V c t) (blk4 V c t) (blk5 V c t) (blk6 V c t) (blk7 V c t)) (ix2 (0 : Fin 1) j)).trans ?_
    refine (pay2_apply _ _ _ _ _ j).trans ?_
    rw [pay4_apply, zero_add]
    rfl
  · refine (congrFun (out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 V c t) (blk1 V c t) (blk2 V c t) (blk3 V c t) (blk4 V c t) (blk5 V c t) (blk6 V c t) (blk7 V c t)) (ix2 (0 : Fin 1) j)).trans ?_
    refine (pay3_apply _ _ _ _ _ j).trans ?_
    rw [pay5_apply, zero_add]
    rfl

/-- At a later grid point the outputs hold what the point before left plus this point's sums. -/
private theorem outs_next (c : Dev nD) (j : Fin 128) (t : Fin cfg0.N) (h0 : ¬t.val % 128 = 0) :
    (outsAt0 V c t.val t.isLt).1 (ix2 (0 : Fin 1) j)
        = (outsAt0 V c (t.val - 1) (Nat.lt_of_le_of_lt (Nat.sub_le _ _) t.isLt)).1 (ix2 (0 : Fin 1) j) + rowSum V c j t
      ∧ (outsAt0 V c t.val t.isLt).2 (ix2 (0 : Fin 1) j)
        = (outsAt0 V c (t.val - 1) (Nat.lt_of_le_of_lt (Nat.sub_le _ _) t.isLt)).2 (ix2 (0 : Fin 1) j) + sqSum V c j t := by
  rw [outsAt0_B V c t h0]
  dsimp only
  constructor
  · refine (congrFun (out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 V c t) (blk1 V c t) (blk2 V c t) (blk3 V c t) (blk4 V c t) (blk5 V c t) (blk6 V c t) (blk7 V c t)
      (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) j)).trans ?_
    exact pay2_apply _ _ _ _ _ j
  · refine (congrFun (out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 V c t) (blk1 V c t) (blk2 V c t) (blk3 V c t) (blk4 V c t) (blk5 V c t) (blk6 V c t) (blk7 V c t)
      (outsAt0 V c (t.val - 1) (Nat.lt_of_le_of_lt (Nat.sub_le _ _) t.isLt)).1 (outsAt0 V c (t.val - 1) (Nat.lt_of_le_of_lt (Nat.sub_le _ _) t.isLt)).2) (ix2 (0 : Fin 1) j)).trans ?_
    exact pay3_apply _ _ _ _ _ j

/-- After grid point n the outputs hold the sums over the points 0..n, added in that order. -/
private theorem outs_eq (c : Dev nD) (j : Fin 128) : ∀ (n : ℕ) (h : n < cfg0.N),
    (outsAt0 V c n h).1 (ix2 (0 : Fin 1) j) = ∑ t : Fin (n + 1), rowSum V c j ⟨t.val, lt_of_lt_of_le t.isLt h⟩
      ∧ (outsAt0 V c n h).2 (ix2 (0 : Fin 1) j) = ∑ t : Fin (n + 1), sqSum V c j ⟨t.val, lt_of_lt_of_le t.isLt h⟩
  | 0, h => by
    have := outs_first V c j ⟨0, h⟩ rfl
    rw [Fin.sum_univ_one, Fin.sum_univ_one]
    exact this
  | n + 1, h => by
    have hN : cfg0.N = 128 := N_0
    have hB : ¬(⟨n + 1, h⟩ : Fin cfg0.N).val % 128 = 0 := by dsimp only; omega
    have hs := outs_next V c j ⟨n + 1, h⟩ hB
    have ih := outs_eq c j n (Nat.lt_of_succ_lt h)
    rw [Fin.sum_univ_castSucc, Fin.sum_univ_castSucc (n := n + 1)]
    refine ⟨hs.1.trans ?_, hs.2.trans ?_⟩
    · exact congrArg₂ (· + ·) ih.1 rfl
    · exact congrArg₂ (· + ·) ih.2 rfl

end Run

section Blocks

/-- Each input block read where its window's rectangle says: a block's coordinate is index × size + the coordinate
    inside the block. -/
private theorem blk0_apply (c : Dev nD) (t : Fin cfg0.N) (b : Fin 4) (nt : Fin 32) (ht : t.val = 32 * b.val + nt.val)
    (r : Fin 512) (k : Fin 16) (i : Fin 64) :
    blk0 V c t (ix4 (0 : Fin 1) r k i)
      = (V c main_v6 : Vec Ideal S4x16384x16x64 .f32) (ix4 b (⟨512 * nt.val + r.val, by omega⟩ : Fin 16384) k i) := by
  have hi := idx0 t
  show iblk0 V c 0 t (ix4 (0 : Fin 1) r k i) = _
  unfold iblk0
  rw [View.read_apply]
  show V c main_v6 _ = V c main_v6 _
  congr 1
  funext a
  apply Fin.ext
  match a with
  | ⟨0, _⟩ => show win0_0.index t 0 * 1 + 1 * ((0 : Fin 1) : ℕ) = b.val; rw [hi.1]; show t.val / 32 * 1 + 1 * 0 = b.val; omega
  | ⟨1, _⟩ => show win0_0.index t 1 * 512 + 1 * r.val = 512 * nt.val + r.val; rw [hi.2.1]; omega
  | ⟨2, _⟩ => show win0_0.index t 2 * 16 + 1 * k.val = k.val; rw [hi.2.2.1]; omega
  | ⟨3, _⟩ => show win0_0.index t 3 * 64 + 1 * i.val = i.val; rw [hi.2.2.2]; omega

private theorem blk1_apply (c : Dev nD) (t : Fin cfg0.N) (b : Fin 4) (nt : Fin 32) (ht : t.val = 32 * b.val + nt.val)
    (r : Fin 512) (k : Fin 16) (i : Fin 3) :
    blk1 V c t (ix4 (0 : Fin 1) r k i)
      = (V c main_v13 : Vec Ideal S4x16384x16x3 .f32) (ix4 b (⟨512 * nt.val + r.val, by omega⟩ : Fin 16384) k i) := by
  have hi := idx1 t
  show iblk0 V c 1 t (ix4 (0 : Fin 1) r k i) = _
  unfold iblk0
  rw [View.read_apply]
  show V c main_v13 _ = V c main_v13 _
  congr 1
  funext a
  apply Fin.ext
  match a with
  | ⟨0, _⟩ => show win0_1.index t 0 * 1 + 1 * ((0 : Fin 1) : ℕ) = b.val; rw [hi.1]; show t.val / 32 * 1 + 1 * 0 = b.val; omega
  | ⟨1, _⟩ => show win0_1.index t 1 * 512 + 1 * r.val = 512 * nt.val + r.val; rw [hi.2.1]; omega
  | ⟨2, _⟩ => show win0_1.index t 2 * 16 + 1 * k.val = k.val; rw [hi.2.2.1]; omega
  | ⟨3, _⟩ => show win0_1.index t 3 * 3 + 1 * i.val = i.val; rw [hi.2.2.2]; omega

private theorem blk2_apply (c : Dev nD) (t : Fin cfg0.N) (b : Fin 4) (nt : Fin 32) (ht : t.val = 32 * b.val + nt.val)
    (r : Fin 512) (i : Fin 64) :
    blk2 V c t (ix3 (0 : Fin 1) r i)
      = (V c main_arg1 : Vec Ideal S4x16384x64 .f32) (ix3 b (⟨512 * nt.val + r.val, by omega⟩ : Fin 16384) i) := by
  have hi := idx2 t
  show iblk0 V c 2 t (ix3 (0 : Fin 1) r i) = _
  unfold iblk0
  rw [View.read_apply]
  show V c main_arg1 _ = V c main_arg1 _
  congr 1
  funext a
  apply Fin.ext
  match a with
  | ⟨0, _⟩ => show win0_2.index t 0 * 1 + 1 * ((0 : Fin 1) : ℕ) = b.val; rw [hi.1]; show t.val / 32 * 1 + 1 * 0 = b.val; omega
  | ⟨1, _⟩ => show win0_2.index t 1 * 512 + 1 * r.val = 512 * nt.val + r.val; rw [hi.2.1]; omega
  | ⟨2, _⟩ => show win0_2.index t 2 * 64 + 1 * i.val = i.val; rw [hi.2.2]; omega

private theorem blk3_apply (c : Dev nD) (t : Fin cfg0.N) (b : Fin 4) (nt : Fin 32) (ht : t.val = 32 * b.val + nt.val)
    (r : Fin 512) (i : Fin 3) :
    blk3 V c t (ix3 (0 : Fin 1) r i)
      = (V c main_arg0 : Vec Ideal S4x16384x3 .f32) (ix3 b (⟨512 * nt.val + r.val, by omega⟩ : Fin 16384) i) := by
  have hi := idx3 t
  show iblk0 V c 3 t (ix3 (0 : Fin 1) r i) = _
  unfold iblk0
  rw [View.read_apply]
  show V c main_arg0 _ = V c main_arg0 _
  congr 1
  funext a
  apply Fin.ext
  match a with
  | ⟨0, _⟩ => show win0_3.index t 0 * 1 + 1 * ((0 : Fin 1) : ℕ) = b.val; rw [hi.1]; show t.val / 32 * 1 + 1 * 0 = b.val; omega
  | ⟨1, _⟩ => show win0_3.index t 1 * 512 + 1 * r.val = 512 * nt.val + r.val; rw [hi.2.1]; omega
  | ⟨2, _⟩ => show win0_3.index t 2 * 3 + 1 * i.val = i.val; rw [hi.2.2]; omega

private theorem blk4_apply (c : Dev nD) (t : Fin cfg0.N) (i : Fin 3) (j : Fin 128) :
    blk4 V c t (ix2 i j) = (V c main_v15 : Vec Ideal S3x128 .bf16) (ix2 i j) := by
  have hi := idx4 t
  show iblk0 V c 4 t (ix2 i j) = _
  unfold iblk0
  rw [View.read_apply]
  show V c main_v15 _ = V c main_v15 _
  congr 1
  funext a
  apply Fin.ext
  match a with
  | ⟨0, _⟩ => show win0_4.index t 0 * 3 + 1 * i.val = i.val; rw [hi.1]; omega
  | ⟨1, _⟩ => show win0_4.index t 1 * 128 + 1 * j.val = j.val; rw [hi.2]; omega

private theorem blk5_apply (c : Dev nD) (t : Fin cfg0.N) (i : Fin 64) (j : Fin 128) :
    blk5 V c t (ix2 i j) = (V c main_v17 : Vec Ideal S64x128 .bf16) (ix2 i j) := by
  have hi := idx5 t
  show iblk0 V c 5 t (ix2 i j) = _
  unfold iblk0
  rw [View.read_apply]
  show V c main_v17 _ = V c main_v17 _
  congr 1
  funext a
  apply Fin.ext
  match a with
  | ⟨0, _⟩ => show win0_5.index t 0 * 64 + 1 * i.val = i.val; rw [hi.1]; omega
  | ⟨1, _⟩ => show win0_5.index t 1 * 128 + 1 * j.val = j.val; rw [hi.2]; omega

private theorem blk6_apply (c : Dev nD) (t : Fin cfg0.N) (i : Fin 64) (j : Fin 128) :
    blk6 V c t (ix2 i j) = (V c main_v19 : Vec Ideal S64x128 .bf16) (ix2 i j) := by
  have hi := idx6 t
  show iblk0 V c 6 t (ix2 i j) = _
  unfold iblk0
  rw [View.read_apply]
  show V c main_v19 _ = V c main_v19 _
  congr 1
  funext a
  apply Fin.ext
  match a with
  | ⟨0, _⟩ => show win0_6.index t 0 * 64 + 1 * i.val = i.val; rw [hi.1]; omega
  | ⟨1, _⟩ => show win0_6.index t 1 * 128 + 1 * j.val = j.val; rw [hi.2]; omega

private theorem blk7_apply (c : Dev nD) (t : Fin cfg0.N) (i : Fin 1) (j : Fin 128) :
    blk7 V c t (ix2 i j) = (V c main_v21 : Vec Ideal S1x128 .f32) (ix2 i j) := by
  have hi := idx7 t
  show iblk0 V c 7 t (ix2 i j) = _
  unfold iblk0
  rw [View.read_apply]
  show V c main_v21 _ = V c main_v21 _
  congr 1
  funext a
  apply Fin.ext
  match a with
  | ⟨0, _⟩ => show win0_7.index t 0 * 1 + 1 * i.val = i.val; rw [hi.1]; omega
  | ⟨1, _⟩ => show win0_7.index t 1 * 128 + 1 * j.val = j.val; rw [hi.2]; omega

end Blocks

section Assembly

/-- The pre-activation over the whole arrays the region finds. -/
private abbrev Hact (c : Dev nD) : Cert.PN.Act :=
  preOf (V c main_arg0) (V c main_arg1) (V c main_v13) (V c main_v6) (V c main_v15) (V c main_v17) (V c main_v19) (V c main_v21)

/-- Point r of the block at grid point t = 32 b + nt is point 512 nt + r of batch b. -/
private theorem preBlk_eq (c : Dev nD) (t : Fin cfg0.N) (b : Fin 4) (nt : Fin 32) (ht : t.val = 32 * b.val + nt.val)
    (r : Fin 512) (k : Fin 16) (j : Fin 128) :
    preBlk (blk0 V c t) (blk1 V c t) (blk2 V c t) (blk3 V c t) (blk4 V c t) (blk5 V c t) (blk6 V c t) (blk7 V c t) r k j = Hact V c b (⟨512 * nt.val + r.val, by omega⟩ : Fin 16384) k j := by
  unfold preBlk Hact preOf Cert.PN.preK
  refine congrArg₂ (· + ·) (congrArg₂ (· + ·) (congrArg₂ (· + ·) ?_ ?_) ?_) ?_
  · exact Finset.sum_congr rfl fun i _ => by
      rw [blk1_apply V c t b nt ht r k i, blk3_apply V c t b nt ht r i, blk4_apply V c t i j]
  · exact Finset.sum_congr rfl fun i _ => by
      rw [blk2_apply V c t b nt ht r i, blk5_apply V c t i j]
  · exact Finset.sum_congr rfl fun i _ => by
      rw [blk0_apply V c t b nt ht r k i, blk6_apply V c t i j]
  · exact blk7_apply V c t (0 : Fin 1) j

/-- Row q = 16 r + k of the flattened block is (r, k). -/
private theorem hBlk_eq (c : Dev nD) (t : Fin cfg0.N) (b : Fin 4) (nt : Fin 32) (ht : t.val = 32 * b.val + nt.val)
    (q : Fin 8192) (r : Fin 512) (k : Fin 16) (hq : q.val = 16 * r.val + k.val) (j : Fin 128) :
    hBlk V c t q j = Hact V c b (⟨512 * nt.val + r.val, by omega⟩ : Fin 16384) k j := by
  obtain ⟨qv, hqv⟩ := q
  dsimp only at hq
  subst hq
  unfold hBlk
  exact (pay0_apply (blk0 V c t) (blk1 V c t) (blk2 V c t) (blk3 V c t) (blk4 V c t) (blk5 V c t) (blk6 V c t) (blk7 V c t) r k j).trans (preBlk_eq V c t b nt ht r k j)

/-- One grid point's contribution, as a sum over its 512 points and their 16 neighbours. -/
private theorem rowSum_eq (c : Dev nD) (j : Fin 128) (t : Fin cfg0.N) (b : Fin 4) (nt : Fin 32) (ht : t.val = 32 * b.val + nt.val) :
    rowSum V c j t = ∑ r : Fin 512, ∑ k : Fin 16, Hact V c b (⟨512 * nt.val + r.val, by omega⟩ : Fin 16384) k j := by
  unfold rowSum
  exact sum_fin_mul 512 16 (fun q => hBlk V c t q j) _ fun q r k hq => hBlk_eq V c t b nt ht q r k hq j

private theorem sqSum_eq (c : Dev nD) (j : Fin 128) (t : Fin cfg0.N) (b : Fin 4) (nt : Fin 32) (ht : t.val = 32 * b.val + nt.val) :
    sqSum V c j t = ∑ r : Fin 512, ∑ k : Fin 16, Cert.PN.sq (Hact V c) b (⟨512 * nt.val + r.val, by omega⟩ : Fin 16384) k j := by
  unfold sqSum
  exact sum_fin_mul 512 16 (fun q => hBlk V c t q j * hBlk V c t q j) _ fun q r k hq => by
    rw [hBlk_eq V c t b nt ht q r k hq j]; rfl

/-- The sum over the 128 grid points of what each adds is the sum over every batch, point and neighbour. -/
private theorem total_eq (G : Cert.PN.Act) (j : Fin 128) (f : Fin (127 + 1) → EReal)
    (hf : ∀ (t : Fin (127 + 1)) (b : Fin 4) (nt : Fin 32), t.val = 32 * b.val + nt.val →
      f t = ∑ r : Fin 512, ∑ k : Fin 16, G b (⟨512 * nt.val + r.val, by omega⟩ : Fin 16384) k j) :
    ∑ t : Fin (127 + 1), f t = Cert.PN.sum3 G j := by
  unfold Cert.PN.sum3
  refine (sum_fin_mul 4 32 f _ hf).trans (Finset.sum_congr rfl fun b _ => ?_)
  exact (sum_fin_mul 32 512 (fun n : Fin 16384 => ∑ k : Fin 16, G b n k j) _ fun n nt r hn => by
    obtain ⟨nv, hnv⟩ := n
    dsimp only at hn
    subst hn
    rfl).symm

end Assembly

section Totals

/-- The same at a point count known only by an equation (the grid's last point). -/
private theorem total_eq' (G : Cert.PN.Act) (j : Fin 128) (n : ℕ) (hn : n = 127) (f : Fin (n + 1) → EReal)
    (hf : ∀ (t : Fin (n + 1)) (b : Fin 4) (nt : Fin 32), t.val = 32 * b.val + nt.val →
      f t = ∑ r : Fin 512, ∑ k : Fin 16, G b (⟨512 * nt.val + r.val, by omega⟩ : Fin 16384) k j) :
    ∑ t : Fin (n + 1), f t = Cert.PN.sum3 G j := by
  subst hn
  exact total_eq G j f hf

/-- After the last grid point the staging rows hold the totals over every batch, point and neighbour. -/
private theorem total8 (c : Dev nD) (j : Fin 128) (n : ℕ) (h : n < cfg0.N) (hn : n = 127) :
    (outsAt0 V c n h).1 (ix2 (0 : Fin 1) j) = Cert.PN.sum3 (Hact V c) j :=
  ((outs_eq V c j n h).1).trans (total_eq' (Hact V c) j n hn _ fun t b nt ht => rowSum_eq V c j _ b nt ht)

private theorem total9 (c : Dev nD) (j : Fin 128) (n : ℕ) (h : n < cfg0.N) (hn : n = 127) :
    (outsAt0 V c n h).2 (ix2 (0 : Fin 1) j) = Cert.PN.sum3 (Cert.PN.sq (Hact V c)) j :=
  ((outs_eq V c j n h).2).trans (total_eq' (Cert.PN.sq (Hact V c)) j n hn _ fun t b nt ht => sqSum_eq V c j _ b nt ht)

end Totals

section Final

/-- The last grid point. -/
private def tLast : Fin cfg0.N := ⟨127, by rw [show cfg0.N = 128 from N_0]; decide⟩
private theorem tLast_val : tLast.val = 127 := rfl

/-- Output window 8's block index is (0, 0) at every grid point. -/
private theorem idx8 : ∀ t : Fin cfg0.N, win0_8.index t (0 : Fin 2) = 0 ∧ win0_8.index t (1 : Fin 2) = 0 :=
  (by decide +kernel : ∀ t : Fin grid0.N, _)

/-- What output 8's array ends holding, as one function of the array index: the total at its column. -/
private def G8 (c : Dev nD) : Vec Ideal S1x128 .f32 := fun i => Cert.PN.sum3 (Hact V c) ⟨(i 1).val, idx2_lt1 i⟩

/-- The one write-back, at the last point, writes the totals: the block is the whole [1,128] array. -/
private theorem flushed_eq8 (c : Dev nD) (t : Fin cfg0.N) (hf : (cfg0.win 8).flush t = true) :
    (dat0 V c).flushed 8 t = ((cfg0.win 8).blk t).view.read (Elt Ideal) (G8 V c) := by
  have hN : cfg0.N = 128 := N_0
  have h3 : t.val = 127 := by have := (flush0_8 t).mp hf; have := t.isLt; omega
  obtain ⟨e0, e1⟩ := idx8 t
  show (cfg0.win 8).cut (grid0.coords t) ((dat0 V c).after 8 t) = _
  rw [after0_8]
  funext y
  have hy0 : (y 0).val < 1 := (y 0).isLt
  have hy1 : (y 1).val < 128 := (y 1).isLt
  have hx : (win0_8.xinj (grid0.coords t) y : S1x128.Idx) = ix2 (0 : Fin 1) ⟨(y 1).val, hy1⟩ := by
    funext a; apply Fin.ext
    match a with
    | ⟨0, _⟩ => show (y 0).val = 0; omega
    | ⟨1, _⟩ => rfl
  show (outsAt0 V c t.val t.isLt).1 (win0_8.xinj (grid0.coords t) y) = G8 V c (((cfg0.win 8).blk t).view.emb y)
  rw [hx, total8 V c ⟨(y 1).val, hy1⟩ t.val t.isLt h3]
  unfold G8
  refine congrArg _ (Fin.ext ?_)
  show (y 1).val = win0_8.index t (1 : Fin 2) * 128 + 1 * (y 1).val
  rw [e1]; omega

/-- An index of the array lies in a point's block iff each coordinate lies in the block's range on its axis. -/
private theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v23_0).slice (win0_8.rect t)).set ↔ _
  rw [View.set_slice_whole, Rect.mem_set_unit]
  exact Iff.rfl

/-- The last point's block covers the array. -/
private theorem cover8 (i : S1x128.Idx) :
    ∃ t : Fin cfg0.N, (cfg0.win 8).flush t = true ∧ i ∈ ((cfg0.win 8).blk t).view.set := by
  obtain ⟨e0, e1⟩ := idx8 tLast
  have h0 : (i 0).val < 1 := (i 0).isLt
  have h1 : (i 1).val < 128 := (i 1).isLt
  refine ⟨tLast, (flush0_8 tLast).mpr (by rw [tLast_val]), ?_⟩
  rw [mem_blk8]
  intro a
  match a with
  | ⟨0, _⟩ => show win0_8.index tLast 0 * 1 ≤ (i 0).val ∧ (i 0).val < win0_8.index tLast 0 * 1 + 1; rw [e0]; omega
  | ⟨1, _⟩ => show win0_8.index tLast 1 * 128 ≤ (i 1).val ∧ (i 1).val < win0_8.index tLast 1 * 128 + 128; rw [e1]; omega

/-- So the array ends holding the totals. -/
private theorem final8 (c : Dev nD) : (dat0 V c).arrAt 8 cfg0.N = G8 V c :=
  (dat0 V c).arrAt_eq_of_cover 8 (G8 V c) (flushed_eq8 V c) cover8

/-- Output window 9's block index is (0, 0) at every grid point. -/
private theorem idx9 : ∀ t : Fin cfg0.N, win0_9.index t (0 : Fin 2) = 0 ∧ win0_9.index t (1 : Fin 2) = 0 :=
  (by decide +kernel : ∀ t : Fin grid0.N, _)

/-- What output 9's array ends holding, as one function of the array index: the total at its column. -/
private def G9 (c : Dev nD) : Vec Ideal S1x128 .f32 := fun i => Cert.PN.sum3 (Cert.PN.sq (Hact V c)) ⟨(i 1).val, idx2_lt1 i⟩

/-- The one write-back, at the last point, writes the totals: the block is the whole [1,128] array. -/
private theorem flushed_eq9 (c : Dev nD) (t : Fin cfg0.N) (hf : (cfg0.win 9).flush t = true) :
    (dat0 V c).flushed 9 t = ((cfg0.win 9).blk t).view.read (Elt Ideal) (G9 V c) := by
  have hN : cfg0.N = 128 := N_0
  have h3 : t.val = 127 := by have := (flush0_9 t).mp hf; have := t.isLt; omega
  obtain ⟨e0, e1⟩ := idx9 t
  show (cfg0.win 9).cut (grid0.coords t) ((dat0 V c).after 9 t) = _
  rw [after0_9]
  funext y
  have hy0 : (y 0).val < 1 := (y 0).isLt
  have hy1 : (y 1).val < 128 := (y 1).isLt
  have hx : (win0_9.xinj (grid0.coords t) y : S1x128.Idx) = ix2 (0 : Fin 1) ⟨(y 1).val, hy1⟩ := by
    funext a; apply Fin.ext
    match a with
    | ⟨0, _⟩ => show (y 0).val = 0; omega
    | ⟨1, _⟩ => rfl
  show (outsAt0 V c t.val t.isLt).2 (win0_9.xinj (grid0.coords t) y) = G9 V c (((cfg0.win 9).blk t).view.emb y)
  rw [hx, total9 V c ⟨(y 1).val, hy1⟩ t.val t.isLt h3]
  unfold G9
  refine congrArg _ (Fin.ext ?_)
  show (y 1).val = win0_9.index t (1 : Fin 2) * 128 + 1 * (y 1).val
  rw [e1]; omega

/-- An index of the array lies in a point's block iff each coordinate lies in the block's range on its axis. -/
private theorem mem_blk9 (t : Fin cfg0.N) (i : S1x128.Idx) :
    i ∈ ((cfg0.win 9).blk t).view.set ↔ ∀ a : Fin 2, win0_9.index t a * S1x128.size a ≤ (i a).val ∧ (i a).val < win0_9.index t a * S1x128.size a + S1x128.size a := by
  show i ∈ ((View.whole main_v23_1).slice (win0_9.rect t)).set ↔ _
  rw [View.set_slice_whole, Rect.mem_set_unit]
  exact Iff.rfl

/-- The last point's block covers the array. -/
private theorem cover9 (i : S1x128.Idx) :
    ∃ t : Fin cfg0.N, (cfg0.win 9).flush t = true ∧ i ∈ ((cfg0.win 9).blk t).view.set := by
  obtain ⟨e0, e1⟩ := idx9 tLast
  have h0 : (i 0).val < 1 := (i 0).isLt
  have h1 : (i 1).val < 128 := (i 1).isLt
  refine ⟨tLast, (flush0_9 tLast).mpr (by rw [tLast_val]), ?_⟩
  rw [mem_blk9]
  intro a
  match a with
  | ⟨0, _⟩ => show win0_9.index tLast 0 * 1 ≤ (i 0).val ∧ (i 0).val < win0_9.index tLast 0 * 1 + 1; rw [e0]; omega
  | ⟨1, _⟩ => show win0_9.index tLast 1 * 128 ≤ (i 1).val ∧ (i 1).val < win0_9.index tLast 1 * 128 + 128; rw [e1]; omega

/-- So the array ends holding the totals. -/
private theorem final9 (c : Dev nD) : (dat0 V c).arrAt 9 cfg0.N = G9 V c :=
  (dat0 V c).arrAt_eq_of_cover 9 (G9 V c) (flushed_eq9 V c) cover9

end Final

/-- Output window 8 ends at the sum of the pre-activation over all (b, n, k). -/
theorem arr8 (c : Dev nD) (j : Fin 128) :
    (dat0 (F := Ideal) V c).arrAt 8 cfg0.N (ix2 (0 : Fin 1) j)
      = Cert.PN.sum3 (preOf (V c main_arg0) (V c main_arg1) (V c main_v13) (V c main_v6) (V c main_v15) (V c main_v17) (V c main_v19) (V c main_v21)) j := by
  rw [final8 V c]
  rfl

/-- Output window 9 ends at the sum of its square. -/
theorem arr9 (c : Dev nD) (j : Fin 128) :
    (dat0 (F := Ideal) V c).arrAt 9 cfg0.N (ix2 (0 : Fin 1) j)
      = Cert.PN.sum3 (Cert.PN.sq (preOf (V c main_arg0) (V c main_arg1) (V c main_v13) (V c main_v6) (V c main_v15) (V c main_v17) (V c main_v19) (V c main_v21))) j := by
  rw [final9 V c]
  rfl

end Cert.KernelIdeal.KV

end
-- ==== Proof.KReg1.lean ====
/-
  The second region: its output array after the last grid point, entry by entry.
-/
import proofs.«157681_j22162031247559_1_alg».proof.Proof.Gen.KernelIdeal.Frame
import proofs.«157681_j22162031247559_1_alg».proof.Proof.KTerm
import proofs.«157681_j22162031247559_1_alg».proof.Proof.KPayload
import Idealize.ShloMosaic.Lib.Pipeline.Value

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of rank 2, 3 and 4. -/
private theorem reg1_zeros2 : (![0, 0] : Fin 2 → Nat) = fun _ => 0 := funext fun a => by fin_cases a <;> rfl
private theorem reg1_zeros3 : (![0, 0, 0] : Fin 3 → Nat) = fun _ => 0 := funext fun a => by fin_cases a <;> rfl
private theorem reg1_zeros4 : (![0, 0, 0, 0] : Fin 4 → Nat) = fun _ => 0 := funext fun a => by fin_cases a <;> rfl

/-- The block index of each window that moves with the grid, at point t: batch t / 32 on the first axis, tile t mod 32 on
    the second, zero on the others. -/
private theorem reg1_idx_moving : ∀ t : Fin cfg1.N,
    (win1_0.index t (0 : Fin 4) = t.val / 32 ∧ win1_0.index t (1 : Fin 4) = t.val % 32 ∧ win1_0.index t (2 : Fin 4) = 0 ∧ win1_0.index t (3 : Fin 4) = 0)
    ∧ (win1_1.index t (0 : Fin 4) = t.val / 32 ∧ win1_1.index t (1 : Fin 4) = t.val % 32 ∧ win1_1.index t (2 : Fin 4) = 0 ∧ win1_1.index t (3 : Fin 4) = 0)
    ∧ (win1_2.index t (0 : Fin 3) = t.val / 32 ∧ win1_2.index t (1 : Fin 3) = t.val % 32 ∧ win1_2.index t (2 : Fin 3) = 0)
    ∧ (win1_3.index t (0 : Fin 3) = t.val / 32 ∧ win1_3.index t (1 : Fin 3) = t.val % 32 ∧ win1_3.index t (2 : Fin 3) = 0)
    ∧ (win1_12.index t (0 : Fin 3) = t.val / 32 ∧ win1_12.index t (1 : Fin 3) = t.val % 32 ∧ win1_12.index t (2 : Fin 3) = 0) :=
  (by decide +kernel : ∀ t : Fin grid1.N, _)

/-- The block index of each window that holds its whole array is zero at every point. -/
private theorem reg1_idx_fixed : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- Block of the gathered features. -/
private theorem reg1_blk0_apply (c : Dev nD) (t : Fin cfg1.N) (r : Fin 512) (k : Fin 16) (i : Fin 64) (b : Fin 4) (n : Fin 16384)
    (hb : b.val = t.val / 32) (hn : n.val = t.val % 32 * 512 + r.val) :
    (iblk1 V c 0 t : Vec Ideal S1x512x16x64 .f32) (ix4 0 r k i) = (V c main_v6 : S4x16384x16x64.Idx → EReal) (ix4 b n k i) := by
  obtain ⟨⟨e0, e1, e2, e3⟩, -⟩ := reg1_idx_moving t
  unfold iblk1
  rw [View.read_apply]
  show V c main_v6 _ = V c main_v6 _
  congr 1
  funext a
  apply Fin.ext
  match a with
  | ⟨0, _⟩ => show win1_0.index t 0 * 1 + 1 * 0 = b.val; rw [e0, hb]; omega
  | ⟨1, _⟩ => show win1_0.index t 1 * 512 + 1 * r.val = n.val; rw [e1, hn]; omega
  | ⟨2, _⟩ => show win1_0.index t 2 * 16 + 1 * k.val = k.val; rw [e2]; omega
  | ⟨3, _⟩ => show win1_0.index t 3 * 64 + 1 * i.val = i.val; rw [e3]; omega

/-- Block of the gathered positions. -/
private theorem reg1_blk1_apply (c : Dev nD) (t : Fin cfg1.N) (r : Fin 512) (k : Fin 16) (i : Fin 3) (b : Fin 4) (n : Fin 16384)
    (hb : b.val = t.val / 32) (hn : n.val = t.val % 32 * 512 + r.val) :
    (iblk1 V c 1 t : Vec Ideal S1x512x16x3 .f32) (ix4 0 r k i) = (V c main_v13 : S4x16384x16x3.Idx → EReal) (ix4 b n k i) := by
  obtain ⟨-, ⟨e0, e1, e2, e3⟩, -⟩ := reg1_idx_moving t
  unfold iblk1
  rw [View.read_apply]
  show V c main_v13 _ = V c main_v13 _
  congr 1
  funext a
  apply Fin.ext
  match a with
  | ⟨0, _⟩ => show win1_1.index t 0 * 1 + 1 * 0 = b.val; rw [e0, hb]; omega
  | ⟨1, _⟩ => show win1_1.index t 1 * 512 + 1 * r.val = n.val; rw [e1, hn]; omega
  | ⟨2, _⟩ => show win1_1.index t 2 * 16 + 1 * k.val = k.val; rw [e2]; omega
  | ⟨3, _⟩ => show win1_1.index t 3 * 3 + 1 * i.val = i.val; rw [e3]; omega

/-- Block of the features. -/
private theorem reg1_blk2_apply (c : Dev nD) (t : Fin cfg1.N) (r : Fin 512) (i : Fin 64) (b : Fin 4) (n : Fin 16384)
    (hb : b.val = t.val / 32) (hn : n.val = t.val % 32 * 512 + r.val) :
    (iblk1 V c 2 t : Vec Ideal S1x512x64 .f32) (ix3 0 r i) = (V c main_arg1 : S4x16384x64.Idx → EReal) (ix3 b n i) := by
  obtain ⟨-, -, ⟨e0, e1, e2⟩, -⟩ := reg1_idx_moving t
  unfold iblk1
  rw [View.read_apply]
  show V c main_arg1 _ = V c main_arg1 _
  congr 1
  funext a
  apply Fin.ext
  match a with
  | ⟨0, _⟩ => show win1_2.index t 0 * 1 + 1 * 0 = b.val; rw [e0, hb]; omega
  | ⟨1, _⟩ => show win1_2.index t 1 * 512 + 1 * r.val = n.val; rw [e1, hn]; omega
  | ⟨2, _⟩ => show win1_2.index t 2 * 64 + 1 * i.val = i.val; rw [e2]; omega

/-- Block of the positions. -/
private theorem reg1_blk3_apply (c : Dev nD) (t : Fin cfg1.N) (r : Fin 512) (i : Fin 3) (b : Fin 4) (n : Fin 16384)
    (hb : b.val = t.val / 32) (hn : n.val = t.val % 32 * 512 + r.val) :
    (iblk1 V c 3 t : Vec Ideal S1x512x3 .f32) (ix3 0 r i) = (V c main_arg0 : S4x16384x3.Idx → EReal) (ix3 b n i) := by
  obtain ⟨-, -, -, ⟨e0, e1, e2⟩, -⟩ := reg1_idx_moving t
  unfold iblk1
  rw [View.read_apply]
  show V c main_arg0 _ = V c main_arg0 _
  congr 1
  funext a
  apply Fin.ext
  match a with
  | ⟨0, _⟩ => show win1_3.index t 0 * 1 + 1 * 0 = b.val; rw [e0, hb]; omega
  | ⟨1, _⟩ => show win1_3.index t 1 * 512 + 1 * r.val = n.val; rw [e1, hn]; omega
  | ⟨2, _⟩ => show win1_3.index t 2 * 3 + 1 * i.val = i.val; rw [e2]; omega

/-- The small windows hold their whole arrays at every point. -/
private theorem reg1_blk4_apply (c : Dev nD) (t : Fin cfg1.N) (i : Fin 3) (j : Fin 128) :
    (iblk1 V c 4 t : Vec Ideal S3x128 .bf16) (ix2 i j) = (V c main_v15 : S3x128.Idx → EReal) (ix2 i j) := by
  obtain ⟨⟨e0, e1⟩, -⟩ := reg1_idx_fixed t
  unfold iblk1
  rw [View.read_apply]
  show V c main_v15 _ = V c main_v15 _
  congr 1
  funext a
  apply Fin.ext
  match a with
  | ⟨0, _⟩ => show win1_4.index t 0 * 3 + 1 * i.val = i.val; rw [e0]; omega
  | ⟨1, _⟩ => show win1_4.index t 1 * 128 + 1 * j.val = j.val; rw [e1]; omega
private theorem reg1_blk5_apply (c : Dev nD) (t : Fin cfg1.N) (i : Fin 64) (j : Fin 128) :
    (iblk1 V c 5 t : Vec Ideal S64x128 .bf16) (ix2 i j) = (V c main_v17 : S64x128.Idx → EReal) (ix2 i j) := by
  obtain ⟨-, ⟨e0, e1⟩, -⟩ := reg1_idx_fixed t
  unfold iblk1
  rw [View.read_apply]
  show V c main_v17 _ = V c main_v17 _
  congr 1
  funext a
  apply Fin.ext
  match a with
  | ⟨0, _⟩ => show win1_5.index t 0 * 64 + 1 * i.val = i.val; rw [e0]; omega
  | ⟨1, _⟩ => show win1_5.index t 1 * 128 + 1 * j.val = j.val; rw [e1]; omega
private theorem reg1_blk6_apply (c : Dev nD) (t : Fin cfg1.N) (i : Fin 64) (j : Fin 128) :
    (iblk1 V c 6 t : Vec Ideal S64x128 .bf16) (ix2 i j) = (V c main_v19 : S64x128.Idx → EReal) (ix2 i j) := by
  obtain ⟨-, -, ⟨e0, e1⟩, -⟩ := reg1_idx_fixed t
  unfold iblk1
  rw [View.read_apply]
  show V c main_v19 _ = V c main_v19 _
  congr 1
  funext a
  apply Fin.ext
  match a with
  | ⟨0, _⟩ => show win1_6.index t 0 * 64 + 1 * i.val = i.val; rw [e0]; omega
  | ⟨1, _⟩ => show win1_6.index t 1 * 128 + 1 * j.val = j.val; rw [e1]; omega
private theorem reg1_blk7_apply (c : Dev nD) (t : Fin cfg1.N) (j : Fin 128) :
    (iblk1 V c 7 t : Vec Ideal S1x128 .f32) (ix2 0 j) = (V c main_v21 : S1x128.Idx → EReal) (ix2 0 j) := by
  obtain ⟨-, -, -, ⟨e0, e1⟩, -⟩ := reg1_idx_fixed t
  unfold iblk1
  rw [View.read_apply]
  show V c main_v21 _ = V c main_v21 _
  congr 1
  funext a
  apply Fin.ext
  match a with
  | ⟨0, _⟩ => show win1_7.index t 0 * 1 + 1 * 0 = 0; rw [e0]
  | ⟨1, _⟩ => show win1_7.index t 1 * 128 + 1 * j.val = j.val; rw [e1]; omega
private theorem reg1_blk8_apply (c : Dev nD) (t : Fin cfg1.N) (j : Fin 128) :
    (iblk1 V c 8 t : Vec Ideal S1x128 .f32) (ix2 0 j) = (V c main_v34 : S1x128.Idx → EReal) (ix2 0 j) := by
  obtain ⟨-, -, -, -, ⟨e0, e1⟩, -⟩ := reg1_idx_fixed t
  unfold iblk1
  rw [View.read_apply]
  show V c main_v34 _ = V c main_v34 _
  congr 1
  funext a
  apply Fin.ext
  match a with
  | ⟨0, _⟩ => show win1_8.index t 0 * 1 + 1 * 0 = 0; rw [e0]
  | ⟨1, _⟩ => show win1_8.index t 1 * 128 + 1 * j.val = j.val; rw [e1]; omega
private theorem reg1_blk9_apply (c : Dev nD) (t : Fin cfg1.N) (j : Fin 128) :
    (iblk1 V c 9 t : Vec Ideal S1x128 .f32) (ix2 0 j) = (V c main_v37 : S1x128.Idx → EReal) (ix2 0 j) := by
  obtain ⟨-, -, -, -, -, ⟨e0, e1⟩, -⟩ := reg1_idx_fixed t
  unfold iblk1
  rw [View.read_apply]
  show V c main_v37 _ = V c main_v37 _
  congr 1
  funext a
  apply Fin.ext
  match a with
  | ⟨0, _⟩ => show win1_9.index t 0 * 1 + 1 * 0 = 0; rw [e0]
  | ⟨1, _⟩ => show win1_9.index t 1 * 128 + 1 * j.val = j.val; rw [e1]; omega
private theorem reg1_blk10_apply (c : Dev nD) (t : Fin cfg1.N) (i : Fin 128) (j : Fin 128) :
    (iblk1 V c 10 t : Vec Ideal S128x128 .bf16) (ix2 i j) = (V c main_v20 : S128x128.Idx → EReal) (ix2 i j) := by
  obtain ⟨-, -, -, -, -, -, ⟨e0, e1⟩, -⟩ := reg1_idx_fixed t
  unfold iblk1
  rw [View.read_apply]
  show V c main_v20 _ = V c main_v20 _
  congr 1
  funext a
  apply Fin.ext
  match a with
  | ⟨0, _⟩ => show win1_10.index t 0 * 128 + 1 * i.val = i.val; rw [e0]; omega
  | ⟨1, _⟩ => show win1_10.index t 1 * 128 + 1 * j.val = j.val; rw [e1]; omega
private theorem reg1_blk11_apply (c : Dev nD) (t : Fin cfg1.N) (j : Fin 128) :
    (iblk1 V c 11 t : Vec Ideal S1x128 .f32) (ix2 0 j) = (V c main_v22 : S1x128.Idx → EReal) (ix2 0 j) := by
  obtain ⟨-, -, -, -, -, -, -, ⟨e0, e1⟩⟩ := reg1_idx_fixed t
  unfold iblk1
  rw [View.read_apply]
  show V c main_v22 _ = V c main_v22 _
  congr 1
  funext a
  apply Fin.ext
  match a with
  | ⟨0, _⟩ => show win1_11.index t 0 * 1 + 1 * 0 = 0; rw [e0]
  | ⟨1, _⟩ => show win1_11.index t 1 * 128 + 1 * j.val = j.val; rw [e1]; omega

/-- The pre-activation over the arrays the region finds. -/
private abbrev reg1Pre (c : Dev nD) : Cert.PN.Act :=
  preOf (V c main_arg0) (V c main_arg1) (V c main_v13) (V c main_v6) (V c main_v15) (V c main_v17) (V c main_v19) (V c main_v21)

/-- What the output array ends holding, as one function of its index. -/
private def reg1Out (c : Dev nD) : S4x16384x128.Idx → EReal := fun o =>
  Cert.PN.tail (Cert.PN.affine (reg1Pre V c) (fun j => V c main_v34 (ix2 0 j)) (fun j => V c main_v37 (ix2 0 j)))
    (Cert.PN.cur2 (V c main_v20)) (fun j => V c main_v22 (ix2 0 j)) (o 0) (o 1) (o 2)

/-- The block's pre-activation at row r is the arrays' at point n = 512 (t mod 32) + r of batch b = t / 32. -/
private theorem reg1_preBlk_eq (c : Dev nD) (t : Fin cfg1.N) (r : Fin 512) (k : Fin 16) (j : Fin 128) (b : Fin 4) (n : Fin 16384)
    (hb : b.val = t.val / 32) (hn : n.val = t.val % 32 * 512 + r.val) :
    preBlk (iblk1 V c 0 t) (iblk1 V c 1 t) (iblk1 V c 2 t) (iblk1 V c 3 t) (iblk1 V c 4 t) (iblk1 V c 5 t) (iblk1 V c 6 t) (iblk1 V c 7 t) r k j
      = reg1Pre V c b n k j := by
  unfold preBlk reg1Pre preOf Cert.PN.preK
  simp only [reg1_blk0_apply V c t r k _ b n hb hn, reg1_blk1_apply V c t r k _ b n hb hn, reg1_blk2_apply V c t r _ b n hb hn,
    reg1_blk3_apply V c t r _ b n hb hn, reg1_blk4_apply V c t, reg1_blk5_apply V c t, reg1_blk6_apply V c t, reg1_blk7_apply V c t]

/-- The stored row of point t at row r, channel ch. -/
private theorem reg1_row_eq (c : Dev nD) (t : Fin cfg1.N) (r : Fin 512) (ch : Fin 128) (b : Fin 4) (n : Fin 16384)
    (hb : b.val = t.val / 32) (hn : n.val = t.val % 32 * 512 + r.val) :
    k1_pay1 (F := Ideal) (k1_pay2 (iblk1 V c 3 t) (iblk1 V c 2 t) (iblk1 V c 1 t) (iblk1 V c 0 t) (iblk1 V c 4 t) (iblk1 V c 5 t) (iblk1 V c 6 t))
        (iblk1 V c 7 t) (iblk1 V c 8 t) (iblk1 V c 9 t) (iblk1 V c 10 t) (iblk1 V c 11 t) (ix3 0 r ch)
      = reg1Out V c (ix3 b n ch) := by
  refine (pay1_apply (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) r ch).trans ?_
  unfold reg1Out Cert.PN.tail Cert.PN.affine
  simp only [reg1_preBlk_eq V c t r _ _ b n hb hn, reg1_blk8_apply V c t, reg1_blk9_apply V c t, reg1_blk10_apply V c t, reg1_blk11_apply V c t]

/-- What point t writes back is block t of the whole-array function. -/
private theorem reg1_flushed_eq (c : Dev nD) (t : Fin cfg1.N) :
    (dat1 (F := Ideal) V c).flushed 12 t = ((cfg1.win 12).blk t).view.read (Elt Ideal) (reg1Out V c) := by
  show (cfg1.win 12).cut (grid1.coords t) ((dat1 (F := Ideal) V c).after 12 t) = _
  rw [after1_12]
  unfold out1_12
  rw [View.canon_unit_zero reg1_zeros3]
  simp only [View.ld_unit_zero (S := S1x512x3) reg1_zeros3, View.ld_unit_zero (S := S1x512x64) reg1_zeros3,
    View.ld_unit_zero (S := S1x512x16x3) reg1_zeros4, View.ld_unit_zero (S := S1x512x16x64) reg1_zeros4,
    View.ld_unit_zero (S := S3x128) reg1_zeros2, View.ld_unit_zero (S := S64x128) reg1_zeros2, View.ld_unit_zero (S := S1x128) reg1_zeros2,
    View.ld_unit_zero (S := S128x128) reg1_zeros2]
  obtain ⟨-, -, -, -, ⟨e0, e1, e2⟩⟩ := reg1_idx_moving t
  have ht : t.val < 128 := (show t.val < grid1.N from t.isLt).trans_eq N_1
  funext j
  have hj0 : (j 0).val < 1 := (j 0).isLt
  have hj1 : (j 1).val < 512 := (j 1).isLt
  have hj2 : (j 2).val < 128 := (j 2).isLt
  have hx : (win1_12.xinj (grid1.coords t) j : S1x512x128.Idx) = ix3 0 ⟨(j 1).val, hj1⟩ ⟨(j 2).val, hj2⟩ := by
    funext a; apply Fin.ext
    match a with
    | ⟨0, _⟩ => show (j 0).val = 0; omega
    | ⟨1, _⟩ => rfl
    | ⟨2, _⟩ => rfl
  show k1_pay1 (F := Ideal) (k1_pay2 (iblk1 V c 3 t) (iblk1 V c 2 t) (iblk1 V c 1 t) (iblk1 V c 0 t) (iblk1 V c 4 t) (iblk1 V c 5 t) (iblk1 V c 6 t))
        (iblk1 V c 7 t) (iblk1 V c 8 t) (iblk1 V c 9 t) (iblk1 V c 10 t) (iblk1 V c 11 t) (win1_12.xinj (grid1.coords t) j)
      = reg1Out V c (((cfg1.win 12).blk t).view.emb j)
  rw [hx, reg1_row_eq V c t ⟨(j 1).val, hj1⟩ ⟨(j 2).val, hj2⟩ ⟨t.val / 32, by omega⟩ ⟨t.val % 32 * 512 + (j 1).val, by omega⟩ rfl rfl]
  congr 1
  funext a; apply Fin.ext
  match a with
  | ⟨0, _⟩ => show t.val / 32 = win1_12.index t 0 * 1 + 1 * (j 0).val; rw [e0]; omega
  | ⟨1, _⟩ => show t.val % 32 * 512 + (j 1).val = win1_12.index t 1 * 512 + 1 * (j 1).val; rw [e1]; omega
  | ⟨2, _⟩ => show (j 2).val = win1_12.index t 2 * 128 + 1 * (j 2).val; rw [e2]; omega

/-- An index of the array lies in point t's block iff each coordinate lies in the block's range on its axis. -/
private theorem reg1_mem_blk (t : Fin cfg1.N) (i : S4x16384x128.Idx) :
    i ∈ ((cfg1.win 12).blk t).view.set ↔ ∀ a : Fin 3, win1_12.index t a * S1x512x128.size a ≤ (i a).val ∧ (i a).val < win1_12.index t a * S1x512x128.size a + S1x512x128.size a := by
  show i ∈ ((View.whole main_v38).slice (win1_12.rect t)).set ↔ _
  rw [View.set_slice_whole, Rect.mem_set_unit]
  exact Iff.rfl

/-- Every index of the array lies in the block of the point 32 b + n / 512. -/
private theorem reg1_cover (i : S4x16384x128.Idx) :
    ∃ t : Fin cfg1.N, (cfg1.win 12).flush t = true ∧ i ∈ ((cfg1.win 12).blk t).view.set := by
  have hi0 : (i 0).val < 4 := (i 0).isLt
  have hi1 : (i 1).val < 16384 := (i 1).isLt
  have hi2 : (i 2).val < 128 := (i 2).isLt
  have hN : cfg1.N = 128 := N_1
  let t : Fin cfg1.N := ⟨32 * (i 0).val + (i 1).val / 512, by rw [hN]; omega⟩
  have htv : t.val = 32 * (i 0).val + (i 1).val / 512 := rfl
  obtain ⟨-, -, -, -, ⟨e0, e1, e2⟩⟩ := reg1_idx_moving t
  refine ⟨t, flush1_12 t, ?_⟩
  rw [reg1_mem_blk]
  intro a
  match a with
  | ⟨0, _⟩ => show win1_12.index t 0 * 1 ≤ (i 0).val ∧ (i 0).val < win1_12.index t 0 * 1 + 1; rw [e0, htv]; omega
  | ⟨1, _⟩ => show win1_12.index t 1 * 512 ≤ (i 1).val ∧ (i 1).val < win1_12.index t 1 * 512 + 512; rw [e1, htv]; omega
  | ⟨2, _⟩ => show win1_12.index t 2 * 128 ≤ (i 2).val ∧ (i 2).val < win1_12.index t 2 * 128 + 128; rw [e2]; omega

/-- The output array after the last point is the whole-array function. -/
private theorem reg1_final (c : Dev nD) : (dat1 (F := Ideal) V c).arrAt 12 cfg1.N = reg1Out V c :=
  (dat1 (F := Ideal) V c).arrAt_eq_of_cover 12 (reg1Out V c) (fun t _ => reg1_flushed_eq V c t) reg1_cover

/-- Output window 12 ends, at batch b, point n, channel ch, at the tail of the affine image of the pre-activation by
    the scale and shift rows the region finds in windows 8 and 9, with the matrix of window 10 and the bias row of
    window 11. -/
theorem arr12 (c : Dev nD) (b : Fin 4) (n : Fin 16384) (ch : Fin 128) :
    (dat1 (F := Ideal) V c).arrAt 12 cfg1.N (ix3 b n ch)
      = Cert.PN.tail (Cert.PN.affine (preOf (V c main_arg0) (V c main_arg1) (V c main_v13) (V c main_v6) (V c main_v15) (V c main_v17) (V c main_v19) (V c main_v21))
          (fun j => V c main_v34 (ix2 0 j)) (fun j => V c main_v37 (ix2 0 j)))
          (Cert.PN.cur2 (V c main_v20)) (fun j => V c main_v22 (ix2 0 j)) b n ch := by
  rw [reg1_final V c]
  rfl

end Cert.KernelIdeal.KV

end
-- ==== Proof.KValue.lean ====
/-
  The idealized program's result array, entry by entry, as the tail of the folded normalization of the
  pre-activation of the argument arrays: the second region's output over the entry contents the host operations
  and the first region leave it, each read back to the arguments.
-/
import proofs.«157681_j22162031247559_1_alg».proof.Proof.KRun
import proofs.«157681_j22162031247559_1_alg».proof.Proof.KHost
import proofs.«157681_j22162031247559_1_alg».proof.Proof.KReg0
import proofs.«157681_j22162031247559_1_alg».proof.Proof.KReg1
import Idealize.ShloMosaic.Lib.ValueLayout

noncomputable section

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat)

/-! ### The host terms at an index -/

theorem rowT_apply (a : Vec Ideal S128 .f32) (j : Fin 128) : rowT (F := Ideal) a (ix2 (0 : Fin 1) j) = a (ix1 j) := by
  unfold rowT
  exact shapeCast_a_1a_apply a shapeCasts_S128_S1x128 0 j

theorem scaleT_apply (s1 s2 : Vec Ideal S1x128 .f32) (a5 : Vec Ideal S128 .f32) (j : Fin 128) :
    scaleT (F := Ideal) s1 s2 a5 (ix2 (0 : Fin 1) j)
      = a5 (ix1 j) * Ideal.rsqrt ((Ideal.div (s2 (ix2 0 j)) Cert.PN.Nlit
          - Ideal.div (s1 (ix2 0 j)) Cert.PN.Nlit * Ideal.div (s1 (ix2 0 j)) Cert.PN.Nlit) + Cert.PN.epsLit) := by
  unfold scaleT varT meanT
  show rowT (F := Ideal) a5 (ix2 (0 : Fin 1) j) * _ = _
  rw [rowT_apply]
  rfl

theorem shiftT_apply (s1 s2 : Vec Ideal S1x128 .f32) (a5 a6 : Vec Ideal S128 .f32) (j : Fin 128) :
    shiftT (F := Ideal) s1 s2 a5 a6 (ix2 (0 : Fin 1) j)
      = a6 (ix1 j) - Ideal.div (s1 (ix2 0 j)) Cert.PN.Nlit * scaleT (F := Ideal) s1 s2 a5 (ix2 (0 : Fin 1) j) := by
  unfold shiftT meanT
  show rowT (F := Ideal) a6 (ix2 (0 : Fin 1) j) - _ = _
  rw [rowT_apply]
  rfl

/-- The three weight blocks are rows 0..2, 3..66, 67..130 of the first matrix; the narrower format changes nothing. -/
theorem wxT_cur (a3 : Vec Ideal S131x128 .f32) : Cert.PN.cur2 (wxT (F := Ideal) a3) = Cert.PN.rowsX (Cert.PN.cur2 a3) := by
  funext i j
  unfold wxT
  exact slice2_axis0_apply 0 a3 slices_S131x128_S3x128_0_0 i j ⟨i.val, by omega⟩ (by simp)
theorem wcT_cur (a3 : Vec Ideal S131x128 .f32) : Cert.PN.cur2 (wcT (F := Ideal) a3) = Cert.PN.rowsC (Cert.PN.cur2 a3) := by
  funext i j
  unfold wcT
  exact slice2_axis0_apply 3 a3 slices_S131x128_S64x128_3_0 i j ⟨3 + i.val, by omega⟩ rfl
theorem wnT_cur (a3 : Vec Ideal S131x128 .f32) : Cert.PN.cur2 (wnT (F := Ideal) a3) = Cert.PN.rowsN (Cert.PN.cur2 a3) := by
  funext i j
  unfold wnT
  exact slice2_axis0_apply 67 a3 slices_S131x128_S64x128_67_0 i j ⟨67 + i.val, by omega⟩ rfl

/-! ### The result -/

variable (m : (ℓ : Loc nD τ sig) → Buf (Elt Ideal) ℓ) (ρ : Dev nD → PrngReg)

/-- The pre-activation of the argument arrays. -/
def Hk (c : Dev nD) : Cert.PN.Act :=
  preOf (m ((c.tc : Thread nD τ).loc main_arg0)) (m ((c.tc : Thread nD τ).loc main_arg1)) (gatherX (m ((c.tc : Thread nD τ).loc main_arg0)) (m ((c.tc : Thread nD τ).loc main_arg2))) (gatherF (m ((c.tc : Thread nD τ).loc main_arg1)) (m ((c.tc : Thread nD τ).loc main_arg2)))
    (wxT (m ((c.tc : Thread nD τ).loc main_arg3))) (wcT (m ((c.tc : Thread nD τ).loc main_arg3))) (wnT (m ((c.tc : Thread nD τ).loc main_arg3))) (rowT (m ((c.tc : Thread nD τ).loc main_arg4)))

/-- The first region leaves the sum of the pre-activation, -/
theorem s1_apply (c : Dev nD) (j : Fin 128) :
    (dat0 (V1 m ρ) c).arrAt 8 cfg0.N (ix2 (0 : Fin 1) j) = Cert.PN.sum3 (Hk m c) j := by
  rw [arr8 (V1 m ρ) c j, V1_arg0, V1_arg1, V1_v13, V1_v6, V1_v15, V1_v17, V1_v19, V1_v21]
  rfl
/-- and of its square. -/
theorem s2_apply (c : Dev nD) (j : Fin 128) :
    (dat0 (V1 m ρ) c).arrAt 9 cfg0.N (ix2 (0 : Fin 1) j) = Cert.PN.sum3 (Cert.PN.sq (Hk m c)) j := by
  rw [arr9 (V1 m ρ) c j, V1_arg0, V1_arg1, V1_v13, V1_v6, V1_v15, V1_v17, V1_v19, V1_v21]
  rfl

/-- The scale row the second region finds is the folded normalization's scale. -/
theorem scale_eq (c : Dev nD) :
    (fun j : Fin 128 => V3 m ρ c main_v34 (ix2 (0 : Fin 1) j)) = Cert.PN.scaleK (Hk m c) (Cert.PN.cur1 (m ((c.tc : Thread nD τ).loc main_arg5))) := by
  funext j
  rw [V3_v34, scaleT_apply, s1_apply, s2_apply]
  rfl
/-- The shift row likewise. -/
theorem shift_eq (c : Dev nD) :
    (fun j : Fin 128 => V3 m ρ c main_v37 (ix2 (0 : Fin 1) j))
      = Cert.PN.shiftK (Hk m c) (Cert.PN.cur1 (m ((c.tc : Thread nD τ).loc main_arg5))) (Cert.PN.cur1 (m ((c.tc : Thread nD τ).loc main_arg6))) := by
  funext j
  rw [V3_v37, shiftT_apply, scaleT_apply, s1_apply, s2_apply]
  rfl

/-- The result array at batch b, point n, channel ch. -/
theorem result_apply (c : Dev nD) (b : Fin 4) (n : Fin 16384) (ch : Fin 128) :
    W4 m ρ c (Proc.devRef .tc main_v38) (ix3 b n ch)
      = Cert.PN.tail (Cert.PN.yK (Hk m c) (Cert.PN.cur1 (m ((c.tc : Thread nD τ).loc main_arg5))) (Cert.PN.cur1 (m ((c.tc : Thread nD τ).loc main_arg6))))
          (Cert.PN.cur2 (w2T (m ((c.tc : Thread nD τ).loc main_arg7)))) (fun j => rowT (m ((c.tc : Thread nD τ).loc main_arg8)) (ix2 0 j)) b n ch := by
  rw [W4_result, arr12 (V3 m ρ) c b n ch, scale_eq, shift_eq, V3_arg0, V3_arg1, V3_v13, V3_v6, V3_v15, V3_v17, V3_v19,
    V3_v21, V3_v20, V3_v22]
  rfl

end Cert.KernelIdeal.KV

end
-- ==== Proof.RTerm.lean ====
/-
  The reference program's result as one function of the argument arrays, in named stages: the gathered rows, the
  concatenated row and its product with the first matrix, the per-channel sum, mean and variance over all batches,
  points and neighbours, the normalization, the clip at zero, the second product, the maximum over the neighbours.
-/
import proofs.«157681_j22162031247559_1_alg».proof.Proof.Gen.ReferenceIdeal
import proofs.«157681_j22162031247559_1_alg».proof.Proof.Spec

noncomputable section

namespace Cert.ReferenceIdeal.RV

open Cert.ReferenceIdeal Cert.ReferenceIdeal.Gen Idealize.ShloMosaic Idealize.ShloMosaic.ValueIdx

variable {F : FTy → Type} [FloatOps F]

/-- Float contents of a shape. -/
abbrev C (s : Shape) : Type := (⟨s, .f32⟩ : BufTy).Contents (Elt F)

/-- A neighbour index below zero is taken from the end: 16384 is added once. -/
def normIdx (a2 : (⟨S4x16384x16, .i32⟩ : BufTy).Contents (Elt F)) : (⟨S4x16384x16x1, .i32⟩ : BufTy).Contents (Elt F) :=
  broadcastInDim S4x16384x16x1 ![0, 1, 2] bcast_S4x16384x16_S4x16384x16x1_0_1_2
    (select (cmpi .slt a2 (broadcastInDim S4x16384x16 ![] bcast_S_S4x16384x16 (constantI S_ 32 0#32)))
      (addi a2 (broadcastInDim S4x16384x16 ![] bcast_S_S4x16384x16 (constantI S_ 32 16384#32))) a2)

/-- The neighbours' feature rows. -/
def gatherF (a1 : C (F := F) S4x16384x64) (a2 : (⟨S4x16384x16, .i32⟩ : BufTy).Contents (Elt F)) : C (F := F) S4x16384x16x64 :=
  Host.gather gather_S4x16384x64_S4x16384x16x1_S4x16384x16x64_3_1_0_0_1_3_1164 a1 (normIdx a2)

/-- The neighbours' positions. -/
def gatherX (a0 : C (F := F) S4x16384x3) (a2 : (⟨S4x16384x16, .i32⟩ : BufTy).Contents (Elt F)) : C (F := F) S4x16384x16x3 :=
  Host.gather gather_S4x16384x3_S4x16384x16x1_S4x16384x16x3_3_1_0_0_1_3_113 a0 (normIdx a2)

/-- The concatenated rows: relative position, own features, neighbour features. -/
def catT (a0 : C (F := F) S4x16384x3) (a1 : C (F := F) S4x16384x64) (a2 : (⟨S4x16384x16, .i32⟩ : BufTy).Contents (Elt F)) :
    C (F := F) S4x16384x16x131 :=
  concatenate S4x16384x16x131 3
    [⟨S4x16384x16x3, subf (gatherX a0 a2)
        (broadcastInDim S4x16384x16x3 ![0, 1, 2, 3] bcast_S4x16384x1x3_S4x16384x16x3_0_1_2_3
          (broadcastInDim S4x16384x1x3 ![0, 1, 3] bcast_S4x16384x3_S4x16384x1x3_0_1_3 a0))⟩,
     ⟨S4x16384x16x64, broadcastInDim S4x16384x16x64 ![0, 1, 2, 3] bcast_S4x16384x1x64_S4x16384x16x64_0_1_2_3
        (broadcastInDim S4x16384x1x64 ![0, 1, 3] bcast_S4x16384x64_S4x16384x1x64_0_1_3 a1)⟩,
     ⟨S4x16384x16x64, gatherF a1 a2⟩]
    concatenates_S4x16384x16x3_S4x16384x16x64_S4x16384x16x64_S4x16384x16x131_d3

/-- A channel vector repeated over every batch, point and neighbour. -/
def bc4 (v : C (F := F) S128) : C (F := F) S4x16384x16x128 :=
  broadcastInDim S4x16384x16x128 ![0, 1, 2, 3] bcast_S1x1x1x128_S4x16384x16x128_0_1_2_3
    (broadcastInDim S1x1x1x128 ![3] bcast_S128_S1x1x1x128_3 v)

/-- The pre-activation. -/
def preT (a0 : C (F := F) S4x16384x3) (a1 : C (F := F) S4x16384x64) (a2 : (⟨S4x16384x16, .i32⟩ : BufTy).Contents (Elt F))
    (a3 : C (F := F) S131x128) (a4 : C (F := F) S128) : C (F := F) S4x16384x16x128 :=
  addf (Host.dotGeneral dot_S4x16384x16x131_S131x128_S4x16384x16x128_3_0_012_1_n_n none (catT a0 a1 a2) a3) (bc4 a4)

/-- The per-channel sum over all batches, points and neighbours, from zero. -/
def sumT (h : C (F := F) S4x16384x16x128) : C (F := F) S128 :=
  Host.reduceAdd h (constant S_ .f32 0x00000000#32) reducesTo_S4x16384x16x128_S128_d0_1_2 h_S_

/-- The per-channel mean: the sum over the count 2^20. -/
def meanT (h : C (F := F) S4x16384x16x128) : C (F := F) S128 :=
  Host.divf (sumT h) (broadcastInDim S128 ![] bcast_S_S128 (constant S_ .f32 0x49800000#32))

/-- The count less the correction 0, as the variance divides by it. -/
def denT : C (F := F) S_ :=
  subf (constant S_ .f32 0x49800000#32) (sitofp .f32 (constantI S_ 32 0#32))

/-- The per-channel variance: the mean of the squared deviations from the mean (which it computes again, over
    [1,1,1,128]), kept when the divisor is positive and a junk value otherwise. -/
def varT (h : C (F := F) S4x16384x16x128) : C (F := F) S128 :=
  select (broadcastInDim S128 ![] bcast_S_S128 (cmpf .ogt (denT (F := F)) (constant S_ .f32 0x00000000#32)))
    (Host.divf
      (Host.reduceAdd
        (mulf
          (subf h (broadcastInDim S4x16384x16x128 ![0, 1, 2, 3] bcast_S1x1x1x128_S4x16384x16x128_0_1_2_3
            (Host.divf (broadcastInDim S1x1x1x128 ![3] bcast_S128_S1x1x1x128_3 (sumT h))
              (broadcastInDim S1x1x1x128 ![] bcast_S_S1x1x1x128 (constant S_ .f32 0x49800000#32)))))
          (subf h (broadcastInDim S4x16384x16x128 ![0, 1, 2, 3] bcast_S1x1x1x128_S4x16384x16x128_0_1_2_3
            (Host.divf (broadcastInDim S1x1x1x128 ![3] bcast_S128_S1x1x1x128_3 (sumT h))
              (broadcastInDim S1x1x1x128 ![] bcast_S_S1x1x1x128 (constant S_ .f32 0x49800000#32))))))
        (constant S_ .f32 0x00000000#32) reducesTo_S4x16384x16x128_S128_d0_1_2 h_S_)
      (broadcastInDim S128 ![] bcast_S_S128 (denT (F := F))))
    (broadcastInDim S128 ![] bcast_S_S128 (id (constant S_ .f32 0x7FC00000#32)))

/-- The normalized activation: ((h - mean) * rsqrt(var + eps)) * gamma + beta. -/
def normT (h : C (F := F) S4x16384x16x128) (a5 a6 : C (F := F) S128) : C (F := F) S4x16384x16x128 :=
  addf (mulf (mulf (subf h (bc4 (meanT h)))
      (bc4 (Host.rsqrt (addf (varT h) (broadcastInDim S128 ![] bcast_S_S128 (constant S_ .f32 0x3727C5AC#32))))))
    (bc4 a5)) (bc4 a6)

/-- Clipped at zero. -/
def reluT (y : C (F := F) S4x16384x16x128) : C (F := F) S4x16384x16x128 :=
  maximumf y (broadcastInDim S4x16384x16x128 ![] bcast_S_S4x16384x16x128 (constant S_ .f32 0x00000000#32))

/-- The result: the second product and bias, maximized over the neighbours from minus infinity. -/
def refOut (a0 : C (F := F) S4x16384x3) (a1 : C (F := F) S4x16384x64) (a2 : (⟨S4x16384x16, .i32⟩ : BufTy).Contents (Elt F))
    (a3 : C (F := F) S131x128) (a4 a5 a6 : C (F := F) S128) (a7 : C (F := F) S128x128) (a8 : C (F := F) S128) :
    C (F := F) S4x16384x128 :=
  Host.reduce FloatOps.maximumf
    (addf (Host.dotGeneral dot_S4x16384x16x128_S128x128_S4x16384x16x128_3_0_012_1_n_n none
      (reluT (normT (preT a0 a1 a2 a3 a4) a5 a6)) a7) (bc4 a8))
    (constant S_ .f32 0xFF800000#32) reducesTo_S4x16384x16x128_S4x16384x128_d2 h_S_

end Cert.ReferenceIdeal.RV

end
-- ==== Proof.RefRun.lean ====
/-
  The reference program's run: its host operations in order, the called functions' operations in their places, and
  the result buffer at the composed function of the argument arrays.
-/
import proofs.«157681_j22162031247559_1_alg».proof.Proof.RTerm
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-! The line of operations and its reading, in a namespace of its own. -/
namespace Line

/-- The program's 81 operations in order: 34 of its own up to the count's integer zero, the variance function's 19 with
    the selection function's 3 in their place, 16 more of its own, the clip's 3, and the last 6. -/
abbrev ops : List (HloOp τ sig (Elt F)) :=
  [ nullary main_c (constantI S_ 32 0#32),
    unary main_c main_v0 (broadcastInDim S4x16384x16 ![] bcast_S_S4x16384x16 : (⟨S_, .i32⟩ : BufTy).Contents (Elt F) → (⟨S4x16384x16, .i32⟩ : BufTy).Contents (Elt F)),
    binary main_arg2 main_v0 main_v1 (cmpi .slt : (⟨S4x16384x16, .i32⟩ : BufTy).Contents (Elt F) → (⟨S4x16384x16, .i32⟩ : BufTy).Contents (Elt F) → (⟨S4x16384x16, .i1⟩ : BufTy).Contents (Elt F)),
    nullary main_c_0 (constantI S_ 32 16384#32),
    unary main_c_0 main_v2 (broadcastInDim S4x16384x16 ![] bcast_S_S4x16384x16 : (⟨S_, .i32⟩ : BufTy).Contents (Elt F) → (⟨S4x16384x16, .i32⟩ : BufTy).Contents (Elt F)),
    binary main_arg2 main_v2 main_v3 (addi : (⟨S4x16384x16, .i32⟩ : BufTy).Contents (Elt F) → (⟨S4x16384x16, .i32⟩ : BufTy).Contents (Elt F) → (⟨S4x16384x16, .i32⟩ : BufTy).Contents (Elt F)),
    ternary main_v1 main_v3 main_arg2 main_v4 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v4 main_v5 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg1 main_v5 main_v6 ((fun x i => Host.gather gather_S4x16384x64_S4x16384x16x1_S4x16384x16x64_3_1_0_0_1_3_1164 x i) : (⟨S4x16384x64, .f32⟩ : BufTy).Contents (Elt F) → (⟨S4x16384x16x1, .i32⟩ : BufTy).Contents (Elt F) → (⟨S4x16384x16x64, .f32⟩ : BufTy).Contents (Elt F)),
    nullary main_c_1 (constantI S_ 32 0#32),
    unary main_c_1 main_v7 (broadcastInDim S4x16384x16 ![] bcast_S_S4x16384x16 : (⟨S_, .i32⟩ : BufTy).Contents (Elt F) → (⟨S4x16384x16, .i32⟩ : BufTy).Contents (Elt F)),
    binary main_arg2 main_v7 main_v8 (cmpi .slt : (⟨S4x16384x16, .i32⟩ : BufTy).Contents (Elt F) → (⟨S4x16384x16, .i32⟩ : BufTy).Contents (Elt F) → (⟨S4x16384x16, .i1⟩ : BufTy).Contents (Elt F)),
    nullary main_c_2 (constantI S_ 32 16384#32),
    unary main_c_2 main_v9 (broadcastInDim S4x16384x16 ![] bcast_S_S4x16384x16 : (⟨S_, .i32⟩ : BufTy).Contents (Elt F) → (⟨S4x16384x16, .i32⟩ : BufTy).Contents (Elt F)),
    binary main_arg2 main_v9 main_v10 (addi : (⟨S4x16384x16, .i32⟩ : BufTy).Contents (Elt F) → (⟨S4x16384x16, .i32⟩ : BufTy).Contents (Elt F) → (⟨S4x16384x16, .i32⟩ : BufTy).Contents (Elt F)),
    ternary main_v8 main_v10 main_arg2 main_v11 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v11 main_v12 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg0 main_v12 main_v13 ((fun x i => Host.gather gather_S4x16384x3_S4x16384x16x1_S4x16384x16x3_3_1_0_0_1_3_113 x i) : (⟨S4x16384x3, .f32⟩ : BufTy).Contents (Elt F) → (⟨S4x16384x16x1, .i32⟩ : BufTy).Contents (Elt F) → (⟨S4x16384x16x3, .f32⟩ : BufTy).Contents (Elt F)),
    unary main_arg0 main_v14 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    unary main_v14 main_v15 (broadcastInDim S4x16384x16x3 ![0, 1, 2, 3] bcast_S4x16384x1x3_S4x16384x16x3_0_1_2_3 : (⟨S4x16384x1x3, .f32⟩ : BufTy).Contents (Elt F) → (⟨S4x16384x16x3, .f32⟩ : BufTy).Contents (Elt F)),
    binary main_v13 main_v15 main_v16 (subf : (⟨S4x16384x16x3, .f32⟩ : BufTy).Contents (Elt F) → (⟨S4x16384x16x3, .f32⟩ : BufTy).Contents (Elt F) → (⟨S4x16384x16x3, .f32⟩ : BufTy).Contents (Elt F)),
    unary main_arg1 main_v17 (broadcastInDim S4x16384x1x64 ![0, 1, 3] bcast_S4x16384x64_S4x16384x1x64_0_1_3 : (⟨S4x16384x64, .f32⟩ : BufTy).Contents (Elt F) → (⟨S4x16384x1x64, .f32⟩ : BufTy).Contents (Elt F)),
    unary main_v17 main_v18 (broadcastInDim S4x16384x16x64 ![0, 1, 2, 3] bcast_S4x16384x1x64_S4x16384x16x64_0_1_2_3 : (⟨S4x16384x1x64, .f32⟩ : BufTy).Contents (Elt F) → (⟨S4x16384x16x64, .f32⟩ : BufTy).Contents (Elt F)),
    nary ![main_v16, main_v18, main_v6] main_v19 (fun u => concatenate S4x16384x16x131 3 [⟨S4x16384x16x3, u 0⟩, ⟨S4x16384x16x64, u 1⟩, ⟨S4x16384x16x64, u 2⟩] concatenates_S4x16384x16x3_S4x16384x16x64_S4x16384x16x64_S4x16384x16x131_d3),
    binary main_v19 main_arg3 main_v20 ((fun l r => Host.dotGeneral dot_S4x16384x16x131_S131x128_S4x16384x16x128_3_0_012_1_n_n none l r) : (⟨S4x16384x16x131, .f32⟩ : BufTy).Contents (Elt F) → (⟨S131x128, .f32⟩ : BufTy).Contents (Elt F) → (⟨S4x16384x16x128, .f32⟩ : BufTy).Contents (Elt F)),
    unary main_arg4 main_v21 (broadcastInDim S1x1x1x128 ![3] bcast_S128_S1x1x1x128_3 : (⟨S128, .f32⟩ : BufTy).Contents (Elt F) → (⟨S1x1x1x128, .f32⟩ : BufTy).Contents (Elt F)),
    unary main_v21 main_v22 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v20 main_v22 main_v23 (addf : (⟨S4x16384x16x128, .f32⟩ : BufTy).Contents (Elt F) → (⟨S4x16384x16x128, .f32⟩ : BufTy).Contents (Elt F) → (⟨S4x16384x16x128, .f32⟩ : BufTy).Contents (Elt F)),
    nullary main_cst (constant S_ .f32 0x00000000#32),
    binary main_v23 main_cst main_v24 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    nullary main_cst_3 (constant S_ .f32 0x49800000#32),
    unary main_cst_3 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    nullary main_call0_cst (constant S_ .f32 0x00000000#32),
    binary main_v23 main_call0_cst main_call0_v0 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    unary main_call0_v0 main_call0_v1 (broadcastInDim S1x1x1x128 ![3] bcast_S128_S1x1x1x128_3 : (⟨S128, .f32⟩ : BufTy).Contents (Elt F) → (⟨S1x1x1x128, .f32⟩ : BufTy).Contents (Elt F)),
    nullary main_call0_cst_0 (constant S_ .f32 0x49800000#32),
    unary main_call0_cst_0 main_call0_v2 (broadcastInDim S1x1x1x128 ![] bcast_S_S1x1x1x128 : (⟨S_, .f32⟩ : BufTy).Contents (Elt F) → (⟨S1x1x1x128, .f32⟩ : BufTy).Contents (Elt F)),
    binary main_call0_v1 main_call0_v2 main_call0_v3 (Host.divf : (⟨S1x1x1x128, .f32⟩ : BufTy).Contents (Elt F) → (⟨S1x1x1x128, .f32⟩ : BufTy).Contents (Elt F) → (⟨S1x1x1x128, .f32⟩ : BufTy).Contents (Elt F)),
    unary main_call0_v3 main_call0_v4 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v23 main_call0_v4 main_call0_v5 (subf : (⟨S4x16384x16x128, .f32⟩ : BufTy).Contents (Elt F) → (⟨S4x16384x16x128, .f32⟩ : BufTy).Contents (Elt F) → (⟨S4x16384x16x128, .f32⟩ : BufTy).Contents (Elt F)),
    binary main_call0_v5 main_call0_v5 main_call0_v6 (mulf : (⟨S4x16384x16x128, .f32⟩ : BufTy).Contents (Elt F) → (⟨S4x16384x16x128, .f32⟩ : BufTy).Contents (Elt F) → (⟨S4x16384x16x128, .f32⟩ : BufTy).Contents (Elt F)),
    unary main_c_4 main_call0_v7 (sitofp .f32 : (⟨S_, .i32⟩ : BufTy).Contents (Elt F) → (⟨S_, .f32⟩ : BufTy).Contents (Elt F)),
    nullary main_call0_cst_1 (constant S_ .f32 0x49800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    unary main_call0_v8 main_call0_v10 (broadcastInDim S128 ![] bcast_S_S128 : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S128 ![] bcast_S_S128 : (⟨S_, .f32⟩ : BufTy).Contents (Elt F) → (⟨S128, .f32⟩ : BufTy).Contents (Elt F)),
    ternary main_call0_v12 main_call0_v11 main_call0_call0_v1 main_v27 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    unary main_v26 main_v28 (broadcastInDim S1x1x1x128 ![3] bcast_S128_S1x1x1x128_3 : (⟨S128, .f32⟩ : BufTy).Contents (Elt F) → (⟨S1x1x1x128, .f32⟩ : BufTy).Contents (Elt F)),
    unary main_v28 main_v29 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v23 main_v29 main_v30 (subf : (⟨S4x16384x16x128, .f32⟩ : BufTy).Contents (Elt F) → (⟨S4x16384x16x128, .f32⟩ : BufTy).Contents (Elt F) → (⟨S4x16384x16x128, .f32⟩ : BufTy).Contents (Elt F)),
    nullary main_cst_5 (constant S_ .f32 0x3727C5AC#32),
    unary main_cst_5 main_v31 (broadcastInDim S128 ![] bcast_S_S128 : (⟨S_, .f32⟩ : BufTy).Contents (Elt F) → (⟨S128, .f32⟩ : BufTy).Contents (Elt F)),
    binary main_v27 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x1x1x128 ![3] bcast_S128_S1x1x1x128_3 : (⟨S128, .f32⟩ : BufTy).Contents (Elt F) → (⟨S1x1x1x128, .f32⟩ : BufTy).Contents (Elt F)),
    unary main_v34 main_v35 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v30 main_v35 main_v36 (mulf : (⟨S4x16384x16x128, .f32⟩ : BufTy).Contents (Elt F) → (⟨S4x16384x16x128, .f32⟩ : BufTy).Contents (Elt F) → (⟨S4x16384x16x128, .f32⟩ : BufTy).Contents (Elt F)),
    unary main_arg5 main_v37 (broadcastInDim S1x1x1x128 ![3] bcast_S128_S1x1x1x128_3 : (⟨S128, .f32⟩ : BufTy).Contents (Elt F) → (⟨S1x1x1x128, .f32⟩ : BufTy).Contents (Elt F)),
    unary main_v37 main_v38 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v36 main_v38 main_v39 (mulf : (⟨S4x16384x16x128, .f32⟩ : BufTy).Contents (Elt F) → (⟨S4x16384x16x128, .f32⟩ : BufTy).Contents (Elt F) → (⟨S4x16384x16x128, .f32⟩ : BufTy).Contents (Elt F)),
    unary main_arg6 main_v40 (broadcastInDim S1x1x1x128 ![3] bcast_S128_S1x1x1x128_3 : (⟨S128, .f32⟩ : BufTy).Contents (Elt F) → (⟨S1x1x1x128, .f32⟩ : BufTy).Contents (Elt F)),
    unary main_v40 main_v41 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v39 main_v41 main_v42 (addf : (⟨S4x16384x16x128, .f32⟩ : BufTy).Contents (Elt F) → (⟨S4x16384x16x128, .f32⟩ : BufTy).Contents (Elt F) → (⟨S4x16384x16x128, .f32⟩ : BufTy).Contents (Elt F)),
    nullary main_call1_cst (constant S_ .f32 0x00000000#32),
    unary main_call1_cst main_call1_v0 (broadcastInDim S4x16384x16x128 ![] bcast_S_S4x16384x16x128 : (⟨S_, .f32⟩ : BufTy).Contents (Elt F) → (⟨S4x16384x16x128, .f32⟩ : BufTy).Contents (Elt F)),
    binary main_v42 main_call1_v0 main_v43 (maximumf : (⟨S4x16384x16x128, .f32⟩ : BufTy).Contents (Elt F) → (⟨S4x16384x16x128, .f32⟩ : BufTy).Contents (Elt F) → (⟨S4x16384x16x128, .f32⟩ : BufTy).Contents (Elt F)),
    binary main_v43 main_arg7 main_v44 ((fun l r => Host.dotGeneral dot_S4x16384x16x128_S128x128_S4x16384x16x128_3_0_012_1_n_n none l r) : (⟨S4x16384x16x128, .f32⟩ : BufTy).Contents (Elt F) → (⟨S128x128, .f32⟩ : BufTy).Contents (Elt F) → (⟨S4x16384x16x128, .f32⟩ : BufTy).Contents (Elt F)),
    unary main_arg8 main_v45 (broadcastInDim S1x1x1x128 ![3] bcast_S128_S1x1x1x128_3 : (⟨S128, .f32⟩ : BufTy).Contents (Elt F) → (⟨S1x1x1x128, .f32⟩ : BufTy).Contents (Elt F)),
    unary main_v45 main_v46 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v44 main_v46 main_v47 (addf : (⟨S4x16384x16x128, .f32⟩ : BufTy).Contents (Elt F) → (⟨S4x16384x16x128, .f32⟩ : BufTy).Contents (Elt F) → (⟨S4x16384x16x128, .f32⟩ : BufTy).Contents (Elt F)),
    nullary main_cst_6 (constant S_ .f32 0xFF800000#32),
    binary main_v47 main_cst_6 main_v48 ((fun x v => Host.reduce FloatOps.maximumf x v reducesTo_S4x16384x16x128_S4x16384x128_d2 h_S_) : (⟨S4x16384x16x128, .f32⟩ : BufTy).Contents (Elt F) → (⟨S_, .f32⟩ : BufTy).Contents (Elt F) → (⟨S4x16384x128, .f32⟩ : BufTy).Contents (Elt F)) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., nary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub ..⟩

/-! The same line in four parts, each read on its own over any contents. -/

/-- The first 23 operations: the index normalization (once per gather), the two gathers, the relative position and the
    own features repeated over the neighbours: they end at the concatenate's three operands. -/
abbrev opsA1 : List (HloOp τ sig (Elt F)) :=
  [ nullary main_c (constantI S_ 32 0#32),
    unary main_c main_v0 (broadcastInDim S4x16384x16 ![] bcast_S_S4x16384x16 : (⟨S_, .i32⟩ : BufTy).Contents (Elt F) → (⟨S4x16384x16, .i32⟩ : BufTy).Contents (Elt F)),
    binary main_arg2 main_v0 main_v1 (cmpi .slt : (⟨S4x16384x16, .i32⟩ : BufTy).Contents (Elt F) → (⟨S4x16384x16, .i32⟩ : BufTy).Contents (Elt F) → (⟨S4x16384x16, .i1⟩ : BufTy).Contents (Elt F)),
    nullary main_c_0 (constantI S_ 32 16384#32),
    unary main_c_0 main_v2 (broadcastInDim S4x16384x16 ![] bcast_S_S4x16384x16 : (⟨S_, .i32⟩ : BufTy).Contents (Elt F) → (⟨S4x16384x16, .i32⟩ : BufTy).Contents (Elt F)),
    binary main_arg2 main_v2 main_v3 (addi : (⟨S4x16384x16, .i32⟩ : BufTy).Contents (Elt F) → (⟨S4x16384x16, .i32⟩ : BufTy).Contents (Elt F) → (⟨S4x16384x16, .i32⟩ : BufTy).Contents (Elt F)),
    ternary main_v1 main_v3 main_arg2 main_v4 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v4 main_v5 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg1 main_v5 main_v6 ((fun x i => Host.gather gather_S4x16384x64_S4x16384x16x1_S4x16384x16x64_3_1_0_0_1_3_1164 x i) : (⟨S4x16384x64, .f32⟩ : BufTy).Contents (Elt F) → (⟨S4x16384x16x1, .i32⟩ : BufTy).Contents (Elt F) → (⟨S4x16384x16x64, .f32⟩ : BufTy).Contents (Elt F)),
    nullary main_c_1 (constantI S_ 32 0#32),
    unary main_c_1 main_v7 (broadcastInDim S4x16384x16 ![] bcast_S_S4x16384x16 : (⟨S_, .i32⟩ : BufTy).Contents (Elt F) → (⟨S4x16384x16, .i32⟩ : BufTy).Contents (Elt F)),
    binary main_arg2 main_v7 main_v8 (cmpi .slt : (⟨S4x16384x16, .i32⟩ : BufTy).Contents (Elt F) → (⟨S4x16384x16, .i32⟩ : BufTy).Contents (Elt F) → (⟨S4x16384x16, .i1⟩ : BufTy).Contents (Elt F)),
    nullary main_c_2 (constantI S_ 32 16384#32),
    unary main_c_2 main_v9 (broadcastInDim S4x16384x16 ![] bcast_S_S4x16384x16 : (⟨S_, .i32⟩ : BufTy).Contents (Elt F) → (⟨S4x16384x16, .i32⟩ : BufTy).Contents (Elt F)),
    binary main_arg2 main_v9 main_v10 (addi : (⟨S4x16384x16, .i32⟩ : BufTy).Contents (Elt F) → (⟨S4x16384x16, .i32⟩ : BufTy).Contents (Elt F) → (⟨S4x16384x16, .i32⟩ : BufTy).Contents (Elt F)),
    ternary main_v8 main_v10 main_arg2 main_v11 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v11 main_v12 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg0 main_v12 main_v13 ((fun x i => Host.gather gather_S4x16384x3_S4x16384x16x1_S4x16384x16x3_3_1_0_0_1_3_113 x i) : (⟨S4x16384x3, .f32⟩ : BufTy).Contents (Elt F) → (⟨S4x16384x16x1, .i32⟩ : BufTy).Contents (Elt F) → (⟨S4x16384x16x3, .f32⟩ : BufTy).Contents (Elt F)),
    unary main_arg0 main_v14 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    unary main_v14 main_v15 (broadcastInDim S4x16384x16x3 ![0, 1, 2, 3] bcast_S4x16384x1x3_S4x16384x16x3_0_1_2_3 : (⟨S4x16384x1x3, .f32⟩ : BufTy).Contents (Elt F) → (⟨S4x16384x16x3, .f32⟩ : BufTy).Contents (Elt F)),
    binary main_v13 main_v15 main_v16 (subf : (⟨S4x16384x16x3, .f32⟩ : BufTy).Contents (Elt F) → (⟨S4x16384x16x3, .f32⟩ : BufTy).Contents (Elt F) → (⟨S4x16384x16x3, .f32⟩ : BufTy).Contents (Elt F)),
    unary main_arg1 main_v17 (broadcastInDim S4x16384x1x64 ![0, 1, 3] bcast_S4x16384x64_S4x16384x1x64_0_1_3 : (⟨S4x16384x64, .f32⟩ : BufTy).Contents (Elt F) → (⟨S4x16384x1x64, .f32⟩ : BufTy).Contents (Elt F)),
    unary main_v17 main_v18 (broadcastInDim S4x16384x16x64 ![0, 1, 2, 3] bcast_S4x16384x1x64_S4x16384x16x64_0_1_2_3 : (⟨S4x16384x1x64, .f32⟩ : BufTy).Contents (Elt F) → (⟨S4x16384x16x64, .f32⟩ : BufTy).Contents (Elt F)) ]

/-- The next 5: the concatenated row, the first product and its bias: they end at the pre-activation. -/
abbrev opsA2 : List (HloOp τ sig (Elt F)) :=
  [ nary ![main_v16, main_v18, main_v6] main_v19 (fun u => concatenate S4x16384x16x131 3 [⟨S4x16384x16x3, u 0⟩, ⟨S4x16384x16x64, u 1⟩, ⟨S4x16384x16x64, u 2⟩] concatenates_S4x16384x16x3_S4x16384x16x64_S4x16384x16x64_S4x16384x16x131_d3),
    binary main_v19 main_arg3 main_v20 ((fun l r => Host.dotGeneral dot_S4x16384x16x131_S131x128_S4x16384x16x128_3_0_012_1_n_n none l r) : (⟨S4x16384x16x131, .f32⟩ : BufTy).Contents (Elt F) → (⟨S131x128, .f32⟩ : BufTy).Contents (Elt F) → (⟨S4x16384x16x128, .f32⟩ : BufTy).Contents (Elt F)),
    unary main_arg4 main_v21 (broadcastInDim S1x1x1x128 ![3] bcast_S128_S1x1x1x128_3 : (⟨S128, .f32⟩ : BufTy).Contents (Elt F) → (⟨S1x1x1x128, .f32⟩ : BufTy).Contents (Elt F)),
    unary main_v21 main_v22 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v20 main_v22 main_v23 (addf : (⟨S4x16384x16x128, .f32⟩ : BufTy).Contents (Elt F) → (⟨S4x16384x16x128, .f32⟩ : BufTy).Contents (Elt F) → (⟨S4x16384x16x128, .f32⟩ : BufTy).Contents (Elt F)) ]

/-- The next 28: the per-channel sum and mean, the count's integer zero, and the variance function's operations with
    the selection function's in their place: they end at the mean and the variance. -/
abbrev opsB : List (HloOp τ sig (Elt F)) :=
  [ nullary main_cst (constant S_ .f32 0x00000000#32),
    binary main_v23 main_cst main_v24 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    nullary main_cst_3 (constant S_ .f32 0x49800000#32),
    unary main_cst_3 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    nullary main_call0_cst (constant S_ .f32 0x00000000#32),
    binary main_v23 main_call0_cst main_call0_v0 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    unary main_call0_v0 main_call0_v1 (broadcastInDim S1x1x1x128 ![3] bcast_S128_S1x1x1x128_3 : (⟨S128, .f32⟩ : BufTy).Contents (Elt F) → (⟨S1x1x1x128, .f32⟩ : BufTy).Contents (Elt F)),
    nullary main_call0_cst_0 (constant S_ .f32 0x49800000#32),
    unary main_call0_cst_0 main_call0_v2 (broadcastInDim S1x1x1x128 ![] bcast_S_S1x1x1x128 : (⟨S_, .f32⟩ : BufTy).Contents (Elt F) → (⟨S1x1x1x128, .f32⟩ : BufTy).Contents (Elt F)),
    binary main_call0_v1 main_call0_v2 main_call0_v3 (Host.divf : (⟨S1x1x1x128, .f32⟩ : BufTy).Contents (Elt F) → (⟨S1x1x1x128, .f32⟩ : BufTy).Contents (Elt F) → (⟨S1x1x1x128, .f32⟩ : BufTy).Contents (Elt F)),
    unary main_call0_v3 main_call0_v4 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v23 main_call0_v4 main_call0_v5 (subf : (⟨S4x16384x16x128, .f32⟩ : BufTy).Contents (Elt F) → (⟨S4x16384x16x128, .f32⟩ : BufTy).Contents (Elt F) → (⟨S4x16384x16x128, .f32⟩ : BufTy).Contents (Elt F)),
    binary main_call0_v5 main_call0_v5 main_call0_v6 (mulf : (⟨S4x16384x16x128, .f32⟩ : BufTy).Contents (Elt F) → (⟨S4x16384x16x128, .f32⟩ : BufTy).Contents (Elt F) → (⟨S4x16384x16x128, .f32⟩ : BufTy).Contents (Elt F)),
    unary main_c_4 main_call0_v7 (sitofp .f32 : (⟨S_, .i32⟩ : BufTy).Contents (Elt F) → (⟨S_, .f32⟩ : BufTy).Contents (Elt F)),
    nullary main_call0_cst_1 (constant S_ .f32 0x49800000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S4x16384x16x128_S128_d0_1_2 h_S_) : (⟨S4x16384x16x128, .f32⟩ : BufTy).Contents (Elt F) → (⟨S_, .f32⟩ : BufTy).Contents (Elt F) → (⟨S128, .f32⟩ : BufTy).Contents (Elt F)),
    unary main_call0_v8 main_call0_v10 (broadcastInDim S128 ![] bcast_S_S128 : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S128 ![] bcast_S_S128 : (⟨S_, .f32⟩ : BufTy).Contents (Elt F) → (⟨S128, .f32⟩ : BufTy).Contents (Elt F)),
    ternary main_call0_v12 main_call0_v11 main_call0_call0_v1 main_v27 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The last 25: the normalization, the clip at zero, the second product and its bias, the maximum over the
    neighbours. -/
abbrev opsC : List (HloOp τ sig (Elt F)) :=
  [ unary main_v26 main_v28 (broadcastInDim S1x1x1x128 ![3] bcast_S128_S1x1x1x128_3 : (⟨S128, .f32⟩ : BufTy).Contents (Elt F) → (⟨S1x1x1x128, .f32⟩ : BufTy).Contents (Elt F)),
    unary main_v28 main_v29 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v23 main_v29 main_v30 (subf : (⟨S4x16384x16x128, .f32⟩ : BufTy).Contents (Elt F) → (⟨S4x16384x16x128, .f32⟩ : BufTy).Contents (Elt F) → (⟨S4x16384x16x128, .f32⟩ : BufTy).Contents (Elt F)),
    nullary main_cst_5 (constant S_ .f32 0x3727C5AC#32),
    unary main_cst_5 main_v31 (broadcastInDim S128 ![] bcast_S_S128 : (⟨S_, .f32⟩ : BufTy).Contents (Elt F) → (⟨S128, .f32⟩ : BufTy).Contents (Elt F)),
    binary main_v27 main_v31 main_v32 (addf : (⟨S128, .f32⟩ : BufTy).Contents (Elt F) → (⟨S128, .f32⟩ : BufTy).Contents (Elt F) → (⟨S128, .f32⟩ : BufTy).Contents (Elt F)),
    unary main_v32 main_v33 (Host.rsqrt : (⟨S128, .f32⟩ : BufTy).Contents (Elt F) → (⟨S128, .f32⟩ : BufTy).Contents (Elt F)),
    unary main_v33 main_v34 (broadcastInDim S1x1x1x128 ![3] bcast_S128_S1x1x1x128_3 : (⟨S128, .f32⟩ : BufTy).Contents (Elt F) → (⟨S1x1x1x128, .f32⟩ : BufTy).Contents (Elt F)),
    unary main_v34 main_v35 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v30 main_v35 main_v36 (mulf : (⟨S4x16384x16x128, .f32⟩ : BufTy).Contents (Elt F) → (⟨S4x16384x16x128, .f32⟩ : BufTy).Contents (Elt F) → (⟨S4x16384x16x128, .f32⟩ : BufTy).Contents (Elt F)),
    unary main_arg5 main_v37 (broadcastInDim S1x1x1x128 ![3] bcast_S128_S1x1x1x128_3 : (⟨S128, .f32⟩ : BufTy).Contents (Elt F) → (⟨S1x1x1x128, .f32⟩ : BufTy).Contents (Elt F)),
    unary main_v37 main_v38 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v36 main_v38 main_v39 (mulf : (⟨S4x16384x16x128, .f32⟩ : BufTy).Contents (Elt F) → (⟨S4x16384x16x128, .f32⟩ : BufTy).Contents (Elt F) → (⟨S4x16384x16x128, .f32⟩ : BufTy).Contents (Elt F)),
    unary main_arg6 main_v40 (broadcastInDim S1x1x1x128 ![3] bcast_S128_S1x1x1x128_3 : (⟨S128, .f32⟩ : BufTy).Contents (Elt F) → (⟨S1x1x1x128, .f32⟩ : BufTy).Contents (Elt F)),
    unary main_v40 main_v41 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v39 main_v41 main_v42 (addf : (⟨S4x16384x16x128, .f32⟩ : BufTy).Contents (Elt F) → (⟨S4x16384x16x128, .f32⟩ : BufTy).Contents (Elt F) → (⟨S4x16384x16x128, .f32⟩ : BufTy).Contents (Elt F)),
    nullary main_call1_cst (constant S_ .f32 0x00000000#32),
    unary main_call1_cst main_call1_v0 (broadcastInDim S4x16384x16x128 ![] bcast_S_S4x16384x16x128 : (⟨S_, .f32⟩ : BufTy).Contents (Elt F) → (⟨S4x16384x16x128, .f32⟩ : BufTy).Contents (Elt F)),
    binary main_v42 main_call1_v0 main_v43 (maximumf : (⟨S4x16384x16x128, .f32⟩ : BufTy).Contents (Elt F) → (⟨S4x16384x16x128, .f32⟩ : BufTy).Contents (Elt F) → (⟨S4x16384x16x128, .f32⟩ : BufTy).Contents (Elt F)),
    binary main_v43 main_arg7 main_v44 ((fun l r => Host.dotGeneral dot_S4x16384x16x128_S128x128_S4x16384x16x128_3_0_012_1_n_n none l r) : (⟨S4x16384x16x128, .f32⟩ : BufTy).Contents (Elt F) → (⟨S128x128, .f32⟩ : BufTy).Contents (Elt F) → (⟨S4x16384x16x128, .f32⟩ : BufTy).Contents (Elt F)),
    unary main_arg8 main_v45 (broadcastInDim S1x1x1x128 ![3] bcast_S128_S1x1x1x128_3 : (⟨S128, .f32⟩ : BufTy).Contents (Elt F) → (⟨S1x1x1x128, .f32⟩ : BufTy).Contents (Elt F)),
    unary main_v45 main_v46 (broadcastInDim S4x16384x16x128 ![0, 1, 2, 3] bcast_S1x1x1x128_S4x16384x16x128_0_1_2_3 : (⟨S1x1x1x128, .f32⟩ : BufTy).Contents (Elt F) → (⟨S4x16384x16x128, .f32⟩ : BufTy).Contents (Elt F)),
    binary main_v44 main_v46 main_v47 (addf : (⟨S4x16384x16x128, .f32⟩ : BufTy).Contents (Elt F) → (⟨S4x16384x16x128, .f32⟩ : BufTy).Contents (Elt F) → (⟨S4x16384x16x128, .f32⟩ : BufTy).Contents (Elt F)),
    nullary main_cst_6 (constant S_ .f32 0xFF800000#32),
    binary main_v47 main_cst_6 main_v48 ((fun x v => Host.reduce FloatOps.maximumf x v reducesTo_S4x16384x16x128_S4x16384x128_d2 h_S_) : (⟨S4x16384x16x128, .f32⟩ : BufTy).Contents (Elt F) → (⟨S_, .f32⟩ : BufTy).Contents (Elt F) → (⟨S4x16384x128, .f32⟩ : BufTy).Contents (Elt F)) ]

/-- Two lines of operations run one after the other leave what their concatenation leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line is the four parts in order. -/
theorem after_split (V : Valuation τ sig (Elt F)) :
    after ops V = after opsC (after opsB (after opsA2 (after opsA1 V))) := by
  rw [← after_append, ← after_append, ← after_append]
  rfl

/-- The concatenate's result buffer holds the concatenation of its three operands' contents, each read at its own
    buffer. -/
theorem cat_result (G : Valuation τ sig (Elt F)) :
    (nary ![main_v16, main_v18, main_v6] main_v19 (fun u => concatenate S4x16384x16x131 3 [⟨S4x16384x16x3, u 0⟩, ⟨S4x16384x16x64, u 1⟩, ⟨S4x16384x16x64, u 2⟩] concatenates_S4x16384x16x3_S4x16384x16x64_S4x16384x16x64_S4x16384x16x131_d3) : HloOp τ sig (Elt F)).result G (no_index (main_v19 : DevRef τ sig))
      = concatenate S4x16384x16x131 3 [⟨S4x16384x16x3, G (main_v16 : DevRef τ sig)⟩, ⟨S4x16384x16x64, G (main_v18 : DevRef τ sig)⟩, ⟨S4x16384x16x64, G (main_v6 : DevRef τ sig)⟩] concatenates_S4x16384x16x3_S4x16384x16x64_S4x16384x16x64_S4x16384x16x131_d3 := by
  rw [nary_result]
  rfl

/-- Reads one buffer after a literal line of operations, in one pass: each operation's result at its own buffer is its
    function of its operands' contents, at any other buffer what was there. -/
local macro "read_after" : tactic =>
  `(tactic| (simp (disch := decide) only [after_cons, after_nil, cat_result,
      nullary_result', unary_result', binary_result', ternary_result',
      nullary_result_ne', unary_result_ne', binary_result_ne', ternary_result_ne', nary_result_ne']))

/-! ### The first part: the concatenate's operands -/

/-- The relative position: the neighbours' positions less the point's own, repeated over the neighbours. -/
theorem A1_v16 (V : Valuation τ sig (Elt F)) :
    after opsA1 V (main_v16 : DevRef τ sig)
      = subf (gatherX (V (main_arg0 : DevRef τ sig)) (V (main_arg2 : DevRef τ sig)))
          (broadcastInDim S4x16384x16x3 ![0, 1, 2, 3] bcast_S4x16384x1x3_S4x16384x16x3_0_1_2_3
            (broadcastInDim S4x16384x1x3 ![0, 1, 3] bcast_S4x16384x3_S4x16384x1x3_0_1_3 (V (main_arg0 : DevRef τ sig)))) := by
  read_after
  unfold gatherX normIdx
  rfl

/-- The point's own features repeated over the neighbours. -/
theorem A1_v18 (V : Valuation τ sig (Elt F)) :
    after opsA1 V (main_v18 : DevRef τ sig)
      = broadcastInDim S4x16384x16x64 ![0, 1, 2, 3] bcast_S4x16384x1x64_S4x16384x16x64_0_1_2_3
          (broadcastInDim S4x16384x1x64 ![0, 1, 3] bcast_S4x16384x64_S4x16384x1x64_0_1_3 (V (main_arg1 : DevRef τ sig))) := by
  read_after

/-- The neighbours' features. -/
theorem A1_v6 (V : Valuation τ sig (Elt F)) :
    after opsA1 V (main_v6 : DevRef τ sig) = gatherF (V (main_arg1 : DevRef τ sig)) (V (main_arg2 : DevRef τ sig)) := by
  read_after
  unfold gatherF normIdx
  rfl

theorem A1_arg3 (V : Valuation τ sig (Elt F)) : after opsA1 V (main_arg3 : DevRef τ sig) = V (main_arg3 : DevRef τ sig) := by read_after
theorem A1_arg4 (V : Valuation τ sig (Elt F)) : after opsA1 V (main_arg4 : DevRef τ sig) = V (main_arg4 : DevRef τ sig) := by read_after
theorem A1_arg5 (V : Valuation τ sig (Elt F)) : after opsA1 V (main_arg5 : DevRef τ sig) = V (main_arg5 : DevRef τ sig) := by read_after
theorem A1_arg6 (V : Valuation τ sig (Elt F)) : after opsA1 V (main_arg6 : DevRef τ sig) = V (main_arg6 : DevRef τ sig) := by read_after
theorem A1_arg7 (V : Valuation τ sig (Elt F)) : after opsA1 V (main_arg7 : DevRef τ sig) = V (main_arg7 : DevRef τ sig) := by read_after
theorem A1_arg8 (V : Valuation τ sig (Elt F)) : after opsA1 V (main_arg8 : DevRef τ sig) = V (main_arg8 : DevRef τ sig) := by read_after

/-! ### The second part: the pre-activation -/

theorem A2_v23 (W : Valuation τ sig (Elt F)) :
    after opsA2 W (main_v23 : DevRef τ sig)
      = addf (Host.dotGeneral dot_S4x16384x16x131_S131x128_S4x16384x16x128_3_0_012_1_n_n none
          (concatenate S4x16384x16x131 3 [⟨S4x16384x16x3, W (main_v16 : DevRef τ sig)⟩, ⟨S4x16384x16x64, W (main_v18 : DevRef τ sig)⟩, ⟨S4x16384x16x64, W (main_v6 : DevRef τ sig)⟩] concatenates_S4x16384x16x3_S4x16384x16x64_S4x16384x16x64_S4x16384x16x131_d3)
          (W (main_arg3 : DevRef τ sig))) (bc4 (W (main_arg4 : DevRef τ sig))) := by
  read_after
  unfold bc4
  rfl

theorem A2_arg5 (W : Valuation τ sig (Elt F)) : after opsA2 W (main_arg5 : DevRef τ sig) = W (main_arg5 : DevRef τ sig) := by read_after
theorem A2_arg6 (W : Valuation τ sig (Elt F)) : after opsA2 W (main_arg6 : DevRef τ sig) = W (main_arg6 : DevRef τ sig) := by read_after
theorem A2_arg7 (W : Valuation τ sig (Elt F)) : after opsA2 W (main_arg7 : DevRef τ sig) = W (main_arg7 : DevRef τ sig) := by read_after
theorem A2_arg8 (W : Valuation τ sig (Elt F)) : after opsA2 W (main_arg8 : DevRef τ sig) = W (main_arg8 : DevRef τ sig) := by read_after

/-! ### The third part: the mean and the variance -/

/-- After the next 28 the mean's buffer holds `meanT` of the pre-activation. -/
theorem B_v26 (W : Valuation τ sig (Elt F)) :
    after opsB W (main_v26 : DevRef τ sig) = meanT (W (main_v23 : DevRef τ sig)) := by
  read_after
  unfold meanT sumT
  rfl

/-- … and the variance function's result buffer holds `varT` of the pre-activation. -/
theorem B_v27 (W : Valuation τ sig (Elt F)) :
    after opsB W (main_v27 : DevRef τ sig) = varT (W (main_v23 : DevRef τ sig)) := by
  read_after
  unfold varT denT sumT
  rfl

theorem B_v23 (W : Valuation τ sig (Elt F)) : after opsB W (main_v23 : DevRef τ sig) = W (main_v23 : DevRef τ sig) := by read_after
theorem B_arg5 (W : Valuation τ sig (Elt F)) : after opsB W (main_arg5 : DevRef τ sig) = W (main_arg5 : DevRef τ sig) := by read_after
theorem B_arg6 (W : Valuation τ sig (Elt F)) : after opsB W (main_arg6 : DevRef τ sig) = W (main_arg6 : DevRef τ sig) := by read_after
theorem B_arg7 (W : Valuation τ sig (Elt F)) : after opsB W (main_arg7 : DevRef τ sig) = W (main_arg7 : DevRef τ sig) := by read_after
theorem B_arg8 (W : Valuation τ sig (Elt F)) : after opsB W (main_arg8 : DevRef τ sig) = W (main_arg8 : DevRef τ sig) := by read_after

/-! ### The fourth part: the result -/

/-- After the last 25 the result buffer holds the maximum over the neighbours of the second product (and bias) of the
    clipped normalization of what the pre-activation's, the mean's and the variance's buffers held. -/
theorem C_v48 (X : Valuation τ sig (Elt F)) :
    after opsC X (main_v48 : DevRef τ sig)
      = Host.reduce FloatOps.maximumf
          (addf (Host.dotGeneral dot_S4x16384x16x128_S128x128_S4x16384x16x128_3_0_012_1_n_n none
            (reluT (addf (mulf (mulf (subf (X (main_v23 : DevRef τ sig)) (bc4 (X (main_v26 : DevRef τ sig))))
                (bc4 (Host.rsqrt (addf (X (main_v27 : DevRef τ sig)) (broadcastInDim S128 ![] bcast_S_S128 (constant S_ .f32 0x3727C5AC#32))))))
              (bc4 (X (main_arg5 : DevRef τ sig)))) (bc4 (X (main_arg6 : DevRef τ sig))))) (X (main_arg7 : DevRef τ sig))) (bc4 (X (main_arg8 : DevRef τ sig))))
          (constant S_ .f32 0xFF800000#32) reducesTo_S4x16384x16x128_S4x16384x128_d2 h_S_ := by
  read_after
  unfold reluT bc4
  rfl

/-! ### The whole line -/

/-- After all 81 operations the result buffer holds `refOut` of the argument arrays: the last part's reading over the
    third part's mean and variance of the pre-activation, itself the second part's reading over the first part's three
    operands; the scale, shift, second matrix and bias untouched on the way. -/
theorem out_eq (V : Valuation τ sig (Elt F)) :
    after ops V (main_v48 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_split, C_v48, B_v23, B_v26, B_v27, B_arg5, B_arg6, B_arg7, B_arg8, A2_v23, A2_arg5, A2_arg6, A2_arg7, A2_arg8,
    A1_v16, A1_v18, A1_v6, A1_arg3, A1_arg4, A1_arg5, A1_arg6, A1_arg7, A1_arg8]
  unfold refOut normT preT catT
  rfl

/-- The buffers the line writes, one per operation, in order: the 81 values of the program and of the called
    functions; no argument is among them. -/
abbrev written : List (Ref sig .tc) :=
  [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_v20, main_v21, main_v22, main_v23, main_cst, main_v24, main_cst_3, main_v25, main_v26, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v27, main_v28, main_v29, main_v30, main_cst_5, main_v31, main_v32, main_v33, main_v34, main_v35, main_v36, main_v37, main_v38, main_v39, main_v40, main_v41, main_v42, main_call1_cst, main_call1_v0, main_v43, main_v44, main_v45, main_v46, main_v47, main_cst_6, main_v48]

/-- A buffer of that list, alone, is within the list's buffers. -/
theorem writes_sub {y : Ref sig .tc} (h : y ∈ written) :
    ({(y : DevRef τ sig)} : Finset (DevRef τ sig)) ⊆ (written.map (Proc.devRef (τ := τ) .tc)).toFinset :=
  Finset.singleton_subset_iff.mpr (List.mem_toFinset.mpr (List.mem_map_of_mem h))

/-- Each operation writes its result buffer only. -/
theorem ops_writes : (ops : List (HloOp τ sig (Elt F))).Forall fun op =>
    op.writes ⊆ (written.map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩

/-! An argument's buffer is written by no operation, so it holds at the end what it held at the start. -/
theorem arg0_eq (V : Valuation τ sig (Elt F)) : after ops V (main_arg0 : DevRef τ sig) = V (main_arg0 : DevRef τ sig) :=
  after_of_writes_sub ops V ops_writes (by decide)
theorem arg1_eq (V : Valuation τ sig (Elt F)) : after ops V (main_arg1 : DevRef τ sig) = V (main_arg1 : DevRef τ sig) :=
  after_of_writes_sub ops V ops_writes (by decide)
theorem arg2_eq (V : Valuation τ sig (Elt F)) : after ops V (main_arg2 : DevRef τ sig) = V (main_arg2 : DevRef τ sig) :=
  after_of_writes_sub ops V ops_writes (by decide)
theorem arg3_eq (V : Valuation τ sig (Elt F)) : after ops V (main_arg3 : DevRef τ sig) = V (main_arg3 : DevRef τ sig) :=
  after_of_writes_sub ops V ops_writes (by decide)
theorem arg4_eq (V : Valuation τ sig (Elt F)) : after ops V (main_arg4 : DevRef τ sig) = V (main_arg4 : DevRef τ sig) :=
  after_of_writes_sub ops V ops_writes (by decide)
theorem arg5_eq (V : Valuation τ sig (Elt F)) : after ops V (main_arg5 : DevRef τ sig) = V (main_arg5 : DevRef τ sig) :=
  after_of_writes_sub ops V ops_writes (by decide)
theorem arg6_eq (V : Valuation τ sig (Elt F)) : after ops V (main_arg6 : DevRef τ sig) = V (main_arg6 : DevRef τ sig) :=
  after_of_writes_sub ops V ops_writes (by decide)
theorem arg7_eq (V : Valuation τ sig (Elt F)) : after ops V (main_arg7 : DevRef τ sig) = V (main_arg7 : DevRef τ sig) :=
  after_of_writes_sub ops V ops_writes (by decide)
theorem arg8_eq (V : Valuation τ sig (Elt F)) : after ops V (main_arg8 : DevRef τ sig) = V (main_arg8 : DevRef τ sig) :=
  after_of_writes_sub ops V ops_writes (by decide)

end Line

open Line

/-- Every weakly fair execution of the reference terminates without a fault with the result buffer at `refOut` of the
    argument arrays' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RV

end
-- ==== Proof.Consts.lean ====
/-
  The four float patterns the programs spell, as the extended reals they denote: the count 2^20, a positive offset,
  zero, and minus infinity.
-/
import proofs.«157681_j22162031247559_1_alg».proof.Proof.Spec

noncomputable section

namespace Cert.PN

open Idealize.ShloMosaic

/-- 0x49800000 is 2^20 = 1048576. -/
theorem Nlit_eq : Nlit = ((1048576 : ℝ) : EReal) := by
  simp [Nlit, Ideal.ofBits, Ideal.ieee, -EReal.coe_mul]; norm_num

/-- 0x00000000 is 0. -/
theorem zeroLit_eq : zeroLit = 0 := by
  simp [zeroLit, Ideal.ofBits, Ideal.ieee]

/-- 0xFF800000 is minus infinity. -/
theorem ninfLit_eq : ninfLit = ⊥ := by
  simp [ninfLit, Ideal.ofBits, Ideal.ieee]

/-- 0x3727C5AC is 10995116 * 2^-40, a positive real. -/
theorem epsLit_pos : ∃ e : ℝ, 0 < e ∧ epsLit = (e : EReal) := by
  refine ⟨(10995116 : ℝ) * (2 : ℝ) ^ (-40 : ℤ), by positivity, ?_⟩
  simp [epsLit, Ideal.ofBits, Ideal.ieee, -EReal.coe_mul]

end Cert.PN

end
-- ==== Proof.RefValue.lean ====
/-
  The reference's result read at an entry of the extended reals: the tail of the normalized pre-activation, the
  pre-activation as one product over the 131 entries of the concatenated row.
-/
import proofs.«157681_j22162031247559_1_alg».proof.Proof.RTerm
import proofs.«157681_j22162031247559_1_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RV

open Cert.ReferenceIdeal Cert.ReferenceIdeal.Gen Idealize.ShloMosaic Idealize.ShloMosaic.ValueIdx
open scoped BigOperators

/-! ### Broadcasts and the concatenated row -/

/-- A channel vector repeated over every batch, point and neighbour reads the vector's entry. -/
private theorem bc4_apply (v : C (F := Ideal) S128) (b : Fin 4) (n : Fin 16384) (k : Fin 16) (j : Fin 128) :
    bc4 (F := Ideal) v (ix4 b n k j) = v (ix1 j) := by
  unfold bc4
  refine (broadcastInDim_apply _ _ _ (ix4 b n k j) (ix4 (0 : Fin 1) (0 : Fin 1) (0 : Fin 1) j) ?_).trans ?_
  · intro a; match a with
    | ⟨0, _⟩ => rfl
    | ⟨1, _⟩ => rfl
    | ⟨2, _⟩ => rfl
    | ⟨3, _⟩ => rfl
  · refine broadcastInDim_apply _ _ _ _ (ix1 j) ?_
    intro a; match a with
    | ⟨0, _⟩ => rfl

/-- The point's own row repeated over the neighbours, three entries wide. -/
private theorem own3_apply (a0 : C (F := Ideal) S4x16384x3) (b : Fin 4) (n : Fin 16384) (k : Fin 16) (i : Fin 3) :
    broadcastInDim S4x16384x16x3 ![0, 1, 2, 3] bcast_S4x16384x1x3_S4x16384x16x3_0_1_2_3
          (broadcastInDim S4x16384x1x3 ![0, 1, 3] bcast_S4x16384x3_S4x16384x1x3_0_1_3 a0) (ix4 b n k i) = a0 (ix3 b n i) := by
  refine (broadcastInDim_apply _ _ _ (ix4 b n k i) (ix4 b n (0 : Fin 1) i) ?_).trans ?_
  · intro a; match a with
    | ⟨0, _⟩ => rfl
    | ⟨1, _⟩ => rfl
    | ⟨2, _⟩ => rfl
    | ⟨3, _⟩ => rfl
  · refine broadcastInDim_apply _ _ _ _ (ix3 b n i) ?_
    intro a; match a with
    | ⟨0, _⟩ => rfl
    | ⟨1, _⟩ => rfl
    | ⟨2, _⟩ => rfl

/-- The point's own row repeated over the neighbours, sixty-four entries wide. -/
private theorem own64_apply (a1 : C (F := Ideal) S4x16384x64) (b : Fin 4) (n : Fin 16384) (k : Fin 16) (i : Fin 64) :
    broadcastInDim S4x16384x16x64 ![0, 1, 2, 3] bcast_S4x16384x1x64_S4x16384x16x64_0_1_2_3
        (broadcastInDim S4x16384x1x64 ![0, 1, 3] bcast_S4x16384x64_S4x16384x1x64_0_1_3 a1) (ix4 b n k i) = a1 (ix3 b n i) := by
  refine (broadcastInDim_apply _ _ _ (ix4 b n k i) (ix4 b n (0 : Fin 1) i) ?_).trans ?_
  · intro a; match a with
    | ⟨0, _⟩ => rfl
    | ⟨1, _⟩ => rfl
    | ⟨2, _⟩ => rfl
    | ⟨3, _⟩ => rfl
  · refine broadcastInDim_apply _ _ _ _ (ix3 b n i) ?_
    intro a; match a with
    | ⟨0, _⟩ => rfl
    | ⟨1, _⟩ => rfl
    | ⟨2, _⟩ => rfl

section Cat
variable {α : Type} (x0 : S4x16384x16x3.Idx → α) (x1 x2 : S4x16384x16x64.Idx → α)
  (hc : Shape.Concatenates
    (([⟨S4x16384x16x3, x0⟩, ⟨S4x16384x16x64, x1⟩, ⟨S4x16384x16x64, x2⟩] : List ((s : Shape) × (s.Idx → α))).map (·.1))
    S4x16384x16x131 3)
  (b : Fin 4) (n : Fin 16384) (k : Fin 16) (i : Fin 131)

/-- Entries 0..2 of a row of widths 3, 64, 64 joined along the last axis come from the first piece. -/
private theorem cat3_first (h3 : i.val < 3) :
    concatenate S4x16384x16x131 3 [⟨S4x16384x16x3, x0⟩, ⟨S4x16384x16x64, x1⟩, ⟨S4x16384x16x64, x2⟩] hc (ix4 b n k i)
      = x0 (ix4 b n k (⟨i.val, h3⟩ : Fin 3)) := by
  refine concatenate_apply_piece (3 : Fin 4) [⟨S4x16384x16x3, x0⟩, ⟨S4x16384x16x64, x1⟩, ⟨S4x16384x16x64, x2⟩] hc
    (ix4 b n k i) 0 (by simp) S4x16384x16x3 x0 rfl rfl 0 rfl (ix4 b n k (⟨i.val, h3⟩ : Fin 3)) ?_ ?_
  · intro c hcc; match c with
    | ⟨0, _⟩ => rfl
    | ⟨1, _⟩ => rfl
    | ⟨2, _⟩ => rfl
    | ⟨3, _⟩ => exact absurd rfl hcc
  · show 0 + i.val = i.val; omega

/-- Entries 3..66 come from the second piece, three places down. -/
private theorem cat3_second (h3 : ¬ i.val < 3) (h67 : i.val < 67) :
    concatenate S4x16384x16x131 3 [⟨S4x16384x16x3, x0⟩, ⟨S4x16384x16x64, x1⟩, ⟨S4x16384x16x64, x2⟩] hc (ix4 b n k i)
      = x1 (ix4 b n k (⟨i.val - 3, by omega⟩ : Fin 64)) := by
  refine concatenate_apply_piece (3 : Fin 4) [⟨S4x16384x16x3, x0⟩, ⟨S4x16384x16x64, x1⟩, ⟨S4x16384x16x64, x2⟩] hc
    (ix4 b n k i) 1 (by simp) S4x16384x16x64 x1 rfl rfl 3 rfl (ix4 b n k (⟨i.val - 3, by omega⟩ : Fin 64)) ?_ ?_
  · intro c hcc; match c with
    | ⟨0, _⟩ => rfl
    | ⟨1, _⟩ => rfl
    | ⟨2, _⟩ => rfl
    | ⟨3, _⟩ => exact absurd rfl hcc
  · show 3 + (i.val - 3) = i.val; omega

/-- Entries 67..130 come from the third piece, sixty-seven places down. -/
private theorem cat3_third (h67 : ¬ i.val < 67) :
    concatenate S4x16384x16x131 3 [⟨S4x16384x16x3, x0⟩, ⟨S4x16384x16x64, x1⟩, ⟨S4x16384x16x64, x2⟩] hc (ix4 b n k i)
      = x2 (ix4 b n k (⟨i.val - 67, by have := i.isLt; omega⟩ : Fin 64)) := by
  refine concatenate_apply_piece (3 : Fin 4) [⟨S4x16384x16x3, x0⟩, ⟨S4x16384x16x64, x1⟩, ⟨S4x16384x16x64, x2⟩] hc
    (ix4 b n k i) 2 (by simp) S4x16384x16x64 x2 rfl rfl 67 rfl (ix4 b n k (⟨i.val - 67, by have := i.isLt; omega⟩ : Fin 64)) ?_ ?_
  · intro c hcc; match c with
    | ⟨0, _⟩ => rfl
    | ⟨1, _⟩ => rfl
    | ⟨2, _⟩ => rfl
    | ⟨3, _⟩ => exact absurd rfl hcc
  · show 67 + (i.val - 67) = i.val; omega

end Cat

/-- The concatenated row at an entry: the relative position, the point's features, the neighbour's features. -/
private theorem catT_apply (a0 : C (F := Ideal) S4x16384x3) (a1 : C (F := Ideal) S4x16384x64)
    (a2 : (⟨S4x16384x16, .i32⟩ : BufTy).Contents (Elt Ideal)) (b : Fin 4) (n : Fin 16384) (k : Fin 16) (i : Fin 131) :
    catT (F := Ideal) a0 a1 a2 (ix4 b n k i)
      = Cert.PN.catRow (Cert.PN.cur3 a0) (Cert.PN.cur3 a1) (Cert.PN.cur4 (gatherX a0 a2)) (Cert.PN.cur4 (gatherF a1 a2)) b n k i := by
  unfold catT Cert.PN.catRow
  by_cases h3 : i.val < 3
  · rw [dif_pos h3, cat3_first _ _ _ _ b n k i h3, subf_apply, own3_apply]
  · rw [dif_neg h3]
    by_cases h67 : i.val < 67
    · rw [dif_pos h67, cat3_second _ _ _ _ b n k i h3 h67, own64_apply]
    · rw [dif_neg h67, cat3_third _ _ _ _ b n k i h67]

/-! ### The two products: one contracted axis each, re-indexed by its coordinate -/

/-- The first product's dimension numbers: the row's 131 entries against the matrix's rows. -/
private abbrev D1 := dot_S4x16384x16x131_S131x128_S4x16384x16x128_3_0_012_1_n_n

private theorem lhs1_0 (j : S4x16384x16x128.Idx) (q : D1.contr.Idx) : (D1.lhsIdx j q 0 : ℕ) = j 0 := by
  simp [DotDims.lhsIdx, D1, dot_S4x16384x16x131_S131x128_S4x16384x16x128_3_0_012_1_n_n]; rfl
private theorem lhs1_1 (j : S4x16384x16x128.Idx) (q : D1.contr.Idx) : (D1.lhsIdx j q 1 : ℕ) = j 1 := by
  simp [DotDims.lhsIdx, D1, dot_S4x16384x16x131_S131x128_S4x16384x16x128_3_0_012_1_n_n]; rfl
private theorem lhs1_2 (j : S4x16384x16x128.Idx) (q : D1.contr.Idx) : (D1.lhsIdx j q 2 : ℕ) = j 2 := by
  simp [DotDims.lhsIdx, D1, dot_S4x16384x16x131_S131x128_S4x16384x16x128_3_0_012_1_n_n]; rfl
private theorem lhs1_3 (j : S4x16384x16x128.Idx) (q : D1.contr.Idx) : (D1.lhsIdx j q 3 : ℕ) = q ⟨0, by decide⟩ := by
  simp [DotDims.lhsIdx, D1, dot_S4x16384x16x131_S131x128_S4x16384x16x128_3_0_012_1_n_n]; rfl
private theorem rhs1_0 (j : S4x16384x16x128.Idx) (q : D1.contr.Idx) : (D1.rhsIdx j q 0 : ℕ) = q ⟨0, by decide⟩ := by
  simp [DotDims.rhsIdx, D1, dot_S4x16384x16x131_S131x128_S4x16384x16x128_3_0_012_1_n_n]; rfl
private theorem rhs1_1 (j : S4x16384x16x128.Idx) (q : D1.contr.Idx) : (D1.rhsIdx j q 1 : ℕ) = j 3 := by
  simp [DotDims.rhsIdx, D1, dot_S4x16384x16x131_S131x128_S4x16384x16x128_3_0_012_1_n_n]; rfl

/-- The first product at an entry: the sum over the row's 131 entries. -/
private theorem dot1_apply (x : FVec Ideal S4x16384x16x131 .f32) (w : FVec Ideal S131x128 .f32)
    (b : Fin 4) (n : Fin 16384) (k : Fin 16) (j : Fin 128) :
    Host.dotGeneral (F := Ideal) D1 none x w (ix4 b n k j) = ∑ i : Fin 131, x (ix4 b n k i) * w (ix2 i j) := by
  simp only [Host.dotGeneral]
  rw [Ideal.dotGeneral_apply, ← Equiv.sum_comp (contrEquiv1 D1 131 rfl rfl).symm]
  refine Finset.sum_congr rfl fun i _ => ?_
  congr 2
  · funext a; apply Fin.ext; match a with
    | ⟨0, _⟩ => exact lhs1_0 _ _
    | ⟨1, _⟩ => exact lhs1_1 _ _
    | ⟨2, _⟩ => exact lhs1_2 _ _
    | ⟨3, _⟩ => exact (lhs1_3 _ _).trans (contrEquiv1_symm_val D1 131 rfl rfl i)
  · funext a; apply Fin.ext; match a with
    | ⟨0, _⟩ => exact (rhs1_0 _ _).trans (contrEquiv1_symm_val D1 131 rfl rfl i)
    | ⟨1, _⟩ => exact rhs1_1 _ _

/-- The second product's dimension numbers: the 128 channels against the matrix's rows. -/
private abbrev D2 := dot_S4x16384x16x128_S128x128_S4x16384x16x128_3_0_012_1_n_n

private theorem lhs2_0 (j : S4x16384x16x128.Idx) (q : D2.contr.Idx) : (D2.lhsIdx j q 0 : ℕ) = j 0 := by
  simp [DotDims.lhsIdx, D2, dot_S4x16384x16x128_S128x128_S4x16384x16x128_3_0_012_1_n_n]; rfl
private theorem lhs2_1 (j : S4x16384x16x128.Idx) (q : D2.contr.Idx) : (D2.lhsIdx j q 1 : ℕ) = j 1 := by
  simp [DotDims.lhsIdx, D2, dot_S4x16384x16x128_S128x128_S4x16384x16x128_3_0_012_1_n_n]; rfl
private theorem lhs2_2 (j : S4x16384x16x128.Idx) (q : D2.contr.Idx) : (D2.lhsIdx j q 2 : ℕ) = j 2 := by
  simp [DotDims.lhsIdx, D2, dot_S4x16384x16x128_S128x128_S4x16384x16x128_3_0_012_1_n_n]; rfl
private theorem lhs2_3 (j : S4x16384x16x128.Idx) (q : D2.contr.Idx) : (D2.lhsIdx j q 3 : ℕ) = q ⟨0, by decide⟩ := by
  simp [DotDims.lhsIdx, D2, dot_S4x16384x16x128_S128x128_S4x16384x16x128_3_0_012_1_n_n]; rfl
private theorem rhs2_0 (j : S4x16384x16x128.Idx) (q : D2.contr.Idx) : (D2.rhsIdx j q 0 : ℕ) = q ⟨0, by decide⟩ := by
  simp [DotDims.rhsIdx, D2, dot_S4x16384x16x128_S128x128_S4x16384x16x128_3_0_012_1_n_n]; rfl
private theorem rhs2_1 (j : S4x16384x16x128.Idx) (q : D2.contr.Idx) : (D2.rhsIdx j q 1 : ℕ) = j 3 := by
  simp [DotDims.rhsIdx, D2, dot_S4x16384x16x128_S128x128_S4x16384x16x128_3_0_012_1_n_n]; rfl

/-- The second product at an entry: the sum over the 128 channels. -/
private theorem dot2_apply (x : FVec Ideal S4x16384x16x128 .f32) (w : FVec Ideal S128x128 .f32)
    (b : Fin 4) (n : Fin 16384) (k : Fin 16) (c : Fin 128) :
    Host.dotGeneral (F := Ideal) D2 none x w (ix4 b n k c) = ∑ j : Fin 128, x (ix4 b n k j) * w (ix2 j c) := by
  simp only [Host.dotGeneral]
  rw [Ideal.dotGeneral_apply, ← Equiv.sum_comp (contrEquiv1 D2 128 rfl rfl).symm]
  refine Finset.sum_congr rfl fun i _ => ?_
  congr 2
  · funext a; apply Fin.ext; match a with
    | ⟨0, _⟩ => exact lhs2_0 _ _
    | ⟨1, _⟩ => exact lhs2_1 _ _
    | ⟨2, _⟩ => exact lhs2_2 _ _
    | ⟨3, _⟩ => exact (lhs2_3 _ _).trans (contrEquiv1_symm_val D2 128 rfl rfl i)
  · funext a; apply Fin.ext; match a with
    | ⟨0, _⟩ => exact (rhs2_0 _ _).trans (contrEquiv1_symm_val D2 128 rfl rfl i)
    | ⟨1, _⟩ => exact rhs2_1 _ _

/-! ### The sum over batches, points and neighbours -/

/-- Dropping the batch, point and neighbour axes of (b, n, k, j) leaves the channel; -/
private theorem drop_ix4 (b : Fin 4) (n : Fin 16384) (k : Fin 16) (j : Fin 128) :
    reducesTo_S4x16384x16x128_S128_d0_1_2.drop (ix4 b n k j) = ix1 j := by
  funext c
  match c with
  | ⟨0, _⟩ => rfl

/-- and an index that drops to the channel j is (its first three coordinates, j); -/
private theorem eq_ix4_of_drop (i : S4x16384x16x128.Idx) (j : Fin 128)
    (h : reducesTo_S4x16384x16x128_S128_d0_1_2.drop i = ix1 j) : i = ix4 (i 0) (i 1) (i 2) j := by
  have h0 : (i 3).val = j.val := congrArg Fin.val (congrFun h 0)
  funext a
  match a with
  | ⟨0, _⟩ => rfl
  | ⟨1, _⟩ => rfl
  | ⟨2, _⟩ => rfl
  | ⟨3, _⟩ => exact Fin.ext h0

/-- so the indices summed at channel j are the (b, n, k, j). -/
private def tripleEmb (j : Fin 128) : Fin 4 × Fin 16384 × Fin 16 ↪ S4x16384x16x128.Idx :=
  ⟨fun p => ix4 p.1 p.2.1 p.2.2 j, fun p p' h => by
    have e0 : p.1 = p'.1 := congrFun h 0
    have e1 : p.2.1 = p'.2.1 := congrFun h 1
    have e2 : p.2.2 = p'.2.2 := congrFun h 2
    exact Prod.ext e0 (Prod.ext e1 e2)⟩

private theorem filter_drop3 (j : Fin 128) :
    Finset.univ.filter (fun i : S4x16384x16x128.Idx => reducesTo_S4x16384x16x128_S128_d0_1_2.drop i = ix1 j)
      = Finset.univ.map (tripleEmb j) := by
  ext i
  simp only [Finset.mem_filter, Finset.mem_univ, true_and, Finset.mem_map, tripleEmb, Function.Embedding.coeFn_mk]
  exact ⟨fun h => ⟨(i 0, i 1, i 2), (eq_ix4_of_drop i j h).symm⟩, fun ⟨p, hp⟩ => hp ▸ drop_ix4 p.1 p.2.1 p.2.2 j⟩

/-- The host's sum over batches, points and neighbours from the zero pattern, at a channel. -/
private theorem reduce3_apply (x : C (F := Ideal) S4x16384x16x128) (j : Fin 128) :
    Host.reduceAdd (F := Ideal) x (constant (F := Ideal) S_ .f32 0x00000000#32) reducesTo_S4x16384x16x128_S128_d0_1_2 h_S_ (ix1 j)
      = Cert.PN.zeroLit + Cert.PN.sum3 (Cert.PN.cur4 x) j := by
  rw [hostReduceAdd_apply]
  unfold Ideal.hostReduceAdd Cert.PN.sum3
  rw [filter_drop3, Finset.sum_map, Fintype.sum_prod_type]
  refine congrArg₂ (· + ·) rfl (Finset.sum_congr rfl fun b _ => ?_)
  rw [Fintype.sum_prod_type]
  rfl

private theorem sumT_apply (h : C (F := Ideal) S4x16384x16x128) (j : Fin 128) :
    sumT (F := Ideal) h (ix1 j) = Cert.PN.zeroLit + Cert.PN.sum3 (Cert.PN.cur4 h) j := by
  unfold sumT
  exact reduce3_apply h j

/-! ### Pre-activation, mean, divisor -/

/-- The pre-activation at an entry: one product over the row's 131 entries, then the bias. -/
private theorem preT_apply (a0 : C (F := Ideal) S4x16384x3) (a1 : C (F := Ideal) S4x16384x64)
    (a2 : (⟨S4x16384x16, .i32⟩ : BufTy).Contents (Elt Ideal)) (a3 : C (F := Ideal) S131x128) (a4 : C (F := Ideal) S128)
    (b : Fin 4) (n : Fin 16384) (k : Fin 16) (j : Fin 128) :
    preT (F := Ideal) a0 a1 a2 a3 a4 (ix4 b n k j)
      = Cert.PN.preR (Cert.PN.cur3 a0) (Cert.PN.cur3 a1) (Cert.PN.cur4 (gatherX a0 a2)) (Cert.PN.cur4 (gatherF a1 a2))
          (Cert.PN.cur2 a3) (Cert.PN.cur1 a4) b n k j := by
  unfold preT Cert.PN.preR
  rw [addf_apply, dot1_apply, bc4_apply]
  refine congrArg₂ (· + ·) (Finset.sum_congr rfl fun i _ => ?_) rfl
  rw [catT_apply]

/-- The mean at a channel. -/
private theorem meanT_apply (h : C (F := Ideal) S4x16384x16x128) (j : Fin 128) :
    meanT (F := Ideal) h (ix1 j) = Cert.PN.meanR (Cert.PN.cur4 h) j := by
  unfold meanT Cert.PN.meanR
  rw [hostDivf_apply, sumT_apply, broadcastInDim_scalar_apply, constant_apply]

/-- The divisor of the variance: the count less the integer zero read as a float, the count itself. -/
private theorem denT_apply : denT (F := Ideal) ix0 = Cert.PN.Nlit := by
  unfold denT
  rw [subf_apply, constant_apply, sitofp_apply]
  show Cert.PN.Nlit - (((0#32 : BitVec 32).toInt : ℝ) : EReal) = Cert.PN.Nlit
  simp

/-- The count is above zero, so the comparison's bit is one. -/
private theorem den_pos_bit :
    cmpf (F := Ideal) .ogt (denT (F := Ideal)) (constant (F := Ideal) S_ .f32 0x00000000#32) ix0 = 1#1 := by
  rw [cmpf_apply, denT_apply, constant_apply, Ideal.cmpf_def]
  show Ideal.cmp .ogt Cert.PN.Nlit Cert.PN.zeroLit = 1#1
  rw [Cert.PN.Nlit_eq, Cert.PN.zeroLit_eq]
  unfold Ideal.cmp
  have : (0 : EReal) < ((1048576 : ℝ) : EReal) := by exact_mod_cast (by norm_num : (0 : ℝ) < 1048576)
  simp [this]

/-! ### Variance, normalization, clip, maximum over the neighbours -/

/-- The mean as the variance computes it again, repeated over every batch, point and neighbour. -/
private theorem mean4_apply (h : C (F := Ideal) S4x16384x16x128) (b : Fin 4) (n : Fin 16384) (k : Fin 16) (j : Fin 128) :
    broadcastInDim S4x16384x16x128 ![0, 1, 2, 3] bcast_S1x1x1x128_S4x16384x16x128_0_1_2_3
        (Host.divf (F := Ideal) (broadcastInDim S1x1x1x128 ![3] bcast_S128_S1x1x1x128_3 (sumT (F := Ideal) h))
          (broadcastInDim S1x1x1x128 ![] bcast_S_S1x1x1x128 (constant (F := Ideal) S_ .f32 0x49800000#32))) (ix4 b n k j)
      = Cert.PN.meanR (Cert.PN.cur4 h) j := by
  refine (broadcastInDim_apply _ _ _ (ix4 b n k j) (ix4 (0 : Fin 1) (0 : Fin 1) (0 : Fin 1) j) ?_).trans ?_
  · intro a; match a with
    | ⟨0, _⟩ => rfl
    | ⟨1, _⟩ => rfl
    | ⟨2, _⟩ => rfl
    | ⟨3, _⟩ => rfl
  · have e1 : broadcastInDim S1x1x1x128 ![3] bcast_S128_S1x1x1x128_3 (sumT (F := Ideal) h)
        (ix4 (0 : Fin 1) (0 : Fin 1) (0 : Fin 1) j) = sumT (F := Ideal) h (ix1 j) :=
      broadcastInDim_apply _ _ _ _ (ix1 j) (by intro a; match a with | ⟨0, _⟩ => rfl)
    rw [hostDivf_apply, e1, sumT_apply, broadcastInDim_scalar_apply, constant_apply]
    rfl

/-- The variance at a channel: the divisor is positive, so the quotient is kept. -/
private theorem varT_apply (h : C (F := Ideal) S4x16384x16x128) (j : Fin 128) :
    varT (F := Ideal) h (ix1 j) = Cert.PN.varR (Cert.PN.cur4 h) j := by
  unfold varT Cert.PN.varR
  have hc : broadcastInDim S128 ![] bcast_S_S128
      (cmpf (F := Ideal) .ogt (denT (F := Ideal)) (constant (F := Ideal) S_ .f32 0x00000000#32)) (ix1 j) = 1#1 :=
    (broadcastInDim_scalar_apply _ _ _).trans den_pos_bit
  have hd : broadcastInDim S128 ![] bcast_S_S128 (denT (F := Ideal)) (ix1 j) = Cert.PN.Nlit :=
    (broadcastInDim_scalar_apply _ _ _).trans denT_apply
  rw [select_apply, hc, select_one, hostDivf_apply, reduce3_apply, hd]
  refine congrArg (fun s => Ideal.div (Cert.PN.zeroLit + s) Cert.PN.Nlit) ?_
  unfold Cert.PN.sum3
  refine Finset.sum_congr rfl fun b _ => Finset.sum_congr rfl fun n _ => Finset.sum_congr rfl fun k _ => ?_
  show mulf _ _ (ix4 b n k j) = _
  rw [mulf_apply, subf_apply, mean4_apply]
  rfl

/-- The reciprocal root of the variance plus the offset, at a channel. -/
private theorem rstd_apply (h : C (F := Ideal) S4x16384x16x128) (j : Fin 128) :
    Host.rsqrt (F := Ideal) (addf (varT (F := Ideal) h)
        (broadcastInDim S128 ![] bcast_S_S128 (constant (F := Ideal) S_ .f32 0x3727C5AC#32))) (ix1 j)
      = Ideal.rsqrt (Cert.PN.varR (Cert.PN.cur4 h) j + Cert.PN.epsLit) := by
  show FloatOps.hostUnary .rsqrt (addf _ _ (ix1 j)) = _
  rw [Ideal.hostUnary_rsqrt_def, addf_apply, varT_apply, broadcastInDim_scalar_apply, constant_apply]

/-- The normalized activation at an entry. -/
private theorem normT_apply (h : C (F := Ideal) S4x16384x16x128) (a5 a6 : C (F := Ideal) S128)
    (b : Fin 4) (n : Fin 16384) (k : Fin 16) (j : Fin 128) :
    normT (F := Ideal) h a5 a6 (ix4 b n k j)
      = Cert.PN.yR (Cert.PN.cur4 h) (Cert.PN.cur1 a5) (Cert.PN.cur1 a6) b n k j := by
  unfold normT Cert.PN.yR
  rw [addf_apply, mulf_apply, mulf_apply, subf_apply]
  simp only [bc4_apply]
  rw [meanT_apply, rstd_apply]

/-- The clip at zero at an entry. -/
private theorem reluT_apply (y : C (F := Ideal) S4x16384x16x128) (b : Fin 4) (n : Fin 16384) (k : Fin 16) (j : Fin 128) :
    reluT (F := Ideal) y (ix4 b n k j) = max (y (ix4 b n k j)) Cert.PN.zeroLit := by
  unfold reluT
  rw [maximumf_apply, broadcastInDim_scalar_apply, constant_apply]

/-- The shape fact of the maximum over the neighbours, in the form that names the inserted coordinate. -/
private theorem reduces_d2 : S4x16384x16x128.Reduces [2] S4x16384x128 := by decide

/-- The maximum over the neighbours from minus infinity at (b, n, c). -/
private theorem max16_apply (x : C (F := Ideal) S4x16384x16x128) (b : Fin 4) (n : Fin 16384) (c : Fin 128) :
    Host.reduce (FloatOps.maximumf (F := Ideal) (φ := .f32)) x (constant (F := Ideal) S_ .f32 0xFF800000#32)
        reducesTo_S4x16384x16x128_S4x16384x128_d2 h_S_ (ix3 b n c)
      = (Finset.univ : Finset (Fin 16)).fold max Cert.PN.ninfLit (fun k => x (ix4 b n k c)) := by
  rw [Host.reduce_eq_fold_single (FloatOps.maximumf (F := Ideal) (φ := .f32)) x _ _ reduces_d2 h_S_ (ix3 b n c)]
  show (Finset.univ : Finset (Fin 16)).fold max Cert.PN.ninfLit (fun k : Fin 16 => x (reduces_d2.lift (ix3 b n c) k)) = _
  refine Finset.fold_congr fun k _ => congrArg x ?_
  funext a; apply Fin.ext
  match a with
  | ⟨0, _⟩ => rfl
  | ⟨1, _⟩ => rfl
  | ⟨2, _⟩ => rfl
  | ⟨3, _⟩ => rfl

/-! ### The composed function -/

/-- The result at batch b, point n, channel ch. -/
theorem refOut_apply (a0 : C (F := Ideal) S4x16384x3) (a1 : C (F := Ideal) S4x16384x64)
    (a2 : (⟨S4x16384x16, .i32⟩ : BufTy).Contents (Elt Ideal)) (a3 : C (F := Ideal) S131x128)
    (a4 a5 a6 : C (F := Ideal) S128) (a7 : C (F := Ideal) S128x128) (a8 : C (F := Ideal) S128)
    (b : Fin 4) (n : Fin 16384) (ch : Fin 128) :
    refOut (F := Ideal) a0 a1 a2 a3 a4 a5 a6 a7 a8 (ix3 b n ch)
      = Cert.PN.tail
          (Cert.PN.yR
            (Cert.PN.preR (Cert.PN.cur3 a0) (Cert.PN.cur3 a1) (Cert.PN.cur4 (gatherX a0 a2)) (Cert.PN.cur4 (gatherF a1 a2))
              (Cert.PN.cur2 a3) (Cert.PN.cur1 a4))
            (Cert.PN.cur1 a5) (Cert.PN.cur1 a6))
          (Cert.PN.cur2 a7) (Cert.PN.cur1 a8) b n ch := by
  have hpre : Cert.PN.cur4 (preT (F := Ideal) a0 a1 a2 a3 a4)
      = Cert.PN.preR (Cert.PN.cur3 a0) (Cert.PN.cur3 a1) (Cert.PN.cur4 (gatherX a0 a2)) (Cert.PN.cur4 (gatherF a1 a2))
          (Cert.PN.cur2 a3) (Cert.PN.cur1 a4) := by
    funext b' n' k' j'
    exact preT_apply a0 a1 a2 a3 a4 b' n' k' j'
  unfold refOut
  rw [max16_apply]
  unfold Cert.PN.tail
  refine Finset.fold_congr fun k _ => ?_
  rw [addf_apply, dot2_apply, bc4_apply]
  refine congrArg₂ (· + ·) (Finset.sum_congr rfl fun j _ => ?_) rfl
  rw [reluT_apply, normT_apply, hpre]

end Cert.ReferenceIdeal.RV

end
-- ==== Proof.SpecPre.lean ====
/-
  Two facts about the pre-activation: the sum over the 131 entries of the concatenated row is the three partial sums
  added in order (addition on the extended reals is associative and commutative; no finiteness is needed), and real
  inputs give a real pre-activation.
-/
import proofs.«157681_j22162031247559_1_alg».proof.Proof.Spec
import Mathlib.Algebra.BigOperators.Fin
import Mathlib.Data.EReal.Basic

noncomputable section

open scoped BigOperators

namespace Cert.PN

open Idealize.ShloMosaic Idealize.ShloMosaic.ValueIdx

/-- The coercion from the reals commutes with finite sums. -/
theorem SpecPre_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem SpecPre_real_sum {ι : Type*} (s : Finset ι) (f : ι → EReal) (h : ∀ i, ∃ r : ℝ, f i = r) :
    ∃ r : ℝ, ∑ i ∈ s, f i = r := by
  choose g hg using h
  exact ⟨∑ i ∈ s, g i, by rw [SpecPre_coe_sum]; exact Finset.sum_congr rfl (fun i _ => hg i)⟩

/-- A sum over 131 = 3 + 64 + 64 indices is the sum over the first 3, plus the next 64, plus the last 64:
    first cut at 67, then cut the first 67 at 3. -/
private theorem sum_131 {M : Type*} [AddCommMonoid M] (f : Fin 131 → M) :
    ∑ i : Fin 131, f i
      = (∑ i : Fin 3, f ⟨i.val, by omega⟩ + ∑ i : Fin 64, f ⟨3 + i.val, by omega⟩)
        + ∑ i : Fin 64, f ⟨67 + i.val, by omega⟩ := by
  have h1 := Fin.sum_univ_add (a := 67) (b := 64) (f := f)
  have h2 := Fin.sum_univ_add (a := 3) (b := 64) (f := fun i : Fin 67 => f (Fin.castAdd 64 i))
  rw [h1, h2]
  rfl

section Pre
variable (xyz : Fin 4 → Fin 16384 → Fin 3 → EReal) (feat : Fin 4 → Fin 16384 → Fin 64 → EReal)
  (XN : Fin 4 → Fin 16384 → Fin 16 → Fin 3 → EReal) (FN : Fin 4 → Fin 16384 → Fin 16 → Fin 64 → EReal)

/-- Splitting the sum over 131 entries into 3 + 64 + 64. -/
theorem preK_eq_preR (W1 : Fin 131 → Fin 128 → EReal) (b1 : Fin 128 → EReal) :
    preK xyz feat XN FN (rowsX W1) (rowsC W1) (rowsN W1) b1 = preR xyz feat XN FN W1 b1 := by
  funext b n k j
  unfold preK preR
  rw [sum_131]
  refine congrArg (fun t => t + b1 j) ?_
  refine congrArg₂ (· + ·) (congrArg₂ (· + ·) ?_ ?_) ?_
  · -- entries 0..2: the relative position
    refine Finset.sum_congr rfl (fun i _ => ?_)
    unfold catRow
    rw [dif_pos (show (⟨i.val, by omega⟩ : Fin 131).val < 3 from i.isLt)]
  · -- entries 3..66: the point's own features, index shifted by 3
    refine Finset.sum_congr rfl (fun i _ => ?_)
    unfold catRow
    rw [dif_neg (show ¬ (⟨3 + i.val, by omega⟩ : Fin 131).val < 3 from by show ¬ 3 + i.val < 3; omega),
      dif_pos (show (⟨3 + i.val, by omega⟩ : Fin 131).val < 67 from by show 3 + i.val < 67; omega)]
    congr 2
    exact Fin.ext (by show i.val = 3 + i.val - 3; omega)
  · -- entries 67..130: the neighbour's features, index shifted by 67
    refine Finset.sum_congr rfl (fun i _ => ?_)
    unfold catRow
    rw [dif_neg (show ¬ (⟨67 + i.val, by omega⟩ : Fin 131).val < 3 from by show ¬ 67 + i.val < 3; omega),
      dif_neg (show ¬ (⟨67 + i.val, by omega⟩ : Fin 131).val < 67 from by show ¬ 67 + i.val < 67; omega)]
    congr 2
    exact Fin.ext (by show i.val = 67 + i.val - 67; omega)

/-- Real inputs give a real pre-activation. -/
theorem preK_real (wx : Fin 3 → Fin 128 → EReal) (wc wn : Fin 64 → Fin 128 → EReal) (b1 : Fin 128 → EReal)
    (hxyz : ∀ b n i, ∃ r : ℝ, xyz b n i = r) (hfeat : ∀ b n i, ∃ r : ℝ, feat b n i = r)
    (hXN : ∀ b n k i, ∃ r : ℝ, XN b n k i = r) (hFN : ∀ b n k i, ∃ r : ℝ, FN b n k i = r)
    (hwx : ∀ i j, ∃ r : ℝ, wx i j = r) (hwc : ∀ i j, ∃ r : ℝ, wc i j = r) (hwn : ∀ i j, ∃ r : ℝ, wn i j = r)
    (hb1 : ∀ j, ∃ r : ℝ, b1 j = r) (b : Fin 4) (n : Fin 16384) (k : Fin 16) (j : Fin 128) :
    ∃ r : ℝ, preK xyz feat XN FN wx wc wn b1 b n k j = r := by
  unfold preK
  -- each of the three partial sums is a real number: every summand is a product of reals
  obtain ⟨r1, h1⟩ := SpecPre_real_sum Finset.univ (fun i : Fin 3 => (XN b n k i - xyz b n i) * wx i j) (fun i => by
    obtain ⟨a, ha⟩ := hXN b n k i
    obtain ⟨c, hc⟩ := hxyz b n i
    obtain ⟨w, hw⟩ := hwx i j
    exact ⟨(a - c) * w, by rw [ha, hc, hw, EReal.coe_mul, EReal.coe_sub]⟩)
  obtain ⟨r2, h2⟩ := SpecPre_real_sum Finset.univ (fun i : Fin 64 => feat b n i * wc i j) (fun i => by
    obtain ⟨a, ha⟩ := hfeat b n i
    obtain ⟨w, hw⟩ := hwc i j
    exact ⟨a * w, by rw [ha, hw, EReal.coe_mul]⟩)
  obtain ⟨r3, h3⟩ := SpecPre_real_sum Finset.univ (fun i : Fin 64 => FN b n k i * wn i j) (fun i => by
    obtain ⟨a, ha⟩ := hFN b n k i
    obtain ⟨w, hw⟩ := hwn i j
    exact ⟨a * w, by rw [ha, hw, EReal.coe_mul]⟩)
  obtain ⟨r4, h4⟩ := hb1 j
  exact ⟨r1 + r2 + r3 + r4, by rw [h1, h2, h3, h4, EReal.coe_add, EReal.coe_add, EReal.coe_add]⟩

end Pre

end Cert.PN

end
-- ==== Proof.SpecNorm.lean ====
/-
  The two normalizations agree on real data: with N the count, S = sum H, Q = sum H^2 and m = S / N,
  sum (H - m)^2 = Q - N m^2, so the two variances are one real number v >= 0; v + eps > 0 makes the reciprocal
  square root a real number r, and H (g r) + (b - m (g r)) = ((H - m) r) g + b in the reals.
-/
import proofs.«157681_j22162031247559_1_alg».proof.Proof.Spec
import proofs.«157681_j22162031247559_1_alg».proof.Proof.Consts
import Mathlib.Algebra.BigOperators.Fin
import Mathlib.Data.EReal.Basic
import Mathlib.Analysis.SpecialFunctions.Pow.Real

noncomputable section

open scoped BigOperators

namespace Cert.PN

open Idealize.ShloMosaic Idealize.ShloMosaic.ValueIdx

/-- The sum of real numbers read in the extended reals is the real sum. -/
private theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- Expanding the square: sum (f - m)^2 = sum f^2 - 2 m sum f + N m^2, with N = 4 * 16384 * 16 the number of terms. -/
private theorem sum_centred_sq (f : Fin 4 → Fin 16384 → Fin 16 → ℝ) (m : ℝ) :
    (∑ b, ∑ n, ∑ k, (f b n k - m) * (f b n k - m))
      = (∑ b, ∑ n, ∑ k, f b n k * f b n k) - 2 * m * (∑ b, ∑ n, ∑ k, f b n k) + 1048576 * (m * m) := by
  have e : ∀ b n k, (f b n k - m) * (f b n k - m) = f b n k * f b n k - 2 * m * f b n k + m * m := by
    intro b n k; ring
  simp only [e, Finset.sum_add_distrib, Finset.sum_sub_distrib, ← Finset.mul_sum, Finset.sum_const,
    Finset.card_univ, Fintype.card_fin, nsmul_eq_mul]
  push_cast
  ring

/-- A sum of squares is not negative. -/
private theorem sum_centred_sq_nonneg (f : Fin 4 → Fin 16384 → Fin 16 → ℝ) (m : ℝ) :
    0 ≤ ∑ b, ∑ n, ∑ k, (f b n k - m) * (f b n k - m) :=
  Finset.sum_nonneg fun b _ => Finset.sum_nonneg fun n _ => Finset.sum_nonneg fun k _ => mul_self_nonneg _

/-- Real data read in the extended reals. -/
private abbrev up (h : Fin 4 → Fin 16384 → Fin 16 → Fin 128 → ℝ) : Act := fun b n k j => ((h b n k j : ℝ) : EReal)

/-- The real mean of channel j: the sum over all (b, n, k) divided by the count. -/
private def mr (h : Fin 4 → Fin 16384 → Fin 16 → Fin 128 → ℝ) (j : Fin 128) : ℝ :=
  (∑ b, ∑ n, ∑ k, h b n k j) * (1 / 1048576)

/-- The real variance of channel j, as the mean of the squares minus the square of the mean. -/
private def vr (h : Fin 4 → Fin 16384 → Fin 16 → Fin 128 → ℝ) (j : Fin 128) : ℝ :=
  (∑ b, ∑ n, ∑ k, h b n k j * h b n k j) * (1 / 1048576) - mr h j * mr h j

private theorem sum3_up (h : Fin 4 → Fin 16384 → Fin 16 → Fin 128 → ℝ) (j : Fin 128) :
    sum3 (up h) j = ((∑ b, ∑ n, ∑ k, h b n k j : ℝ) : EReal) := by
  simp only [sum3, coe_sum]

private theorem sq_up (h : Fin 4 → Fin 16384 → Fin 16 → Fin 128 → ℝ) :
    sq (up h) = up (fun b n k j => h b n k j * h b n k j) := by
  funext b n k j
  simp only [sq, EReal.coe_mul]

private theorem meanK_up (h : Fin 4 → Fin 16384 → Fin 16 → Fin 128 → ℝ) (j : Fin 128) :
    meanK (up h) j = ((mr h j : ℝ) : EReal) := by
  rw [meanK, sum3_up, Nlit_eq, Ideal.div_coe (by norm_num), ← EReal.coe_mul, mr]

private theorem meanR_up (h : Fin 4 → Fin 16384 → Fin 16 → Fin 128 → ℝ) (j : Fin 128) :
    meanR (up h) j = ((mr h j : ℝ) : EReal) := by
  rw [meanR, zeroLit_eq, zero_add, sum3_up, Nlit_eq, Ideal.div_coe (by norm_num), ← EReal.coe_mul, mr]

private theorem varK_up (h : Fin 4 → Fin 16384 → Fin 16 → Fin 128 → ℝ) (j : Fin 128) :
    varK (up h) j = ((vr h j : ℝ) : EReal) := by
  rw [varK, sq_up, sum3_up, meanK_up, Nlit_eq, Ideal.div_coe (by norm_num), ← EReal.coe_mul, ← EReal.coe_mul,
    ← EReal.coe_sub, vr]

private theorem centred_up (h : Fin 4 → Fin 16384 → Fin 16 → Fin 128 → ℝ) :
    centred (up h) = up (fun b n k j => h b n k j - mr h j) := by
  funext b n k j
  rw [centred, meanR_up, ← EReal.coe_sub]

/-- The mean of the centred squares is the same real number: sum (h - m)^2 = Q - N m^2 because N m = S. -/
private theorem varR_up (h : Fin 4 → Fin 16384 → Fin 16 → Fin 128 → ℝ) (j : Fin 128) :
    varR (up h) j = ((vr h j : ℝ) : EReal) := by
  rw [varR, zeroLit_eq, zero_add, centred_up, sq_up, sum3_up, Nlit_eq, Ideal.div_coe (by norm_num),
    ← EReal.coe_mul, sum_centred_sq (fun b n k => h b n k j) (mr h j), vr, mr]
  congr 1
  ring

/-- The variance is not negative. -/
private theorem vr_nonneg (h : Fin 4 → Fin 16384 → Fin 16 → Fin 128 → ℝ) (j : Fin 128) : 0 ≤ vr h j := by
  have e : vr h j = (∑ b, ∑ n, ∑ k, (h b n k j - mr h j) * (h b n k j - mr h j)) * (1 / 1048576) := by
    rw [sum_centred_sq (fun b n k => h b n k j) (mr h j), vr, mr]
    ring
  rw [e]
  exact mul_nonneg (sum_centred_sq_nonneg (fun b n k => h b n k j) (mr h j)) (by norm_num)

/-- The two normalizations agree when every H, gamma and beta is a real number. -/
theorem yK_eq_yR (H : Act) (γ β : Fin 128 → EReal) (hH : ∀ b n k j, ∃ r : ℝ, H b n k j = r)
    (hγ : ∀ j, ∃ r : ℝ, γ j = r) (hβ : ∀ j, ∃ r : ℝ, β j = r) : yK H γ β = yR H γ β := by
  choose h hh using hH
  choose g hg using hγ
  choose bt hbt using hβ
  obtain rfl : H = up h := by funext b n k j; exact hh b n k j
  obtain rfl : γ = fun j => ((g j : ℝ) : EReal) := funext hg
  obtain rfl : β = fun j => ((bt j : ℝ) : EReal) := funext hbt
  obtain ⟨e, he0, he⟩ := epsLit_pos
  funext b n k j
  have hpos : 0 < vr h j + e := add_pos_of_nonneg_of_pos (vr_nonneg h j) he0
  simp only [yK, yR, affine, scaleK, shiftK, meanK_up, meanR_up, varK_up, varR_up]
  rw [he, ← EReal.coe_add, Ideal.rsqrt_coe, if_neg (not_lt.mpr hpos.le), if_neg hpos.ne']
  simp only [← EReal.coe_mul, ← EReal.coe_sub, ← EReal.coe_add]
  congr 1
  ring

end Cert.PN

end
-- ==== Proof.FinIn.lean ====
/-
  The precondition read: every entry of each float argument array is a real number (its absolute value is below
  plus infinity).
-/
import proofs.«157681_j22162031247559_1_alg».proof.Proof.Gen.Pre_finite_inputs
import Idealize.ShloMosaic.Lib.ReduceAll
import Idealize.ShloMosaic.Lib.ValueIdx
import Idealize.ShloMosaic.PureOps.Ideal.Laws

noncomputable section

namespace Cert.PN

open Idealize.ShloMosaic Idealize.ShloMosaic.ValueIdx Cert.Pre_finite_inputs

/-- The empty-rank shape has exactly one index. -/
private instance subsingleton_S_Idx : Subsingleton S_.Idx := ⟨fun a b => funext fun d => d.elim0⟩

/-- An extended real whose absolute value max a (-a) lies strictly below plus infinity is a real number: the two
    infinities both have absolute value plus infinity. -/
private theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exact absurd h (by simp [Ideal.cmp])
  | top => exact absurd h (by simp [Ideal.cmp])
  | coe r => exact ⟨r, rfl⟩

/-- One array of any shape: if the conjunction over all indices of "absolute value below plus infinity" is one, every
    entry is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0
        = 1#1) :
    ∀ i, ∃ r : ℝ, x i = (r : EReal) := by
  intro i
  have hi := Host.reduce_andi_all _ init hr hu ix0 e i
  exact real_of_abs_lt_top (x i) hi

/-- If the finiteness predicate of the nine argument arrays is all ones at the extended reals, every entry of the
    eight float arrays is a real number. -/
theorem real_of_fn (a0 : FVec Ideal S4x16384x3 .f32) (a1 : FVec Ideal S4x16384x64 .f32) (a2 : IVec S4x16384x16 32)
    (a3 : FVec Ideal S131x128 .f32) (a4 a5 a6 : FVec Ideal S128 .f32) (a7 : FVec Ideal S128x128 .f32)
    (a8 : FVec Ideal S128 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) := by
  have h0 := congrFun h ix0
  dsimp only [Cert.Pre_finite_inputs.fn, Cert.Pre_finite_inputs.fn_part1, Cert.Pre_finite_inputs.fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e1⟩ := IntOp.andi_eq_one.1 h0
  exact ⟨real_of_all a0 _ _ _ _ e0, real_of_all a1 _ _ _ _ e1, real_of_all a3 _ _ _ _ e3, real_of_all a4 _ _ _ _ e4,
    real_of_all a5 _ _ _ _ e5, real_of_all a6 _ _ _ _ e6, real_of_all a7 _ _ _ _ e7, real_of_all a8 _ _ _ _ e8⟩

end Cert.PN

end
-- ==== Proof.lean ====
/-
  Two programs for one point-cloud layer: each point's 16 neighbours are gathered, the row (neighbour position minus
  own position, own features, neighbour features) is mapped linearly to 128 channels, normalized per channel by the
  mean and variance over all 4 * 16384 * 16 samples, clipped at zero, mapped linearly again and maximized over the
  neighbours. One program runs two tiled regions — the first accumulates the sum and the sum of squares of the
  pre-activation across its grid, the second recomputes the pre-activation and applies the normalization folded into
  one scale and one shift — the other is a plain sequence of whole-array operations.

  On the extended reals the two agree wherever the inputs are finite: the three partial products add up to the one
  product over the concatenated row (associativity of addition); E[H^2] - E[H]^2 is E[(H - E[H])^2] and
  H * (g r) + (b - m (g r)) is ((H - m) r) g + b on real numbers; the gathers only pick entries of finite arrays.
  The frames of the tiled programs are the generated ones; the plain program's frame is its run with the result dropped.
-/
import proofs.«157681_j22162031247559_1_alg».proof.Defs
import proofs.«157681_j22162031247559_1_alg».proof.Proof.Gen.Kernel.Frame
import proofs.«157681_j22162031247559_1_alg».proof.Proof.KValue
import proofs.«157681_j22162031247559_1_alg».proof.Proof.RefRun
import proofs.«157681_j22162031247559_1_alg».proof.Proof.RefValue
import proofs.«157681_j22162031247559_1_alg».proof.Proof.SpecPre
import proofs.«157681_j22162031247559_1_alg».proof.Proof.SpecNorm
import proofs.«157681_j22162031247559_1_alg».proof.Proof.FinIn

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RV.run (F := Ideal) m ρ)

/-- A gathered array only holds entries of its operand: it is real where the operand is. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- The two results agree entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.KV.run_named (F := Ideal) m ρ, ?_⟩
  refine (θ_run Cert.ReferenceIdeal.defs _ _).mono (fun _ h c => ⟨(h c).1.trans ?_, (h c).2⟩)
    (Cert.ReferenceIdeal.RV.run (F := Ideal) m' ρ')
  obtain ⟨e0, e1, e2, e3, e4, e5, e6, e7, e8⟩ := hagree c
  rw [e0, e1, e2, e3, e4, e5, e6, e7, e8]
  obtain ⟨r0, r1, r3, r4, r5, r6, r7, r8⟩ := Cert.PN.real_of_fn _ _ _ _ _ _ _ _ _ (hpre c)
  funext o
  obtain ⟨b, n, ch, rfl⟩ : ∃ (b : Fin 4) (n : Fin 16384) (ch : Fin 128), o = ix3 b n ch := ⟨o 0, o 1, o 2, eq_ix3 o⟩
  rw [Cert.ReferenceIdeal.RV.refOut_apply]
  refine Eq.trans ?_ (Cert.KernelIdeal.KV.result_apply m ρ c b n ch).symm
  unfold Cert.KernelIdeal.KV.Hk Cert.KernelIdeal.KV.preOf
  rw [Cert.KernelIdeal.KV.wxT_cur, Cert.KernelIdeal.KV.wcT_cur, Cert.KernelIdeal.KV.wnT_cur,
    show (fun j => Cert.KernelIdeal.KV.rowT (F := Ideal) (m ((c.tc : Thread Cert.KernelIdeal.nD Cert.KernelIdeal.τ).loc Cert.KernelIdeal.main_arg4)) (ix2 (0 : Fin 1) j)) = Cert.PN.cur1 (m ((c.tc : Thread Cert.KernelIdeal.nD Cert.KernelIdeal.τ).loc Cert.KernelIdeal.main_arg4)) from
      funext fun j => Cert.KernelIdeal.KV.rowT_apply _ j,
    show (fun j => Cert.KernelIdeal.KV.rowT (F := Ideal) (m ((c.tc : Thread Cert.KernelIdeal.nD Cert.KernelIdeal.τ).loc Cert.KernelIdeal.main_arg8)) (ix2 (0 : Fin 1) j)) = Cert.PN.cur1 (m ((c.tc : Thread Cert.KernelIdeal.nD Cert.KernelIdeal.τ).loc Cert.KernelIdeal.main_arg8)) from
      funext fun j => Cert.KernelIdeal.KV.rowT_apply _ j,
    Cert.PN.preK_eq_preR, Cert.PN.yK_eq_yR]
  · rfl
  · intro b n k j
    rw [← Cert.PN.preK_eq_preR]
    exact Cert.PN.preK_real _ _ _ _ _ _ _ _ (fun b n i => r0 _) (fun b n i => r1 _)
      (fun b n k i => gather_real _ _ _ r0 _) (fun b n k i => gather_real _ _ _ r1 _)
      (fun i j => r3 _) (fun i j => r3 _) (fun i j => r3 _) (fun j => r4 _) b n k j
  · exact fun j => r5 _
  · exact fun j => r6 _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
